-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S1024x256 .f32 .bf16
  ∧ IdealRules.truncf_extf.Statement Cert.KernelIdeal.S2048x256 .f32 .bf16
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S30000x256 : Shape := ⟨2, ![30000, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S50000 : Shape := ⟨1, ![50000]⟩
abbrev S2048x100 : Shape := ⟨2, ![2048, 100]⟩
abbrev S2048x256 : Shape := ⟨2, ![2048, 256]⟩
abbrev S2048 : Shape := ⟨1, ![2048]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S30000x256 : S_.BroadcastsInDim S30000x256 (![] : Fin 0 → Fin S30000x256.rank)
  reducesTo_S30000x256_S_d0_1 : S30000x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_
  bcast_S_S2048x100 : S_.BroadcastsInDim S2048x100 (![] : Fin 0 → Fin S2048x100.rank)
  reducesTo_S2048x100_S_d0_1 : S2048x100.ReducesTo [0, 1] S_
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg9 : IVec S2048 32) (main_v47 : IVec S_ 1) (main_v49 : IVec S2048 1) (main_c_19 : IVec S_ 32) : IVec S_ 1 :=
  let main_v50 : IVec S2048 32 := broadcastInDim S2048 ![] bcast_S_S2048 main_c_19
  let main_v51 : IVec S2048 1 := cmpi .slt main_arg9 main_v50
  let main_v52 : IVec S2048 1 := andi main_v49 main_v51
  let main_c_20 : IVec S_ 1 := constantI S_ 1 1#1
  let main_v53 : IVec S_ 1 := (fun x v => Host.reduce IntOp.andi x v reducesTo_S2048_S_d0 h_S_) main_v52 main_c_20
  let main_v54 : IVec S_ 1 := andi main_v47 main_v53
  main_v54

def fn_part2 {F : FTy → Type} [FloatOps F] (main_arg7 : IVec S2048x100 32) (main_arg8 : IVec S2048x256 32) (main_arg9 : IVec S2048 32) (main_v33 : IVec S_ 1) : IVec S_ 1 :=
  let main_c_12 : IVec S_ 32 := constantI S_ 32 0#32
  let main_v34 : IVec S2048x100 32 := broadcastInDim S2048x100 ![] bcast_S_S2048x100 main_c_12
  let main_v35 : IVec S2048x100 1 := cmpi .sge main_arg7 main_v34
  let main_c_13 : IVec S_ 32 := constantI S_ 32 50000#32
  let main_v36 : IVec S2048x100 32 := broadcastInDim S2048x100 ![] bcast_S_S2048x100 main_c_13
  let main_v37 : IVec S2048x100 1 := cmpi .slt main_arg7 main_v36
  let main_v38 : IVec S2048x100 1 := andi main_v35 main_v37
  let main_c_14 : IVec S_ 1 := constantI S_ 1 1#1
  let main_v39 : IVec S_ 1 := (fun x v => Host.reduce IntOp.andi x v reducesTo_S2048x100_S_d0_1 h_S_) main_v38 main_c_14
  let main_v40 : IVec S_ 1 := andi main_v33 main_v39
  let main_c_15 : IVec S_ 32 := constantI S_ 32 0#32
  let main_v41 : IVec S2048x256 32 := broadcastInDim S2048x256 ![] bcast_S_S2048x256 main_c_15
  let main_v42 : IVec S2048x256 1 := cmpi .sge main_arg8 main_v41
  let main_c_16 : IVec S_ 32 := constantI S_ 32 30000#32
  let main_v43 : IVec S2048x256 32 := broadcastInDim S2048x256 ![] bcast_S_S2048x256 main_c_16
  let main_v44 : IVec S2048x256 1 := cmpi .slt main_arg8 main_v43
  let main_v45 : IVec S2048x256 1 := andi main_v42 main_v44
  let main_c_17 : IVec S_ 1 := constantI S_ 1 1#1
  let main_v46 : IVec S_ 1 := (fun x v => Host.reduce IntOp.andi x v reducesTo_S2048x256_S_d0_1 h_S_) main_v45 main_c_17
  let main_v47 : IVec S_ 1 := andi main_v40 main_v46
  let main_c_18 : IVec S_ 32 := constantI S_ 32 0#32
  let main_v48 : IVec S2048 32 := broadcastInDim S2048 ![] bcast_S_S2048 main_c_18
  let main_v49 : IVec S2048 1 := cmpi .sge main_arg9 main_v48
  let main_c_19 : IVec S_ 32 := constantI S_ 32 50000#32
  fn_part3 (F := F) main_arg9 main_v47 main_v49 main_c_19

def fn_part1 {F : FTy → Type} [FloatOps F] (main_arg4 : FVec F S1x256 .f32) (main_arg5 : FVec F S1 .f32) (main_arg6 : FVec F S50000 .f32) (main_arg7 : IVec S2048x100 32) (main_arg8 : IVec S2048x256 32) (main_arg9 : IVec S2048 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S50000 .f32 := Host.absf main_arg6
  let main_cst_10 : FVec F S_ .f32 := constant S_ .f32 0x7F800000#32
  let main_v30 : FVec F S50000 .f32 := broadcastInDim S50000 ![] bcast_S_S50000 main_cst_10
  let main_v31 : IVec S50000 1 := cmpf .olt main_v29 main_v30
  let main_c_11 : IVec S_ 1 := constantI S_ 1 1#1
  let main_v32 : IVec S_ 1 := (fun x v => Host.reduce IntOp.andi x v reducesTo_S50000_S_d0 h_S_) main_v31 main_c_11
  let main_v33 : IVec S_ 1 := andi main_v28 main_v32
  fn_part2 (F := F) main_arg7 main_arg8 main_arg9 main_v33

def fn {F : FTy → Type} [FloatOps F] (main_arg0 : FVec F S50000x256 .f32) (main_arg1 : FVec F S30000x256 .f32) (main_arg2 : FVec F S256x512 .f32) (main_arg3 : FVec F S256 .f32) (main_arg4 : FVec F S1x256 .f32) (main_arg5 : FVec F S1 .f32) (main_arg6 : FVec F S50000 .f32) (main_arg7 : IVec S2048x100 32) (main_arg8 : IVec S2048x256 32) (main_arg9 : IVec S2048 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S30000x256 .f32 := Host.absf main_arg1
  let main_cst_0 : FVec F S_ .f32 := constant S_ .f32 0x7F800000#32
  let main_v5 : FVec F S30000x256 .f32 := broadcastInDim S30000x256 ![] bcast_S_S30000x256 main_cst_0
  let main_v6 : IVec S30000x256 1 := cmpf .olt main_v4 main_v5
  let main_c_1 : IVec S_ 1 := constantI S_ 1 1#1
  let main_v7 : IVec S_ 1 := (fun x v => Host.reduce IntOp.andi x v reducesTo_S30000x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S50000x256 : Shape := ⟨2, ![50000, 256]⟩
abbrev S30000x256 : Shape := ⟨2, ![30000, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S50000 : Shape := ⟨1, ![50000]⟩
abbrev S2048x100 : Shape := ⟨2, ![2048, 100]⟩
abbrev S2048x256 : Shape := ⟨2, ![2048, 256]⟩
abbrev S2048 : Shape := ⟨1, ![2048]⟩
abbrev S_ : Shape := ⟨0, ![]⟩
abbrev S2048x100x1 : Shape := ⟨3, ![2048, 100, 1]⟩
abbrev S1x1x1 : Shape := ⟨3, ![1, 1, 1]⟩
abbrev S2048x100x256 : Shape := ⟨3, ![2048, 100, 256]⟩
abbrev S2048x256x1 : Shape := ⟨3, ![2048, 256, 1]⟩
abbrev S2048x256x256 : Shape := ⟨3, ![2048, 256, 256]⟩
abbrev S2048x512 : Shape := ⟨2, ![2048, 512]⟩
abbrev S512x256 : Shape := ⟨2, ![512, 256]⟩
abbrev S256x1 : Shape := ⟨2, ![256, 1]⟩
abbrev S2048x1 : Shape := ⟨2, ![2048, 1]⟩
abbrev S1x1 : Shape := ⟨2, ![1, 1]⟩
abbrev S1x50000 : Shape := ⟨2, ![1, 50000]⟩
abbrev S2048x50000 : Shape := ⟨2, ![2048, 50000]⟩
abbrev S1024x256 : Shape := ⟨2, ![1024, 256]⟩
abbrev S1x2048 : Shape := ⟨2, ![1, 2048]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 105
  | .vmem => 17
  | .smem => 0
  | _ => 0

abbrev bufTy : (tb : Table) → Fin (tcTables nBuf tb) → BufTy
  | .hbm, ⟨0, _⟩ => ⟨S50000x256, .f32⟩
  | .hbm, ⟨1, _⟩ => ⟨S30000x256, .f32⟩
  | .hbm, ⟨2, _⟩ => ⟨S256x512, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S50000, .f32⟩
  | .hbm, ⟨7, _⟩ => ⟨S2048x100, .i32⟩
  | .hbm, ⟨8, _⟩ => ⟨S2048x256, .i32⟩
  | .hbm, ⟨9, _⟩ => ⟨S2048, .i32⟩
  | .hbm, ⟨10, _⟩ => ⟨S_, .i32⟩
  | .hbm, ⟨11, _⟩ => ⟨S2048x100, .i32⟩
  | .hbm, ⟨12, _⟩ => ⟨S2048x100, .i1⟩
  | .hbm, ⟨13, _⟩ => ⟨S_, .i32⟩
  | .hbm, ⟨14, _⟩ => ⟨S2048x100, .i32⟩
  | .hbm, ⟨15, _⟩ => ⟨S2048x100, .i32⟩
  | .hbm, ⟨16, _⟩ => ⟨S2048x100, .i32⟩
  | .hbm, ⟨17, _⟩ => ⟨S2048x100x1, .i32⟩
  | .hbm, ⟨18, _⟩ => ⟨S1, .i32⟩
  | .hbm, ⟨19, _⟩ => ⟨S_, .i32⟩
  | .hbm, ⟨20, _⟩ => ⟨S2048x100x1, .i32⟩
  | .hbm, ⟨21, _⟩ => ⟨S2048x100x1, .i1⟩
  | .hbm, ⟨22, _⟩ => ⟨S1x1x1, .i32⟩
  | .hbm, ⟨23, _⟩ => ⟨S2048x100x1, .i32⟩
  | .hbm, ⟨24, _⟩ => ⟨S2048x100x1, .i1⟩
  | .hbm, ⟨25, _⟩ => ⟨S2048x100x1, .i1⟩
  | .hbm, ⟨26, _⟩ => ⟨S_, .i1⟩
  | .hbm, ⟨27, _⟩ => ⟨S2048x100, .i1⟩
  | .hbm, ⟨28, _⟩ => ⟨S2048x100x256, .f32⟩
  | .hbm, ⟨29, _⟩ => ⟨S2048x100x256, .i1⟩
  | .hbm, ⟨30, _⟩ => ⟨S_, .f32⟩
  | .hbm, ⟨31, _⟩ => ⟨S2048x100x256, .f32⟩
  | .hbm, ⟨32, _⟩ => ⟨S2048x100x256, .f32⟩
  | .hbm, ⟨33, _⟩ => ⟨S_, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S_, .i32⟩
  | .hbm, ⟨39, _⟩ => ⟨S2048x256, .i32⟩
  | .hbm, ⟨40, _⟩ => ⟨S2048x256, .i1⟩
  | .hbm, ⟨41, _⟩ => ⟨S_, .i32⟩
  | .hbm, ⟨42, _⟩ => ⟨S2048x256, .i32⟩
  | .hbm, ⟨43, _⟩ => ⟨S2048x256, .i32⟩
  | .hbm, ⟨44, _⟩ => ⟨S2048x256, .i32⟩
  | .hbm, ⟨45, _⟩ => ⟨S2048x256x1, .i32⟩
  | .hbm, ⟨46, _⟩ => ⟨S1, .i32⟩
  | .hbm, ⟨47, _⟩ => ⟨S_, .i32⟩
  | .hbm, ⟨48, _⟩ => ⟨S2048x256x1, .i32⟩
  | .hbm, ⟨49, _⟩ => ⟨S2048x256x1, .i1⟩
  | .hbm, ⟨50, _⟩ => ⟨S1x1x1, .i32⟩
  | .hbm, ⟨51, _⟩ => ⟨S2048x256x1, .i32⟩
  | .hbm, ⟨52, _⟩ => ⟨S2048x256x1, .i1⟩
  | .hbm, ⟨53, _⟩ => ⟨S2048x256x1, .i1⟩
  | .hbm, ⟨54, _⟩ => ⟨S_, .i1⟩
  | .hbm, ⟨55, _⟩ => ⟨S2048x256, .i1⟩
  | .hbm, ⟨56, _⟩ => ⟨S2048x256x256, .f32⟩
  | .hbm, ⟨57, _⟩ => ⟨S2048x256x256, .i1⟩
  | .hbm, ⟨58, _⟩ => ⟨S_, .f32⟩
  | .hbm, ⟨59, _⟩ => ⟨S2048x256x256, .f32⟩
  | .hbm, ⟨60, _⟩ => ⟨S2048x256x256, .f32⟩
  | .hbm, ⟨61, _⟩ => ⟨S_, .f32⟩
  | .hbm, ⟨62, _⟩ => ⟨S2048x256, .f32⟩
  | .hbm, ⟨63, _⟩ => ⟨S_, .f32⟩
  | .hbm, ⟨64, _⟩ => ⟨S2048x256, .f32⟩
  | .hbm, ⟨65, _⟩ => ⟨S2048x256, .f32⟩
  | .hbm, ⟨66, _⟩ => ⟨S2048x512, .f32⟩
  | .hbm, ⟨67, _⟩ => ⟨S512x256, .f32⟩
  | .hbm, ⟨68, _⟩ => ⟨S2048x256, .f32⟩
  | .hbm, ⟨69, _⟩ => ⟨S1x256, .f32⟩
  | .hbm, ⟨70, _⟩ => ⟨S2048x256, .f32⟩
  | .hbm, ⟨71, _⟩ => ⟨S2048x256, .f32⟩
  | .hbm, ⟨72, _⟩ => ⟨S256x1, .f32⟩
  | .hbm, ⟨73, _⟩ => ⟨S2048x1, .f32⟩
  | .hbm, ⟨74, _⟩ => ⟨S1x1, .f32⟩
  | .hbm, ⟨75, _⟩ => ⟨S2048x1, .f32⟩
  | .hbm, ⟨76, _⟩ => ⟨S2048x1, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S2048x256, .f32⟩
  | .hbm, ⟨86, _⟩ => ⟨S2048x256, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S2048x256, .f32⟩
  | .hbm, ⟨91, _⟩ => ⟨S2048x256, .f32⟩
  | .hbm, ⟨92, _⟩ => ⟨S2048x256, .f32⟩
  | .hbm, ⟨93, _⟩ => ⟨S1x50000, .f32⟩
  | .hbm, ⟨94, _⟩ => ⟨S2048x1, .i32⟩
  | .hbm, ⟨95, _⟩ => ⟨S2048x50000, .f32⟩
  | .hbm, ⟨96, _⟩ => ⟨S2048x1, .f32⟩
  | .hbm, ⟨97, _⟩ => ⟨S2048x1, .f32⟩
  | .hbm, ⟨98, _⟩ => ⟨S2048, .f32⟩
  | .hbm, ⟨99, _⟩ => ⟨S2048, .f32⟩
  | .hbm, ⟨100, _⟩ => ⟨S2048, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S1024x1, .i32⟩
  | .local _ .vmem, ⟨7, _⟩ => ⟨S1024x1, .i32⟩
  | .local _ .vmem, ⟨8, _⟩ => ⟨S1024x2048, .f32⟩
  | .local _ .vmem, ⟨9, _⟩ => ⟨S1024x2048, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v4 : Ref sig .tc := ⟨.hbm, 60, rfl⟩
abbrev main_cst_1 : Ref sig .tc := ⟨.hbm, 61, rfl⟩
abbrev main_v5 : Ref sig .tc := ⟨.hbm, 62, rfl⟩
abbrev main_cst_2 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_cst_3 : Ref sig .tc := ⟨.hbm, 79, rfl⟩
abbrev main_v21 : Ref sig .tc := ⟨.hbm, 80, rfl⟩
abbrev main_v22 : Ref sig .tc := ⟨.hbm, 81, rfl⟩
abbrev main_cst_4 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_cst_5 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34_0 : Ref sig .tc := ⟨.hbm, 95, rfl⟩
abbrev main_v34_1 : Ref sig .tc := ⟨.hbm, 96, rfl⟩
abbrev main_v34_2 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_cst_6 : Ref sig .tc := ⟨.hbm, 101, rfl⟩
abbrev main_v38 : Ref sig .tc := ⟨.hbm, 102, rfl⟩
abbrev main_cst_7 : Ref sig .tc := ⟨.hbm, 103, rfl⟩
abbrev main_v39 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v66 : BitVec 1 := Scalar.cmpi .eq arg1 c24_i32
  let v67 : BitVec 32 := Scalar.extui v66
  let c0_i32_31 : BitVec 32 := 0#32
  let v68 : BitVec 1 := Scalar.cmpi .ne v67 c0_i32_31
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S2048x100 : S_.BroadcastsInDim S2048x100 (![] : Fin 0 → Fin S2048x100.rank)
  bcast_S2048x100_S2048x100x1_0_1 : S2048x100.BroadcastsInDim S2048x100x1 (![0, 1] : Fin 2 → Fin S2048x100x1.rank)
  bcast_S_S2048x100x1 : S_.BroadcastsInDim S2048x100x1 (![] : Fin 0 → Fin S2048x100x1.rank)
  bcast_S1_S1x1x1_2 : S1.BroadcastsInDim S1x1x1 (![2] : Fin 1 → Fin S1x1x1.rank)
  bcast_S1x1x1_S2048x100x1_0_1_2 : S1x1x1.BroadcastsInDim S2048x100x1 (![0, 1, 2] : Fin 3 → Fin S2048x100x1.rank)
  reducesTo_S2048x100x1_S2048x100_d2 : S2048x100x1.ReducesTo [2] S2048x100
  h_S_ : 0 < S_.numel
  bcast_S2048x100_S2048x100x256_0_1 : S2048x100.BroadcastsInDim S2048x100x256 (![0, 1] : Fin 2 → Fin S2048x100x256.rank)
  bcast_S_S2048x100x256 : S_.BroadcastsInDim S2048x100x256 (![] : Fin 0 → Fin S2048x100x256.rank)
  reducesTo_S2048x100x256_S2048x256_d1 : S2048x100x256.ReducesTo [1] S2048x256
  bcast_S_S2048x256 : S_.BroadcastsInDim S2048x256 (![] : Fin 0 → Fin S2048x256.rank)
  bcast_S2048x256_S2048x256x1_0_1 : S2048x256.BroadcastsInDim S2048x256x1 (![0, 1] : Fin 2 → Fin S2048x256x1.rank)
  bcast_S_S2048x256x1 : S_.BroadcastsInDim S2048x256x1 (![] : Fin 0 → Fin S2048x256x1.rank)
  bcast_S1x1x1_S2048x256x1_0_1_2 : S1x1x1.BroadcastsInDim S2048x256x1 (![0, 1, 2] : Fin 3 → Fin S2048x256x1.rank)
  reducesTo_S2048x256x1_S2048x256_d2 : S2048x256x1.ReducesTo [2] S2048x256
  bcast_S2048x256_S2048x256x256_0_1 : S2048x256.BroadcastsInDim S2048x256x256 (![0, 1] : Fin 2 → Fin S2048x256x256.rank)
  bcast_S_S2048x256x256 : S_.BroadcastsInDim S2048x256x256 (![] : Fin 0 → Fin S2048x256x256.rank)
  reducesTo_S2048x256x256_S2048x256_d1 : S2048x256x256.ReducesTo [1] S2048x256
  concatenates_S2048x256_S2048x256_S2048x512_d1 : Shape.Concatenates [S2048x256, S2048x256] S2048x512 1
  transposes_S256x512_S512x256_1_0 : S256x512.Transposes [1, 0] S512x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  transposes_S1x256_S256x1_1_0 : S1x256.Transposes [1, 0] S256x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  bcast_S50000_S1x50000_1 : S50000.BroadcastsInDim S1x50000 (![1] : Fin 1 → Fin S1x50000.rank)
  bcast_S2048_S2048x1_0 : S2048.BroadcastsInDim S2048x1 (![0] : Fin 1 → Fin S2048x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  iota_S1024x2048_d1_w32 : S1024x2048.Iotas .tc 32 [1]
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  broadcasts_S1024x1_S1024x2048 : S1024x1.Broadcasts S1024x2048
  shapeCasts_S2048x1_S2048 : S2048x1.ShapeCasts S2048
  reducesTo_S2048_S_d0 : S2048.ReducesTo [0] S_
  gather_S50000x256_S2048x100x1_S2048x100x256_2_0_n_n_0_2_1256_wf : GatherDims.WF S50000x256 S2048x100x1 S2048x100x256 [2] [0] [] [0] [] 2 ![1, 256]
  gather_S30000x256_S2048x256x1_S2048x256x256_2_0_n_n_0_2_1256_wf : GatherDims.WF S30000x256 S2048x256x1 S2048x256x256 [2] [0] [] [0] [] 2 ![1, 256]
  dot_S2048x512_S512x256_S2048x256_1_0_0_1_n_n_wf : DotDims.WF S2048x512 S512x256 S2048x256 [1] [0] [0] [1] [] []
  dot_S2048x256_S256x1_S2048x1_1_0_0_1_n_n_wf : DotDims.WF S2048x256 S256x1 S2048x1 [1] [0] [0] [1] [] []
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x256.size a
  hwx0_0 : ∀ i : grid0.Coords, EltTy.bits .f32 = 32 ∨ (Rect.block (s := S2048x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x256.size a < S50000x256.size a
  hwx0_1 : ∀ i : grid0.Coords, EltTy.bits .f32 = 32 ∨ (Rect.unit (s := S50000x256) (fun a => cc0_transform_1 i a * S2048x256.size a) (fun a => (Pipeline.Clip.of (cc0_transform_1 i a) (S2048x256.size a) (S50000x256.size a)).extent (S2048x256.size a)) fun a => Pipeline.Clip.inb (Pipeline.Clip.ok_of (hstart0_1 i a))).WholeWords (EltTy.packing .f32)
  hwxs0_1 : ∀ i : grid0.Coords, EltTy.bits .f32 = 32 ∨ (Rect.unit (s := S2048x256) (fun _ => 0) (fun a => (Pipeline.Clip.of (cc0_transform_1 i a) (S2048x256.size a) (S50000x256.size a)).extent (S2048x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x50000.size a
  hwx0_2 : ∀ i : grid0.Coords, EltTy.bits .f32 = 32 ∨ (Rect.unit (s := S1x50000) (fun a => cc0_transform_2 i a * S1x2048.size a) (fun a => (Pipeline.Clip.of (cc0_transform_2 i a) (S1x2048.size a) (S1x50000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x50000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .i32 = 32 ∨ (Rect.block (s := S2048x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x2048.size a < S2048x50000.size a
  hwx0_4 : ∀ i : grid0.Coords, EltTy.bits .f32 = 32 ∨ (Rect.unit (s := S2048x50000) (fun a => cc0_transform_4 i a * S1024x2048.size a) (fun a => (Pipeline.Clip.of (cc0_transform_4 i a) (S1024x2048.size a) (S2048x50000.size a)).extent (S1024x2048.size a)) fun a => Pipeline.Clip.inb (Pipeline.Clip.ok_of (hstart0_4 i a))).WholeWords (EltTy.packing .f32)
  hwxs0_4 : ∀ i : grid0.Coords, EltTy.bits .f32 = 32 ∨ (Rect.unit (s := S1024x2048) (fun _ => 0) (fun a => (Pipeline.Clip.of (cc0_transform_4 i a) (S1024x2048.size a) (S2048x50000.size a)).extent (S1024x2048.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S2048x1.size a
  hwx0_5 : ∀ i : grid0.Coords, EltTy.bits .f32 = 32 ∨ (Rect.block (s := S2048x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S2048x1.size a
  hwx0_6 : ∀ i : grid0.Coords, EltTy.bits .f32 = 32 ∨ (Rect.block (s := S2048x1) S1024x1.size (cc0_transform_6 i) (hinb0_6 i)).WholeWords (EltTy.packing .f32)

variable [Facts₀]

def gather_S50000x256_S2048x100x1_S2048x100x256_2_0_n_n_0_2_1256 : GatherDims S50000x256 S2048x100x1 S2048x100x256 where
  offsetDims := [2]
  collapsedSliceDims := [0]
  operandBatchingDims := []
  startIndicesBatchingDims := []
  startIndexMap := [0]
  indexVectorDim := 2
  sliceSizes := ![1, 256]
  wf := gather_S50000x256_S2048x100x1_S2048x100x256_2_0_n_n_0_2_1256_wf
def gather_S30000x256_S2048x256x1_S2048x256x256_2_0_n_n_0_2_1256 : GatherDims S30000x256 S2048x256x1 S2048x256x256 where
  offsetDims := [2]
  collapsedSliceDims := [0]
  operandBatchingDims := []
  startIndicesBatchingDims := []
  startIndexMap := [0]
  indexVectorDim := 2
  sliceSizes := ![1, 256]
  wf := gather_S30000x256_S2048x256x1_S2048x256x256_2_0_n_n_0_2_1256_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v31) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg0) S2048x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v32) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v33) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v34_0) S1024x2048.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v34_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S50000x256 : Shape := ⟨2, ![50000, 256]⟩
abbrev S30000x256 : Shape := ⟨2, ![30000, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S50000 : Shape := ⟨1, ![50000]⟩
abbrev S2048x100 : Shape := ⟨2, ![2048, 100]⟩
abbrev S2048x256 : Shape := ⟨2, ![2048, 256]⟩
abbrev S2048 : Shape := ⟨1, ![2048]⟩
abbrev S_ : Shape := ⟨0, ![]⟩
abbrev S2048x100x1 : Shape := ⟨3, ![2048, 100, 1]⟩
abbrev S2048x100x256 : Shape := ⟨3, ![2048, 100, 256]⟩
abbrev S2048x256x1 : Shape := ⟨3, ![2048, 256, 1]⟩
abbrev S2048x256x256 : Shape := ⟨3, ![2048, 256, 256]⟩
abbrev S2048x512 : Shape := ⟨2, ![2048, 512]⟩
abbrev S512x256 : Shape := ⟨2, ![512, 256]⟩
abbrev S256x1 : Shape := ⟨2, ![256, 1]⟩
abbrev S2048x1 : Shape := ⟨2, ![2048, 1]⟩
abbrev S1x1 : Shape := ⟨2, ![1, 1]⟩
abbrev S256x50000 : Shape := ⟨2, ![256, 50000]⟩
abbrev S2048x50000 : Shape := ⟨2, ![2048, 50000]⟩
abbrev S1x50000 : Shape := ⟨2, ![1, 50000]⟩
abbrev S2048x1x1 : Shape := ⟨3, ![2048, 1, 1]⟩
abbrev S1x1x1 : Shape := ⟨3, ![1, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S30000x256, .f32⟩
  | .hbm, ⟨2, _⟩ => ⟨S256x512, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S50000, .f32⟩
  | .hbm, ⟨7, _⟩ => ⟨S2048x100, .i32⟩
  | .hbm, ⟨8, _⟩ => ⟨S2048x256, .i32⟩
  | .hbm, ⟨9, _⟩ => ⟨S2048, .i32⟩
  | .hbm, ⟨10, _⟩ => ⟨S_, .i32⟩
  | .hbm, ⟨11, _⟩ => ⟨S2048x100, .i32⟩
  | .hbm, ⟨12, _⟩ => ⟨S2048x100, .i1⟩
  | .hbm, ⟨13, _⟩ => ⟨S_, .i32⟩
  | .hbm, ⟨14, _⟩ => ⟨S2048x100, .i32⟩
  | .hbm, ⟨15, _⟩ => ⟨S2048x100, .i32⟩
  | .hbm, ⟨16, _⟩ => ⟨S2048x100, .i32⟩
  | .hbm, ⟨17, _⟩ => ⟨S2048x100x1, .i32⟩
  | .hbm, ⟨18, _⟩ => ⟨S2048x100x256, .f32⟩
  | .hbm, ⟨19, _⟩ => ⟨S_, .f32⟩
  | .hbm, ⟨20, _⟩ => ⟨S2048x256, .f32⟩
  | .hbm, ⟨21, _⟩ => ⟨S_, .f32⟩
  | .hbm, ⟨22, _⟩ => ⟨S2048x256, .f32⟩
  | .hbm, ⟨23, _⟩ => ⟨S2048x256, .f32⟩
  | .hbm, ⟨24, _⟩ => ⟨S_, .i32⟩
  | .hbm, ⟨25, _⟩ => ⟨S2048x256, .i32⟩
  | .hbm, ⟨26, _⟩ => ⟨S2048x256, .i1⟩
  | .hbm, ⟨27, _⟩ => ⟨S_, .i32⟩
  | .hbm, ⟨28, _⟩ => ⟨S2048x256, .i32⟩
  | .hbm, ⟨29, _⟩ => ⟨S2048x256, .i32⟩
  | .hbm, ⟨30, _⟩ => ⟨S2048x256, .i32⟩
  | .hbm, ⟨31, _⟩ => ⟨S2048x256x1, .i32⟩
  | .hbm, ⟨32, _⟩ => ⟨S2048x256x256, .f32⟩
  | .hbm, ⟨33, _⟩ => ⟨S_, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S2048x512, .f32⟩
  | .hbm, ⟨39, _⟩ => ⟨S512x256, .f32⟩
  | .hbm, ⟨40, _⟩ => ⟨S2048x256, .f32⟩
  | .hbm, ⟨41, _⟩ => ⟨S1x256, .f32⟩
  | .hbm, ⟨42, _⟩ => ⟨S2048x256, .f32⟩
  | .hbm, ⟨43, _⟩ => ⟨S2048x256, .f32⟩
  | .hbm, ⟨44, _⟩ => ⟨S256x1, .f32⟩
  | .hbm, ⟨45, _⟩ => ⟨S2048x1, .f32⟩
  | .hbm, ⟨46, _⟩ => ⟨S1x1, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x256, .f32⟩
  | .hbm, ⟨58, _⟩ => ⟨S2048x256, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x256, .f32⟩
  | .hbm, ⟨63, _⟩ => ⟨S2048x256, .f32⟩
  | .hbm, ⟨64, _⟩ => ⟨S2048x256, .f32⟩
  | .hbm, ⟨65, _⟩ => ⟨S256x50000, .f32⟩
  | .hbm, ⟨66, _⟩ => ⟨S2048x50000, .f32⟩
  | .hbm, ⟨67, _⟩ => ⟨S1x50000, .f32⟩
  | .hbm, ⟨68, _⟩ => ⟨S2048x50000, .f32⟩
  | .hbm, ⟨69, _⟩ => ⟨S2048x50000, .f32⟩
  | .hbm, ⟨70, _⟩ => ⟨S_, .f32⟩
  | .hbm, ⟨71, _⟩ => ⟨S2048, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048x1, .f32⟩
  | .hbm, ⟨76, _⟩ => ⟨S2048x50000, .f32⟩
  | .hbm, ⟨77, _⟩ => ⟨S2048x50000, .f32⟩
  | .hbm, ⟨78, _⟩ => ⟨S2048x50000, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x1, .f32⟩
  | .hbm, ⟨83, _⟩ => ⟨S2048x50000, .f32⟩
  | .hbm, ⟨84, _⟩ => ⟨S2048x50000, .f32⟩
  | .hbm, ⟨85, _⟩ => ⟨S2048x1, .i32⟩
  | .hbm, ⟨86, _⟩ => ⟨S_, .i32⟩
  | .hbm, ⟨87, _⟩ => ⟨S2048x1, .i32⟩
  | .hbm, ⟨88, _⟩ => ⟨S2048x1, .i1⟩
  | .hbm, ⟨89, _⟩ => ⟨S_, .i32⟩
  | .hbm, ⟨90, _⟩ => ⟨S2048x1, .i32⟩
  | .hbm, ⟨91, _⟩ => ⟨S2048x1, .i32⟩
  | .hbm, ⟨92, _⟩ => ⟨S2048x1, .i32⟩
  | .hbm, ⟨93, _⟩ => ⟨S2048x1x1, .i32⟩
  | .hbm, ⟨94, _⟩ => ⟨S1, .i32⟩
  | .hbm, ⟨95, _⟩ => ⟨S_, .i32⟩
  | .hbm, ⟨96, _⟩ => ⟨S2048x1x1, .i32⟩
  | .hbm, ⟨97, _⟩ => ⟨S2048x1x1, .i1⟩
  | .hbm, ⟨98, _⟩ => ⟨S1x1x1, .i32⟩
  | .hbm, ⟨99, _⟩ => ⟨S2048x1x1, .i32⟩
  | .hbm, ⟨100, _⟩ => ⟨S2048x1x1, .i1⟩
  | .hbm, ⟨101, _⟩ => ⟨S2048x1x1, .i1⟩
  | .hbm, ⟨102, _⟩ => ⟨S_, .i1⟩
  | .hbm, ⟨103, _⟩ => ⟨S2048x1, .i1⟩
  | .hbm, ⟨104, _⟩ => ⟨S2048x1, .f32⟩
  | .hbm, ⟨105, _⟩ => ⟨S_, .f32⟩
  | .hbm, ⟨106, _⟩ => ⟨S2048x1, .f32⟩
  | .hbm, ⟨107, _⟩ => ⟨S2048x1, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_call0_cst_0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_cst_1 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_v49 : Ref sig .tc := ⟨.hbm, 84, rfl⟩
abbrev main_v50 : Ref sig .tc := ⟨.hbm, 85, rfl⟩
abbrev main_call1_c : Ref sig .tc := ⟨.hbm, 86, rfl⟩
abbrev main_call1_v0 : Ref sig .tc := ⟨.hbm, 87, rfl⟩
abbrev main_call1_v1 : Ref sig .tc := ⟨.hbm, 88, rfl⟩
abbrev main_call1_c_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_c_1 : Ref sig .tc := ⟨.hbm, 94, rfl⟩
abbrev main_call1_c_2 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_3 : Ref sig .tc := ⟨.hbm, 102, rfl⟩
abbrev main_call1_v12 : Ref sig .tc := ⟨.hbm, 103, rfl⟩
abbrev main_call1_v13 : Ref sig .tc := ⟨.hbm, 104, rfl⟩
abbrev main_call1_cst : Ref sig .tc := ⟨.hbm, 105, rfl⟩
abbrev main_call1_v14 : Ref sig .tc := ⟨.hbm, 106, rfl⟩
abbrev main_v51 : Ref sig .tc := ⟨.hbm, 107, rfl⟩
abbrev main_cst_9 : Ref sig .tc := ⟨.hbm, 108, rfl⟩
abbrev main_v52 : Ref sig .tc := ⟨.hbm, 109, rfl⟩
abbrev main_cst_10 : Ref sig .tc := ⟨.hbm, 110, rfl⟩
abbrev main_v53 : Ref sig .tc := ⟨.hbm, 111, rfl⟩
abbrev main_v54 : Ref sig .tc := ⟨.hbm, 112, rfl⟩

abbrev nD : Nat := 1
abbrev τ : Topo := Topo.v7x

variable {F : FTy → Type} [FloatOps F]

class Facts₀ : Prop where
  bcast_S_S2048x100 : S_.BroadcastsInDim S2048x100 (![] : Fin 0 → Fin S2048x100.rank)
  bcast_S2048x100_S2048x100x1_0_1 : S2048x100.BroadcastsInDim S2048x100x1 (![0, 1] : Fin 2 → Fin S2048x100x1.rank)
  reducesTo_S2048x100x256_S2048x256_d1 : S2048x100x256.ReducesTo [1] S2048x256
  h_S_ : 0 < S_.numel
  bcast_S_S2048x256 : S_.BroadcastsInDim S2048x256 (![] : Fin 0 → Fin S2048x256.rank)
  bcast_S2048x256_S2048x256x1_0_1 : S2048x256.BroadcastsInDim S2048x256x1 (![0, 1] : Fin 2 → Fin S2048x256x1.rank)
  reducesTo_S2048x256x256_S2048x256_d1 : S2048x256x256.ReducesTo [1] S2048x256
  concatenates_S2048x256_S2048x256_S2048x512_d1 : Shape.Concatenates [S2048x256, S2048x256] S2048x512 1
  transposes_S256x512_S512x256_1_0 : S256x512.Transposes [1, 0] S512x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  transposes_S1x256_S256x1_1_0 : S1x256.Transposes [1, 0] S256x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  transposes_S50000x256_S256x50000_1_0 : S50000x256.Transposes [1, 0] S256x50000
  bcast_S50000_S1x50000_1 : S50000.BroadcastsInDim S1x50000 (![1] : Fin 1 → Fin S1x50000.rank)
  bcast_S1x50000_S2048x50000_0_1 : S1x50000.BroadcastsInDim S2048x50000 (![0, 1] : Fin 2 → Fin S2048x50000.rank)
  reducesTo_S2048x50000_S2048_d1 : S2048x50000.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x50000_0_1 : S2048x1.BroadcastsInDim S2048x50000 (![0, 1] : Fin 2 → Fin S2048x50000.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  reducesTo_S2048x1_S_d0_1 : S2048x1.ReducesTo [0, 1] S_
  gather_S50000x256_S2048x100x1_S2048x100x256_2_0_n_n_0_2_1256_wf : GatherDims.WF S50000x256 S2048x100x1 S2048x100x256 [2] [0] [] [0] [] 2 ![1, 256]
  gather_S30000x256_S2048x256x1_S2048x256x256_2_0_n_n_0_2_1256_wf : GatherDims.WF S30000x256 S2048x256x1 S2048x256x256 [2] [0] [] [0] [] 2 ![1, 256]
  dot_S2048x512_S512x256_S2048x256_1_0_0_1_n_n_wf : DotDims.WF S2048x512 S512x256 S2048x256 [1] [0] [0] [1] [] []
  dot_S2048x256_S256x1_S2048x1_1_0_0_1_n_n_wf : DotDims.WF S2048x256 S256x1 S2048x1 [1] [0] [0] [1] [] []
  dot_S2048x256_S256x50000_S2048x50000_1_0_0_1_n_n_wf : DotDims.WF S2048x256 S256x50000 S2048x50000 [1] [0] [0] [1] [] []
  gather_S2048x50000_S2048x1x1_S2048x1_n_1_0_0_1_2_11_wf : GatherDims.WF S2048x50000 S2048x1x1 S2048x1 [] [1] [0] [1] [0] 2 ![1, 1]

variable [Facts₀]

def gather_S50000x256_S2048x100x1_S2048x100x256_2_0_n_n_0_2_1256 : GatherDims S50000x256 S2048x100x1 S2048x100x256 where
  offsetDims := [2]
  collapsedSliceDims := [0]
  operandBatchingDims := []
  startIndicesBatchingDims := []
  startIndexMap := [0]
  indexVectorDim := 2
  sliceSizes := ![1, 256]
  wf := gather_S50000x256_S2048x100x1_S2048x100x256_2_0_n_n_0_2_1256_wf
def gather_S30000x256_S2048x256x1_S2048x256x256_2_0_n_n_0_2_1256 : GatherDims S30000x256 S2048x256x1 S2048x256x256 where
  offsetDims := [2]
  collapsedSliceDims := [0]
  operandBatchingDims := []
  startIndicesBatchingDims := []
  startIndexMap := [0]
  indexVectorDim := 2
  sliceSizes := ![1, 256]
  wf := gather_S30000x256_S2048x256x1_S2048x256x256_2_0_n_n_0_2_1256_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S2048x256_S256x50000_S2048x50000_1_0_0_1_n_n : DotDims S2048x256 S256x50000 S2048x50000 where
  lhsContracting := [1]
  rhsContracting := [0]
  lhsNonContracting := [0]
  rhsNonContracting := [1]
  lhsBatch := []
  rhsBatch := []
  wf := dot_S2048x256_S256x50000_S2048x50000_1_0_0_1_n_n_wf
def gather_S2048x50000_S2048x1x1_S2048x1_n_1_0_0_1_2_11 : GatherDims S2048x50000 S2048x1x1 S2048x1 where
  offsetDims := []
  collapsedSliceDims := [1]
  operandBatchingDims := [0]
  startIndicesBatchingDims := [0]
  startIndexMap := [1]
  indexVectorDim := 2
  sliceSizes := ![1, 1]
  wf := gather_S2048x50000_S2048x1x1_S2048x1_n_1_0_0_1_2_11_wf

class Facts : Prop extends Facts₀ where

variable [Facts]
-- ==== Proof.KFrame.lean ====
/-
  The frame of the word-level program: every weakly fair execution of @main terminates without fault and leaves the
  ten argument arrays as launched.

  @main is some ninety host operations, one region on a 2 × 25 grid, and seven host operations after it. The region
  stages seven windows: the user block and the labels block (inputs, fetched when the column tile is the first), the
  entity block and the bias block (inputs fetched at every point, whose last column tile overhangs its array, so
  that past the array's end the staging buffer holds words nothing names), the scores tile and the two result
  columns (outputs). The body only reads the four inputs' buffers; it stores whole buffers into the scores tile's, the
  three carried columns and, at the last column tile, the two result columns'. Nothing here says what those stores
  write: the three outputs are forgotten, the carried columns are owned at any contents by the region invariant, and
  the seven later host operations write seven fresh buffers of which nothing is stated either. What is stated: the
  unclipped inputs' buffers hold their blocks before and after the body, the clipped inputs' buffers hold their blocks
  on the part inside the array. The entity table is the one argument a window stages; as an input array it ends as
  the region found it, which is as launched since no earlier host operation writes it. The nine other arguments
  bypass the region and no host operation writes them.
-/
import proofs.«401027_j10093173145844_3_alg».proof.Proof.Gen.Kernel.Frame
import proofs.«401027_j10093173145844_3_alg».proof.Proof.Gen.Kernel.Skeleton

set_option maxRecDepth 16384

noncomputable section

namespace Cert.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's first branch (the carried columns are reset at the first column tile), from the grid
    coordinates. -/
abbrev cond0 (i : grid0.Coords) : Prop := (Scalar.cmpi .ne (Scalar.extui (Scalar.cmpi .eq (BitVec.ofNat 32 (i 1).val) 0#32)) 0#32) = 1#1
/-- The condition of the body's second branch (the two result columns are written at the last column tile). -/
abbrev cond1 (i : grid0.Coords) : Prop := k0_cond2 i = 1#1

/-! ## The body on whole memrefs, case by case -/

set_option maxHeartbeats 4000000 in
/-- The body on whole memrefs, the carried columns reset, the two result columns written: the four inputs are only
    read and end as they were; each of the six other memrefs is handed back whole at some contents. -/
theorem run_TT (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x1 .i32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : cond0 i) (hc1 : cond1 i)
    (x0 : Vec F S1024x256 .f32) (x1 : Vec F S2048x256 .f32) (x2 : Vec F S1x2048 .f32) (x3 : Vec F S1024x1 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K := by
  simp only [cc0__rec_fused_kernel_eq_skeleton]; unfold cc0__rec_fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

set_option maxHeartbeats 4000000 in
/-- The body on whole memrefs, the carried columns reset, the last tile's write of the two result columns not taken: the four inputs are only
    read and end as they were; each of the six other memrefs is handed back whole at some contents. -/
theorem run_TF (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x1 .i32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : cond0 i) (hc1 : ¬cond1 i)
    (x0 : Vec F S1024x256 .f32) (x1 : Vec F S2048x256 .f32) (x2 : Vec F S1x2048 .f32) (x3 : Vec F S1024x1 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K := by
  simp only [cc0__rec_fused_kernel_eq_skeleton]; unfold cc0__rec_fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

set_option maxHeartbeats 4000000 in
/-- The body on whole memrefs, the first point's reset of the carried columns not taken, the two result columns written: the four inputs are only
    read and end as they were; each of the six other memrefs is handed back whole at some contents. -/
theorem run_FT (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x1 .i32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬cond0 i) (hc1 : cond1 i)
    (x0 : Vec F S1024x256 .f32) (x1 : Vec F S2048x256 .f32) (x2 : Vec F S1x2048 .f32) (x3 : Vec F S1024x1 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K := by
  simp only [cc0__rec_fused_kernel_eq_skeleton]; unfold cc0__rec_fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

set_option maxHeartbeats 4000000 in
/-- The body on whole memrefs, the first point's reset of the carried columns not taken, the last tile's write of the two result columns not taken: the four inputs are only
    read and end as they were; each of the six other memrefs is handed back whole at some contents. -/
theorem run_FF (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x1 .i32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬cond0 i) (hc1 : ¬cond1 i)
    (x0 : Vec F S1024x256 .f32) (x1 : Vec F S2048x256 .f32) (x2 : Vec F S1x2048 .f32) (x3 : Vec F S1024x1 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K := by
  simp only [cc0__rec_fused_kernel_eq_skeleton]; unfold cc0__rec_fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

variable (m : (ℓ : Loc nD τ sig) → Buf (Elt F) ℓ) (ρ : Dev nD → PrngReg)

/-! ## The proof data -/

/-- The output windows whose contents the frame never reads: the scores tile and the two result columns. -/
def fgt : Fin 7 → Bool := fun w => Nat.ble 4 w.val

/-- The proof data of the one pipeline on core `c`: the arrays as the region finds them; after the body the two
    unclipped inputs' buffers hold their blocks, the two clipped inputs' buffers their blocks' parts inside the arrays
    filled out with the zero word, and nothing is named of the three outputs; the invariant is the three carried
    columns at any contents and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (grid0.coords t) (fun _ => (Scalar.ofBits .f32 0#32 : Elt F .f32)) (iblk m c 1 t)
    | ⟨2, _⟩ => (cfg0.win 2).fill (grid0.coords t) (fun _ => (Scalar.ofBits .f32 0#32 : Elt F .f32)) (iblk m c 2 t)
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_3 (c : Dev nD) (t : Fin cfg0.N) : (dats m 0 c).after 3 t = iblk m c 3 t := by dsimp only [dats]
theorem after0_1 (c : Dev nD) (t : Fin cfg0.N) : (dats m 0 c).after 1 t
    = (cfg0.win 1).fill (grid0.coords t) (fun _ => (Scalar.ofBits .f32 0#32 : Elt F .f32)) (iblk m c 1 t) := by dsimp only [dats]
theorem after0_2 (c : Dev nD) (t : Fin cfg0.N) : (dats m 0 c).after 2 t
    = (cfg0.win 2).fill (grid0.coords t) (fun _ => (Scalar.ofBits .f32 0#32 : Elt F .f32)) (iblk m c 2 t) := by dsimp only [dats]

/-- The unclipped inputs' current buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_3 (c : Dev nD) (t : Fin cfg0.N) (d) : (dats m 0 c).before 3 t d = iblk m c 3 t :=
  before0_3_of m (dats m 0 c) (A_eq m c 3) (after0_3 m c) t d
/-- The clipped inputs are fetched at every point: their buffers hold the block's part inside the array, and past it
    whatever the overwrite before the fetch left (`d`). -/
theorem before0_1 (c : Dev nD) (t : Fin cfg0.N) (d) :
    (dats m 0 c).before 1 t d = (cfg0.win 1).fill (grid0.coords t) d (iblk m c 1 t) := by
  unfold Dat.before; rw [if_pos (fetch0_1 t)]; rfl
theorem before0_2 (c : Dev nD) (t : Fin cfg0.N) (d) :
    (dats m 0 c).before 2 t d = (cfg0.win 2).fill (grid0.coords t) d (iblk m c 2 t) := by
  unfold Dat.before; rw [if_pos (fetch0_2 t)]; rfl

/-! ## The body obligation -/

/-- The three carried columns as memrefs, as the pipeline passes them to the body. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- The region invariant, opened: the three carried columns owned whole at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X))

/-- and what it returns: the unclipped inputs' buffers at their blocks, the clipped inputs' at their blocks on the part
    inside the array, the outputs' at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ (∃ X, owns (c : Thread nD τ) (st0_4 t) fullShare X)
    ∗ (∃ X, owns (c : Thread nD τ) (st0_5 t) fullShare X)
    ∗ (∃ X, owns (c : Thread nD τ) (st0_6 t) fullShare X))

/-- The body on whole memrefs at any grid point: by cases on its two branch conditions. -/
theorem run_any (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x1 .i32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (x0 : Vec F S1024x256 .f32) (x1 : Vec F S2048x256 .f32) (x2 : Vec F S1x2048 .f32) (x3 : Vec F S1024x1 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K := by
  by_cases hc0 : cond0 i
  · by_cases hc1 : cond1 i
    · exact run_TT c i arg2 harg2 arg3 harg3 arg4 harg4 arg5 harg5 arg6 harg6 arg7 harg7 arg8 harg8 arg9 harg9 arg10 harg10 arg11 harg11 hc0 hc1 x0 x1 x2 x3 E K
    · exact run_TF c i arg2 harg2 arg3 harg3 arg4 harg4 arg5 harg5 arg6 harg6 arg7 harg7 arg8 harg8 arg9 harg9 arg10 harg10 arg11 harg11 hc0 hc1 x0 x1 x2 x3 E K
  · by_cases hc1 : cond1 i
    · exact run_FT c i arg2 harg2 arg3 harg3 arg4 harg4 arg5 harg5 arg6 harg6 arg7 harg7 arg8 harg8 arg9 harg9 arg10 harg10 arg11 harg11 hc0 hc1 x0 x1 x2 x3 E K
    · exact run_FF c i arg2 harg2 arg3 harg3 arg4 harg4 arg5 harg5 arg6 harg6 arg7 harg7 arg8 harg8 arg9 harg9 arg10 harg10 arg11 harg11 hc0 hc1 x0 x1 x2 x3 E K

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨HS0, HS1, HS2⟩, Hg⟩, Ho, ⟨%d0, H0⟩, ⟨%d1, H1⟩, ⟨%d2, H2⟩, ⟨%d3, H3⟩, H4, H5, H6⟩
  iapply (run_any c (grid0.coords t) _ _ _ _ _ _ _ _ _ _ _ _ _ _ _ _ _ _ _ _ (iblk m c 0 t)
    ((cfg0.win 1).fill (grid0.coords t) d1 (iblk m c 1 t)) ((cfg0.win 2).fill (grid0.coords t) d2 (iblk m c 2 t)) (iblk m c 3 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitr [Hg]
    · isplitl [HS0]; · iexact HS0
      isplitl [HS1]; · iexact HS1
      iexact HS2
    iexact Hg
  isplitl [Ho]; · iexact Ho
  isplitl [H0]; · iexact H0
  isplitl [H1]
  · iexists d1; rw [(cfg0.win 1).cut_fill]; iexact H1
  isplitl [H2]
  · iexists d2; rw [(cfg0.win 2).cut_fill]; iexact H2
  isplitl [H3]; · iexact H3
  isplitl [H4]; · iexact H4
  isplitl [H5]; · iexact H5
  iexact H6

/-- The library's body obligation, at every point: the clipped windows stated on the part inside the array, the three
    outputs forgotten. -/
theorem body_obligation (c : Dev nD) : BodyObligationLoose (dats (F := F) m 0 c) (defs₀ (F := F)) Variants.none () Set.univ fgt := fun t => by
  rw [bigSep_W0, bigSep_W0]
  exact sound_body m c t

/-! ## The run and the frame -/

/-- The buffers the seven host lines after the region write: results computed from the forgotten outputs, so nothing is
    stated of them either. -/
def T0 : Finset (Ref sig .tc) := {main_v35, main_v36, main_v37, main_cst_6, main_v38, main_cst_7, main_v39}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- From any memory with zero counters every weakly fair execution of @main on the TensorCores terminates, and every
    final state has every input array of the pipeline as the region found it, nothing stated of the three outputs nor of
    what the later host lines write, and every other unscoped buffer at its region-entry contents. -/
theorem run_main : θ_run defs (onTc (τ := τ) (main (F := F))) (s₀ m ρ)
    (Pipeline.RDat.FramePostR (cfgs 0) (fun c => (dats m 0 c).toRForget fgt) T0 (V m)) :=
  Pipeline.RDat.θ_run_frame_around_T cfgs (0 : Fin 1) launch0 defs₀ Variants.none (fun c => (dats m 0 c).toRForget fgt) T0 m ρ main
    (hbody := fun c => (body_obligation m c).toRForget) (hshare := fun c => ((dats m 0 c).toRForget fgt).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- THE FRAME of the word-level program: it runs without fault and its ten argument arrays end as launched — the entity
    table, the one argument a window stages, by the run's clause for input arrays; the nine others bypass the region and
    no host line writes them. -/
theorem frame_at : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePostR.arr_in h c 1 rfl).trans ((A_eq m c 1).trans (V_main_arg0 m c)),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c)⟩) (run_main m ρ)

/-- THE FRAME, at any instance carrying the program's stated facts. -/
theorem frame {F : FTy → Type} [FloatOps F] [Cert.Kernel.Facts] (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)) :=
  frame_at m ρ

end Cert.KFrame

end
-- ==== Proof.Spec.lean ====
/-
  The mathematics both programs compute, over the reals, with no program in sight.

  A user row r scores entity j by the inner product of the user vector with the entity's
  embedding plus the entity's bias. The loss of a row is the negative log-softmax of its
  scores at the row's label. The kernel visits the 50000 entities in 25 column tiles of
  width 2048 (the last one 848 wide) and keeps, per row, a running maximum, a running sum of
  exponentials shifted by that maximum, and the label's score once its tile has been seen;
  `runMax`, `runSum`, `runLab` are those three quantities after the first n tiles, in closed
  form. After all 25 tiles they are the maximum over all entities, the sum of exponentials
  shifted by it, and the label's score: exactly what the reference's log-softmax is made of.
-/
import Idealize.ShloMosaic.PureOps.Ideal
import Idealize.ShloMosaic.Lib.ValueIdx

noncomputable section

namespace Cert.Spec

open Idealize.ShloMosaic

/-- The score of user row `r` against entity `j`. -/
def score (u : Fin 2048 → Fin 256 → ℝ) (e : Fin 50000 → Fin 256 → ℝ) (β : Fin 50000 → ℝ)
    (r : Fin 2048) (j : Fin 50000) : ℝ :=
  (∑ k : Fin 256, u r k * e j k) + β j

/-- Global row of row `p` of row block `b` (two blocks of 1024 rows). -/
def row (b : Fin 2) (p : Fin 1024) : Fin 2048 := ⟨b.val * 1024 + p.val, by omega⟩

/-- The entities inside the first `n` column tiles of width 2048. -/
def seen (n : ℕ) : Finset (Fin 50000) := Finset.univ.filter fun j => j.val < n * 2048

/-- The maximum of a row's scores over the first `n` tiles (`⊥` over none). -/
def runMax (y : Fin 50000 → ℝ) (n : ℕ) : EReal := (seen n).sup fun j => ((y j : ℝ) : EReal)

/-- The sum over the first `n` tiles of the exponentials of the scores shifted by `runMax`. -/
def runSum (y : Fin 50000 → ℝ) (n : ℕ) : EReal :=
  ∑ j ∈ seen n, Ideal.exp (((y j : ℝ) : EReal) - runMax y n)

/-- The label's score once the label's tile is among the first `n`, zero before. -/
def runLab (y : Fin 50000 → ℝ) (l : Fin 50000) (n : ℕ) : EReal :=
  if l.val < n * 2048 then ((y l : ℝ) : EReal) else 0

/-- Column `q` of tile `n` of a row's scores as the kernel holds it: the score of entity `n·2048 + q` while that
    entity exists, and `⊥` on the columns past the last entity. -/
def tile (y : Fin 50000 → ℝ) (n : ℕ) (q : Fin 2048) : EReal :=
  if h : n * 2048 + q.val < 50000 then ((y ⟨n * 2048 + q.val, h⟩ : ℝ) : EReal) else ⊥

/-- A row's loss as the kernel forms it: (maximum + log of the shifted sum) minus the label's score. -/
def rowLossK (y : Fin 50000 → ℝ) (l : Fin 50000) : EReal :=
  (runMax y 25 + Ideal.log (runSum y 25)) - runLab y l 25

/-- A row's log-probability as the reference forms it: (label's score − maximum) − log of the shifted sum. -/
def rowLogpR (y : Fin 50000 → ℝ) (l : Fin 50000) : EReal :=
  ((((y l : ℝ) : EReal)) - runMax y 25) - Ideal.log (runSum y 25)

/-- The kernel's loss: the mean over the 2048 rows of `rowLossK`. -/
def lossK (Y : Fin 2048 → Fin 50000 → ℝ) (l : Fin 2048 → Fin 50000) : EReal :=
  Ideal.div (∑ r : Fin 2048, rowLossK (Y r) (l r)) (((2048 : ℝ)) : EReal)

/-- The reference's loss: minus the mean over the rows of `rowLogpR`. -/
def lossR (Y : Fin 2048 → Fin 50000 → ℝ) (l : Fin 2048 → Fin 50000) : EReal :=
  -(Ideal.div (∑ r : Fin 2048, rowLogpR (Y r) (l r)) (((2048 : ℝ)) : EReal))

end Cert.Spec

end
-- ==== Proof.IData.lean ====
/-
  The idealized kernel's run with every buffer named: the proof data of its one pipeline. After point t = 25·b + n the
  three scratch columns hold the running statistics of row block b over its first n + 1 column tiles, in closed form;
  the scores window's buffer holds the tile of scores (⊥ on the columns past the last entity); at the last tile the two
  small output buffers hold the row block's log-sum-exp and label scores.
-/
import proofs.«401027_j10093173145844_3_alg».proof.Proof.Gen.KernelIdeal.Frame
import proofs.«401027_j10093173145844_3_alg».proof.Proof.Spec
import Idealize.ShloMosaic.Lib.ValueIdx

set_option maxRecDepth 16384

noncomputable section

namespace Cert.IData

open Cert.KernelIdeal Cert.KernelIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable [Cert.KernelIdeal.Facts]

local notation "𝕄" => MT nD τ sig Unit (Elt Ideal) ℕ (UR sig nD τ) ℕ

variable (m : (ℓ : Loc nD τ sig) → Buf (Elt Ideal) ℓ) (ρ : Dev nD → PrngReg)
/- The real views of what the region reads, per core: the user matrix, the entity table, the bias and the labels. -/
variable (u : Dev nD → Fin 2048 → Fin 256 → ℝ) (e : Dev nD → Fin 50000 → Fin 256 → ℝ) (β : Dev nD → Fin 50000 → ℝ)
  (l : Dev nD → Fin 2048 → Fin 50000)

theorem N50 : cfg0.N = 50 := N_0

/-- The row block of point t. -/
def bOf (t : ℕ) : Fin 2 := ⟨t / 25 % 2, Nat.mod_lt _ (by decide)⟩
/-- The column tile of point t. -/
def nOf (t : ℕ) : ℕ := t % 25

/-- Row p of a column's index. -/
def rowIx (j : S1024x1.Idx) : Fin 1024 := ⟨(j 0).val, idx2_lt0 j⟩

/-- The scores of a global row. -/
def sc (c : Dev nD) (r : Fin 2048) : Fin 50000 → ℝ := score (u c) (e c) (β c) r

/-- The running maximum / sum / label score of row block b over its first n tiles, as scratch columns. -/
def Mcol (c : Dev nD) (b : Fin 2) (n : ℕ) : Vec Ideal S1024x1 .f32 := fun j => runMax (sc u e β c (row b (rowIx j))) n
def Lcol (c : Dev nD) (b : Fin 2) (n : ℕ) : Vec Ideal S1024x1 .f32 := fun j => runSum (sc u e β c (row b (rowIx j))) n
def Labcol (c : Dev nD) (b : Fin 2) (n : ℕ) : Vec Ideal S1024x1 .f32 :=
  fun j => runLab (sc u e β c (row b (rowIx j))) (l c (row b (rowIx j))) n

/-- Tile n of the scores of row block b, as the scores window's buffer holds it. -/
def tileBlk (c : Dev nD) (b : Fin 2) (n : ℕ) : Vec Ideal S1024x2048 .f32 :=
  fun j => tile (sc u e β c (row b ⟨(j 0).val, idx2_lt0 j⟩)) n ⟨(j 1).val, idx2_lt1 j⟩

/-- The row block's log-sum-exp column. -/
def lseCol (c : Dev nD) (b : Fin 2) : Vec Ideal S1024x1 .f32 :=
  fun j => runMax (sc u e β c (row b (rowIx j))) 25 + Ideal.log (runSum (sc u e β c (row b (rowIx j))) 25)

/-- The row block's label-score column. -/
def labCol (c : Dev nD) (b : Fin 2) : Vec Ideal S1024x1 .f32 :=
  fun j => runLab (sc u e β c (row b (rowIx j))) (l c (row b (rowIx j))) 25

/-- The three scratch columns as memrefs. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- The region's invariant before position n: before the first point the scratch columns hold anything; after point
    n they hold the running statistics of point n's row block over its column tiles up to point n's. -/
def PhiS (c : Dev nD) : (n : ℕ) → n ≤ cfg0.N → sProp 𝕄
  | 0, _ => Pipeline.ΦA spec0 c
  | n + 1, _ => iprop(owns (c : Thread nD τ) scM0 fullShare (Mcol u e β c (bOf n) (nOf n + 1))
      ∗ owns (c : Thread nD τ) scM1 fullShare (Lcol u e β c (bOf n) (nOf n + 1))
      ∗ owns (c : Thread nD τ) scM2 fullShare (Labcol u e β l c (bOf n) (nOf n + 1))
      ∗ (∃ r, prngReg c r))

/-- The proof data of the one pipeline on core c. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => (0 : EReal)) (iblk m c 1 t)
    | ⟨2, _⟩ => (cfg0.win 2).fill (cfg0.grid.coords t) (fun _ => (0 : EReal)) (iblk m c 2 t)
    | ⟨3, _⟩ => iblk m c 3 t
    | ⟨4, _⟩ => tileBlk u e β c (bOf t.val) (nOf t.val)
    | ⟨5, _⟩ => lseCol u e β c (bOf t.val)
    | ⟨6, _⟩ => labCol u e β l c (bOf t.val)
  Φ t := PhiS u e β l c t.val (Nat.le_of_lt_succ t.isLt)
  q _ := fullShare
  owed _ := 0

theorem A_eq (c : Dev nD) (w : Fin cfg0.W) : (dats m u e β l 0 c).A w = V m c (Pipeline.arrRef spec0 w) := by
  dsimp only [dats]

theorem after0 (c : Dev nD) (t : Fin cfg0.N) : (dats m u e β l 0 c).after 0 t = iblk m c 0 t := by dsimp only [dats]; rfl
theorem after1 (c : Dev nD) (t : Fin cfg0.N) :
    (dats m u e β l 0 c).after 1 t = (cfg0.win 1).fill (cfg0.grid.coords t) (fun _ => (0 : EReal)) (iblk m c 1 t) := by dsimp only [dats]; rfl
theorem after2 (c : Dev nD) (t : Fin cfg0.N) :
    (dats m u e β l 0 c).after 2 t = (cfg0.win 2).fill (cfg0.grid.coords t) (fun _ => (0 : EReal)) (iblk m c 2 t) := by dsimp only [dats]; rfl
theorem after3 (c : Dev nD) (t : Fin cfg0.N) : (dats m u e β l 0 c).after 3 t = iblk m c 3 t := by dsimp only [dats]; rfl
theorem after4 (c : Dev nD) (t : Fin cfg0.N) : (dats m u e β l 0 c).after 4 t = tileBlk u e β c (bOf t.val) (nOf t.val) := by dsimp only [dats]; rfl
theorem after5 (c : Dev nD) (t : Fin cfg0.N) : (dats m u e β l 0 c).after 5 t = lseCol u e β c (bOf t.val) := by dsimp only [dats]; rfl
theorem after6 (c : Dev nD) (t : Fin cfg0.N) : (dats m u e β l 0 c).after 6 t = labCol u e β l c (bOf t.val) := by dsimp only [dats]; rfl

end Cert.IData

end
-- ==== Proof.Body.lean ====
/-
  The kernel body's run at one grid point, in each of the three control cases the grid meets: the first column tile of
  a row block (the running statistics are reset first), a middle tile, and the last tile (the row block's log-sum-exp and
  label score are stored to their output buffers). Each run says which stores each buffer has received.
-/
import proofs.«401027_j10093173145844_3_alg».proof.Proof.Gen.KernelIdeal.Frame
import proofs.«401027_j10093173145844_3_alg».proof.Proof.Gen.KernelIdeal.Skeleton
import Idealize.ShloMosaic.Lib.Pipeline.Value

set_option maxRecDepth 16384

noncomputable section

namespace Cert.IBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] [Cert.KernelIdeal.Facts]

local notation "𝕄" => MT nD τ sig Unit (Elt F) ℕ (UR sig nD τ) ℕ

/-- The first branch's condition: the column tile is the first. -/
abbrev cond0 (i : grid0.Coords) : Prop := (Scalar.cmpi .ne (Scalar.extui (Scalar.cmpi .eq (BitVec.ofNat 32 (i 1).val) 0#32)) 0#32) = 1#1
/-- The second branch's condition: the column tile is the last. -/
abbrev cond1 (i : grid0.Coords) : Prop := k0_cond2 i = 1#1

theorem hcond0 : ∀ t : Fin cfg0.N, cond0 (grid0.coords t) ↔ t.val % 25 = 0 :=
  (by decide +kernel : ∀ t : Fin grid0.N, cond0 (grid0.coords t) ↔ t.val % 25 = 0)
theorem hcond1 : ∀ t : Fin cfg0.N, cond1 (grid0.coords t) ↔ t.val % 25 = 24 :=
  (by decide +kernel : ∀ t : Fin grid0.N, cond1 (grid0.coords t) ↔ t.val % 25 = 24)

theorem hz2 : (![0, 0] : Fin 2 → Nat) = fun _ => 0 := funext fun a => by fin_cases a <;> rfl

/-- After a list of stores whose last is a whole-buffer store, the buffer reads as that store's payload. -/
theorem read_writes_whole {S : Shape} {e : EltTy} (a : Memref sig .tc .vmem S e)
    {off : Fin S.rank → Nat} (hz : off = fun _ => 0) (inb : ∀ x, off x + S.size x ≤ S.size x)
    (w : S.Idx → Elt F e) (L : List (View.Piece (Elt F) S e)) (f : a.view.ty.Contents (Elt F)) :
    a.view.read (Elt F) (a.view.writes (Elt F) f ((⟨Rect.unit off S.size inb, w⟩ : View.Piece (Elt F) S e) :: L)) = w := by
  have hcov : ∀ y : S.Idx, ∃ p ∈ ((⟨Rect.unit off S.size inb, w⟩ : View.Piece (Elt F) S e) :: L), y ∈ p.1.set :=
    fun y => ⟨(⟨Rect.unit off S.size inb, w⟩ : View.Piece (Elt F) S e), List.mem_cons_self, View.mem_set_unit_zero hz inb y⟩
  rw [View.read_writes_eq_canon _ _ _ hcov]
  exact View.canon_cons_unit_zero hz inb w L

/-- A buffer that received a list of stores known to end with a whole-buffer store holds that store's payload. -/
theorem owns_of_writes_eq {S : Shape} {e : EltTy} (c : Dev nD) (a : Memref sig .tc .vmem S e)
    {off : Fin S.rank → Nat} (hz : off = fun _ => 0) (inb : ∀ x, off x + S.size x ≤ S.size x)
    (w : S.Idx → Elt F e) (L0 L : List (View.Piece (Elt F) S e))
    (hL : L0 = (⟨Rect.unit off S.size inb, w⟩ : View.Piece (Elt F) S e) :: L) :
    (iprop(∃ f, a.view.loc (c : Thread nD τ) ↦[a.view.set]{fullShare} a.view.writes (Elt F) f L0) : sProp 𝕄)
      ⊢ owns (c : Thread nD τ) a fullShare w := by
  subst hL
  unfold owns
  iintro ⟨%f, H⟩
  iexists _
  isplitr
  · ipureintro
    exact read_writes_whole a hz inb w L f
  · iexact H

set_option maxHeartbeats 4000000 in
/-- The first tile of a row block: the three scratch columns, whatever they held, are reset, then updated as at a middle tile. -/
noncomputable def run_A (c : Dev nD) (i : grid0.Coords)
    (arg2 : Memref sig .tc .vmem S1024x256 .f32) (harg2 : arg2.IsWhole) (arg3 : Memref sig .tc .vmem S2048x256 .f32) (harg3 : arg3.IsWhole)
    (arg4 : Memref sig .tc .vmem S1x2048 .f32) (harg4 : arg4.IsWhole) (arg5 : Memref sig .tc .vmem S1024x1 .i32) (harg5 : arg5.IsWhole)
    (arg6 : Memref sig .tc .vmem S1024x2048 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc0 : cond0 i) (hc1 : ¬cond1 i)
    (x0 : Vec F S1024x256 .f32) (x1 : Vec F S2048x256 .f32) (x2 : Vec F S1x2048 .f32) (x3 : Vec F S1024x1 .i32) :
    Σ' (L4 : List (View.Piece (Elt F) S1024x2048 .f32)) (LS0 : List (View.Piece (Elt F) S1024x1 .f32)) (LS1 : List (View.Piece (Elt F) S1024x1 .f32)),
      { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__rec_fused_kernel_eq_skeleton]; unfold cc0__rec_fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

set_option maxHeartbeats 4000000 in
/-- A middle tile: the scores tile is stored, the three scratch columns are updated. -/
noncomputable def run_B (c : Dev nD) (i : grid0.Coords)
    (arg2 : Memref sig .tc .vmem S1024x256 .f32) (harg2 : arg2.IsWhole) (arg3 : Memref sig .tc .vmem S2048x256 .f32) (harg3 : arg3.IsWhole)
    (arg4 : Memref sig .tc .vmem S1x2048 .f32) (harg4 : arg4.IsWhole) (arg5 : Memref sig .tc .vmem S1024x1 .i32) (harg5 : arg5.IsWhole)
    (arg6 : Memref sig .tc .vmem S1024x2048 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc0 : ¬cond0 i) (hc1 : ¬cond1 i)
    (x0 : Vec F S1024x256 .f32) (x1 : Vec F S2048x256 .f32) (x2 : Vec F S1x2048 .f32) (x3 : Vec F S1024x1 .i32)
    (xs0 xs1 xs2 : Vec F S1024x1 .f32) :
    Σ' (L4 : List (View.Piece (Elt F) S1024x2048 .f32)) (LS0 : List (View.Piece (Elt F) S1024x1 .f32)) (LS1 : List (View.Piece (Elt F) S1024x1 .f32)),
      { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__rec_fused_kernel_eq_skeleton]; unfold cc0__rec_fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

set_option maxHeartbeats 4000000 in
/-- The last tile of a row block: as a middle tile, and then the log-sum-exp and the label score are stored to their output buffers. -/
noncomputable def run_C (c : Dev nD) (i : grid0.Coords)
    (arg2 : Memref sig .tc .vmem S1024x256 .f32) (harg2 : arg2.IsWhole) (arg3 : Memref sig .tc .vmem S2048x256 .f32) (harg3 : arg3.IsWhole)
    (arg4 : Memref sig .tc .vmem S1x2048 .f32) (harg4 : arg4.IsWhole) (arg5 : Memref sig .tc .vmem S1024x1 .i32) (harg5 : arg5.IsWhole)
    (arg6 : Memref sig .tc .vmem S1024x2048 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc0 : ¬cond0 i) (hc1 : cond1 i)
    (x0 : Vec F S1024x256 .f32) (x1 : Vec F S2048x256 .f32) (x2 : Vec F S1x2048 .f32) (x3 : Vec F S1024x1 .i32)
    (xs0 xs1 xs2 : Vec F S1024x1 .f32) :
    Σ' (L4 : List (View.Piece (Elt F) S1024x2048 .f32)) (L5 : List (View.Piece (Elt F) S1024x1 .f32)) (L6 : List (View.Piece (Elt F) S1024x1 .f32))
       (LS0 : List (View.Piece (Elt F) S1024x1 .f32)) (LS1 : List (View.Piece (Elt F) S1024x1 .f32)),
      { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__rec_fused_kernel_eq_skeleton]; unfold cc0__rec_fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

set_option maxHeartbeats 4000000 in
/-- The first tile's stores: each scratch column receives the reset splat, then the update over it. -/
theorem pieces_A (c : Dev nD) (i : grid0.Coords)
    (arg2 : Memref sig .tc .vmem S1024x256 .f32) (harg2 : arg2.IsWhole) (arg3 : Memref sig .tc .vmem S2048x256 .f32) (harg3 : arg3.IsWhole)
    (arg4 : Memref sig .tc .vmem S1x2048 .f32) (harg4 : arg4.IsWhole) (arg5 : Memref sig .tc .vmem S1024x1 .i32) (harg5 : arg5.IsWhole)
    (arg6 : Memref sig .tc .vmem S1024x2048 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc0 : cond0 i) (hc1 : ¬cond1 i)
    (x0 : Vec F S1024x256 .f32) (x1 : Vec F S2048x256 .f32) (x2 : Vec F S1x2048 .f32) (x3 : Vec F S1024x1 .i32) :
    (run_A c i arg2 harg2 arg3 harg3 arg4 harg4 arg5 harg5 arg6 harg6 arg7 harg7 arg8 harg8 arg9 harg9 arg10 harg10 arg11 harg11 hc0 hc1 x0 x1 x2 x3).1 = [(⟨Rect.unit ![0, 0] S1024x2048.size inb_S1024x2048_S1024x2048_0_0, k0_pay9 i x0 x1 x2⟩ : View.Piece (Elt F) S1024x2048 .f32)]
    ∧ (run_A c i arg2 harg2 arg3 harg3 arg4 harg4 arg5 harg5 arg6 harg6 arg7 harg7 arg8 harg8 arg9 harg9 arg10 harg10 arg11 harg11 hc0 hc1 x0 x1 x2 x3).2.1 = [(⟨Rect.unit ![0, 0] S1024x1.size inb_S1024x1_S1024x1_0_0, k0_pay2 (k0_pay10 i x0 x1 x2 k0_pay5)⟩ : View.Piece (Elt F) S1024x1 .f32), (⟨Rect.unit ![0, 0] S1024x1.size inb_S1024x1_S1024x1_0_0, k0_pay5⟩ : View.Piece (Elt F) S1024x1 .f32)]
    ∧ (run_A c i arg2 harg2 arg3 harg3 arg4 harg4 arg5 harg5 arg6 harg6 arg7 harg7 arg8 harg8 arg9 harg9 arg10 harg10 arg11 harg11 hc0 hc1 x0 x1 x2 x3).2.2.1 = [(⟨Rect.unit ![0, 0] S1024x1.size inb_S1024x1_S1024x1_0_0, k0_pay1 (k0_pay9 i x0 x1 x2) (k0_pay10 i x0 x1 x2 k0_pay5) k0_pay5 k0_pay6⟩ : View.Piece (Elt F) S1024x1 .f32), (⟨Rect.unit ![0, 0] S1024x1.size inb_S1024x1_S1024x1_0_0, k0_pay6⟩ : View.Piece (Elt F) S1024x1 .f32)]
    ∧ (run_A c i arg2 harg2 arg3 harg3 arg4 harg4 arg5 harg5 arg6 harg6 arg7 harg7 arg8 harg8 arg9 harg9 arg10 harg10 arg11 harg11 hc0 hc1 x0 x1 x2 x3).2.2.2.1 = [(⟨Rect.unit ![0, 0] S1024x1.size inb_S1024x1_S1024x1_0_0, k0_pay3 (k0_pay8 i) (k0_pay9 i x0 x1 x2) x3 k0_pay7⟩ : View.Piece (Elt F) S1024x1 .f32), (⟨Rect.unit ![0, 0] S1024x1.size inb_S1024x1_S1024x1_0_0, k0_pay7⟩ : View.Piece (Elt F) S1024x1 .f32)] := by
  unfold run_A
  dsimp only
  sl_unfold_words
  simp only [View.readAt_eq_ld, harg2.read_unread, harg3.read_unread, harg4.read_unread, harg5.read_unread,
    harg9.read_unread, harg10.read_unread, harg11.read_unread,
    View.ld_unit_zero (S := S1024x256) hz2, View.ld_unit_zero (S := S2048x256) hz2, View.ld_unit_zero (S := S1x2048) hz2,
    View.ld_unit_zero (S := S1024x1) hz2, View.readCov_unit_zero (S := S1024x1) _ hz2, and_self]

set_option maxHeartbeats 4000000 in
/-- The first tile of a row block, buffer by buffer: whatever the scratch columns held, they end at the update of the reset values. -/
theorem sound_A (c : Dev nD) (i : grid0.Coords)
    (arg2 : Memref sig .tc .vmem S1024x256 .f32) (harg2 : arg2.IsWhole) (arg3 : Memref sig .tc .vmem S2048x256 .f32) (harg3 : arg3.IsWhole)
    (arg4 : Memref sig .tc .vmem S1x2048 .f32) (harg4 : arg4.IsWhole) (arg5 : Memref sig .tc .vmem S1024x1 .i32) (harg5 : arg5.IsWhole)
    (arg6 : Memref sig .tc .vmem S1024x2048 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc0 : cond0 i) (hc1 : ¬cond1 i)
    (x0 : Vec F S1024x256 .f32) (x1 : Vec F S2048x256 .f32) (x2 : Vec F S1x2048 .f32) (x3 : Vec F S1024x1 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay9 i x0 x1 x2)
            ∗ owns (c : Thread nD τ) arg9 fullShare (k0_pay2 (k0_pay10 i x0 x1 x2 k0_pay5))
            ∗ owns (c : Thread nD τ) arg10 fullShare (k0_pay1 (k0_pay9 i x0 x1 x2) (k0_pay10 i x0 x1 x2 k0_pay5) k0_pay5 k0_pay6)
            ∗ owns (c : Thread nD τ) arg11 fullShare (k0_pay3 (k0_pay8 i) (k0_pay9 i x0 x1 x2) x3 k0_pay7)) -∗ K ⟨⟩))
      ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K := by
  obtain ⟨h4, hs0, hs1, hs2⟩ := pieces_A c i arg2 harg2 arg3 harg3 arg4 harg4 arg5 harg5 arg6 harg6 arg7 harg7 arg8 harg8 arg9 harg9 arg10 harg10 arg11 harg11 hc0 hc1 x0 x1 x2 x3
  have hrun := (run_A c i arg2 harg2 arg3 harg3 arg4 harg4 arg5 harg5 arg6 harg6 arg7 harg7 arg8 harg8 arg9 harg9 arg10 harg10 arg11 harg11 hc0 hc1 x0 x1 x2 x3).2.2.2.2 E K
  iintro ⟨H0, H1, H2, H3, H4, HS0, HS1, HS2, Hk⟩
  iapply hrun
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  iapply Hk
  isplitl [H0]; · iexact H0
  isplitl [H1]; · iexact H1
  isplitl [H2]; · iexact H2
  isplitl [H3]; · iexact H3
  isplitl [H4]; · iapply (owns_of_writes_eq c arg6 hz2 _ _ _ _ h4); iexact H4
  isplitl [HS0]; · iapply (owns_of_writes_eq c arg9 hz2 _ _ _ _ hs0); iexact HS0
  isplitl [HS1]; · iapply (owns_of_writes_eq c arg10 hz2 _ _ _ _ hs1); iexact HS1
  iapply (owns_of_writes_eq c arg11 hz2 _ _ _ _ hs2); iexact HS2

set_option maxHeartbeats 4000000 in
/-- The middle tile's stores, one whole-buffer store per buffer, over the loaded blocks. -/
theorem pieces_B (c : Dev nD) (i : grid0.Coords)
    (arg2 : Memref sig .tc .vmem S1024x256 .f32) (harg2 : arg2.IsWhole) (arg3 : Memref sig .tc .vmem S2048x256 .f32) (harg3 : arg3.IsWhole)
    (arg4 : Memref sig .tc .vmem S1x2048 .f32) (harg4 : arg4.IsWhole) (arg5 : Memref sig .tc .vmem S1024x1 .i32) (harg5 : arg5.IsWhole)
    (arg6 : Memref sig .tc .vmem S1024x2048 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc0 : ¬cond0 i) (hc1 : ¬cond1 i)
    (x0 : Vec F S1024x256 .f32) (x1 : Vec F S2048x256 .f32) (x2 : Vec F S1x2048 .f32) (x3 : Vec F S1024x1 .i32)
    (xs0 xs1 xs2 : Vec F S1024x1 .f32) :
    (run_B c i arg2 harg2 arg3 harg3 arg4 harg4 arg5 harg5 arg6 harg6 arg7 harg7 arg8 harg8 arg9 harg9 arg10 harg10 arg11 harg11 hc0 hc1 x0 x1 x2 x3 xs0 xs1 xs2).1
        = [(⟨Rect.unit ![0, 0] S1024x2048.size inb_S1024x2048_S1024x2048_0_0, k0_pay9 i x0 x1 x2⟩ : View.Piece (Elt F) S1024x2048 .f32)]
    ∧ (run_B c i arg2 harg2 arg3 harg3 arg4 harg4 arg5 harg5 arg6 harg6 arg7 harg7 arg8 harg8 arg9 harg9 arg10 harg10 arg11 harg11 hc0 hc1 x0 x1 x2 x3 xs0 xs1 xs2).2.1
        = [(⟨Rect.unit ![0, 0] S1024x1.size inb_S1024x1_S1024x1_0_0, k0_pay2 (k0_pay10 i x0 x1 x2 xs0)⟩ : View.Piece (Elt F) S1024x1 .f32)]
    ∧ (run_B c i arg2 harg2 arg3 harg3 arg4 harg4 arg5 harg5 arg6 harg6 arg7 harg7 arg8 harg8 arg9 harg9 arg10 harg10 arg11 harg11 hc0 hc1 x0 x1 x2 x3 xs0 xs1 xs2).2.2.1
        = [(⟨Rect.unit ![0, 0] S1024x1.size inb_S1024x1_S1024x1_0_0, k0_pay1 (k0_pay9 i x0 x1 x2) (k0_pay10 i x0 x1 x2 xs0) xs0 xs1⟩ : View.Piece (Elt F) S1024x1 .f32)]
    ∧ (run_B c i arg2 harg2 arg3 harg3 arg4 harg4 arg5 harg5 arg6 harg6 arg7 harg7 arg8 harg8 arg9 harg9 arg10 harg10 arg11 harg11 hc0 hc1 x0 x1 x2 x3 xs0 xs1 xs2).2.2.2.1
        = [(⟨Rect.unit ![0, 0] S1024x1.size inb_S1024x1_S1024x1_0_0, k0_pay3 (k0_pay8 i) (k0_pay9 i x0 x1 x2) x3 xs2⟩ : View.Piece (Elt F) S1024x1 .f32)] := by
  unfold run_B
  dsimp only
  sl_unfold_words
  simp only [View.readAt_eq_ld, harg2.read_unread, harg3.read_unread, harg4.read_unread, harg5.read_unread,
    harg9.read_unread, harg10.read_unread, harg11.read_unread,
    View.ld_unit_zero (S := S1024x256) hz2, View.ld_unit_zero (S := S2048x256) hz2, View.ld_unit_zero (S := S1x2048) hz2,
    View.ld_unit_zero (S := S1024x1) hz2, and_self]

set_option maxHeartbeats 4000000 in
/-- A middle tile, buffer by buffer: the inputs are left as found; the scores buffer holds the tile; the three scratch
    columns hold the updated maximum, sum and label score. -/
theorem sound_B (c : Dev nD) (i : grid0.Coords)
    (arg2 : Memref sig .tc .vmem S1024x256 .f32) (harg2 : arg2.IsWhole) (arg3 : Memref sig .tc .vmem S2048x256 .f32) (harg3 : arg3.IsWhole)
    (arg4 : Memref sig .tc .vmem S1x2048 .f32) (harg4 : arg4.IsWhole) (arg5 : Memref sig .tc .vmem S1024x1 .i32) (harg5 : arg5.IsWhole)
    (arg6 : Memref sig .tc .vmem S1024x2048 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc0 : ¬cond0 i) (hc1 : ¬cond1 i)
    (x0 : Vec F S1024x256 .f32) (x1 : Vec F S2048x256 .f32) (x2 : Vec F S1x2048 .f32) (x3 : Vec F S1024x1 .i32)
    (xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay9 i x0 x1 x2)
            ∗ owns (c : Thread nD τ) arg9 fullShare (k0_pay2 (k0_pay10 i x0 x1 x2 xs0))
            ∗ owns (c : Thread nD τ) arg10 fullShare (k0_pay1 (k0_pay9 i x0 x1 x2) (k0_pay10 i x0 x1 x2 xs0) xs0 xs1)
            ∗ owns (c : Thread nD τ) arg11 fullShare (k0_pay3 (k0_pay8 i) (k0_pay9 i x0 x1 x2) x3 xs2)) -∗ K ⟨⟩))
      ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K := by
  obtain ⟨h4, hs0, hs1, hs2⟩ := pieces_B c i arg2 harg2 arg3 harg3 arg4 harg4 arg5 harg5 arg6 harg6 arg7 harg7 arg8 harg8 arg9 harg9 arg10 harg10 arg11 harg11 hc0 hc1 x0 x1 x2 x3 xs0 xs1 xs2
  have hrun := (run_B c i arg2 harg2 arg3 harg3 arg4 harg4 arg5 harg5 arg6 harg6 arg7 harg7 arg8 harg8 arg9 harg9 arg10 harg10 arg11 harg11 hc0 hc1 x0 x1 x2 x3 xs0 xs1 xs2).2.2.2.2 E K
  iintro ⟨H0, H1, H2, H3, H4, HS0, HS1, HS2, Hk⟩
  iapply hrun
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  iapply Hk
  isplitl [H0]; · iexact H0
  isplitl [H1]; · iexact H1
  isplitl [H2]; · iexact H2
  isplitl [H3]; · iexact H3
  isplitl [H4]; · iapply (owns_of_writes_eq c arg6 hz2 _ _ _ _ h4); iexact H4
  isplitl [HS0]; · iapply (owns_of_writes_eq c arg9 hz2 _ _ _ _ hs0); iexact HS0
  isplitl [HS1]; · iapply (owns_of_writes_eq c arg10 hz2 _ _ _ _ hs1); iexact HS1
  iapply (owns_of_writes_eq c arg11 hz2 _ _ _ _ hs2); iexact HS2

set_option maxHeartbeats 4000000 in
/-- The last tile's stores: as a middle tile's, and the two output columns from the just-updated scratch columns. -/
theorem pieces_C (c : Dev nD) (i : grid0.Coords)
    (arg2 : Memref sig .tc .vmem S1024x256 .f32) (harg2 : arg2.IsWhole) (arg3 : Memref sig .tc .vmem S2048x256 .f32) (harg3 : arg3.IsWhole)
    (arg4 : Memref sig .tc .vmem S1x2048 .f32) (harg4 : arg4.IsWhole) (arg5 : Memref sig .tc .vmem S1024x1 .i32) (harg5 : arg5.IsWhole)
    (arg6 : Memref sig .tc .vmem S1024x2048 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc0 : ¬cond0 i) (hc1 : cond1 i)
    (x0 : Vec F S1024x256 .f32) (x1 : Vec F S2048x256 .f32) (x2 : Vec F S1x2048 .f32) (x3 : Vec F S1024x1 .i32)
    (xs0 xs1 xs2 : Vec F S1024x1 .f32) :
    (run_C c i arg2 harg2 arg3 harg3 arg4 harg4 arg5 harg5 arg6 harg6 arg7 harg7 arg8 harg8 arg9 harg9 arg10 harg10 arg11 harg11 hc0 hc1 x0 x1 x2 x3 xs0 xs1 xs2).1 = [(⟨Rect.unit ![0, 0] S1024x2048.size inb_S1024x2048_S1024x2048_0_0, k0_pay9 i x0 x1 x2⟩ : View.Piece (Elt F) S1024x2048 .f32)]
    ∧ (run_C c i arg2 harg2 arg3 harg3 arg4 harg4 arg5 harg5 arg6 harg6 arg7 harg7 arg8 harg8 arg9 harg9 arg10 harg10 arg11 harg11 hc0 hc1 x0 x1 x2 x3 xs0 xs1 xs2).2.1 = [(⟨Rect.unit ![0, 0] S1024x1.size inb_S1024x1_S1024x1_0_0, k0_pay4 (k0_pay2 (k0_pay10 i x0 x1 x2 xs0)) (k0_pay1 (k0_pay9 i x0 x1 x2) (k0_pay10 i x0 x1 x2 xs0) xs0 xs1)⟩ : View.Piece (Elt F) S1024x1 .f32)]
    ∧ (run_C c i arg2 harg2 arg3 harg3 arg4 harg4 arg5 harg5 arg6 harg6 arg7 harg7 arg8 harg8 arg9 harg9 arg10 harg10 arg11 harg11 hc0 hc1 x0 x1 x2 x3 xs0 xs1 xs2).2.2.1 = [(⟨Rect.unit ![0, 0] S1024x1.size inb_S1024x1_S1024x1_0_0, k0_pay3 (k0_pay8 i) (k0_pay9 i x0 x1 x2) x3 xs2⟩ : View.Piece (Elt F) S1024x1 .f32)]
    ∧ (run_C c i arg2 harg2 arg3 harg3 arg4 harg4 arg5 harg5 arg6 harg6 arg7 harg7 arg8 harg8 arg9 harg9 arg10 harg10 arg11 harg11 hc0 hc1 x0 x1 x2 x3 xs0 xs1 xs2).2.2.2.1 = [(⟨Rect.unit ![0, 0] S1024x1.size inb_S1024x1_S1024x1_0_0, k0_pay2 (k0_pay10 i x0 x1 x2 xs0)⟩ : View.Piece (Elt F) S1024x1 .f32)]
    ∧ (run_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 = [(⟨Rect.unit ![0, 0] S1024x1.size inb_S1024x1_S1024x1_0_0, k0_pay1 (k0_pay9 i x0 x1 x2) (k0_pay10 i x0 x1 x2 xs0) xs0 xs1⟩ : View.Piece (Elt F) S1024x1 .f32)]
    ∧ (run_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 = [(⟨Rect.unit ![0, 0] S1024x1.size inb_S1024x1_S1024x1_0_0, k0_pay3 (k0_pay8 i) (k0_pay9 i x0 x1 x2) x3 xs2⟩ : View.Piece (Elt F) S1024x1 .f32)] := by
  unfold run_C
  dsimp only
  sl_unfold_words
  simp only [View.readAt_eq_ld, harg2.read_unread, harg3.read_unread, harg4.read_unread, harg5.read_unread,
    harg9.read_unread, harg10.read_unread, harg11.read_unread,
    View.ld_unit_zero (S := S1024x256) hz2, View.ld_unit_zero (S := S2048x256) hz2, View.ld_unit_zero (S := S1x2048) hz2,
    View.ld_unit_zero (S := S1024x1) hz2, View.readCov_unit_zero (S := S1024x1) _ hz2, and_self]

set_option maxHeartbeats 4000000 in
/-- The last tile of a row block, buffer by buffer: as a middle tile, and the two output buffers, whatever they held, end
    at the log-sum-exp of the updated maximum and sum and at the updated label score. -/
theorem sound_C (c : Dev nD) (i : grid0.Coords)
    (arg2 : Memref sig .tc .vmem S1024x256 .f32) (harg2 : arg2.IsWhole) (arg3 : Memref sig .tc .vmem S2048x256 .f32) (harg3 : arg3.IsWhole)
    (arg4 : Memref sig .tc .vmem S1x2048 .f32) (harg4 : arg4.IsWhole) (arg5 : Memref sig .tc .vmem S1024x1 .i32) (harg5 : arg5.IsWhole)
    (arg6 : Memref sig .tc .vmem S1024x2048 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc0 : ¬cond0 i) (hc1 : cond1 i)
    (x0 : Vec F S1024x256 .f32) (x1 : Vec F S2048x256 .f32) (x2 : Vec F S1x2048 .f32) (x3 : Vec F S1024x1 .i32)
    (xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay9 i x0 x1 x2)
            ∗ owns (c : Thread nD τ) arg7 fullShare (k0_pay4 (k0_pay2 (k0_pay10 i x0 x1 x2 xs0)) (k0_pay1 (k0_pay9 i x0 x1 x2) (k0_pay10 i x0 x1 x2 xs0) xs0 xs1))
            ∗ owns (c : Thread nD τ) arg8 fullShare (k0_pay3 (k0_pay8 i) (k0_pay9 i x0 x1 x2) x3 xs2)
            ∗ owns (c : Thread nD τ) arg9 fullShare (k0_pay2 (k0_pay10 i x0 x1 x2 xs0))
            ∗ owns (c : Thread nD τ) arg10 fullShare (k0_pay1 (k0_pay9 i x0 x1 x2) (k0_pay10 i x0 x1 x2 xs0) xs0 xs1)
            ∗ owns (c : Thread nD τ) arg11 fullShare (k0_pay3 (k0_pay8 i) (k0_pay9 i x0 x1 x2) x3 xs2)) -∗ K ⟨⟩))
      ⊢ wp frame (wpE (defs₀ (F := F)) Variants.none c none) E (cc0__rec_fused_kernel i arg2 harg2 arg3 harg3 arg4 harg4 arg5 harg5 arg6 harg6 arg7 harg7 arg8 harg8 arg9 harg9 arg10 harg10 arg11 harg11) K := by
  obtain ⟨h4, h5, h6, hs0, hs1, hs2⟩ := pieces_C c i arg2 harg2 arg3 harg3 arg4 harg4 arg5 harg5 arg6 harg6 arg7 harg7 arg8 harg8 arg9 harg9 arg10 harg10 arg11 harg11 hc0 hc1 x0 x1 x2 x3 xs0 xs1 xs2
  have hrun := (run_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.2 E K
  iintro ⟨H0, H1, H2, H3, H4, H5, H6, HS0, HS1, HS2, Hk⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, HS2⟩
  iapply Hk
  isplitl [H0]; · iexact H0
  isplitl [H1]; · iexact H1
  isplitl [H2]; · iexact H2
  isplitl [H3]; · iexact H3
  isplitl [H4]; · iapply (owns_of_writes_eq c arg6 hz2 _ _ _ _ h4); iexact H4
  isplitl [H5]; · iapply (owns_of_writes_eq c arg7 hz2 _ _ _ _ h5); iexact H5
  isplitl [H6]; · iapply (owns_of_writes_eq c arg8 hz2 _ _ _ _ h6); iexact H6
  isplitl [HS0]; · iapply (owns_of_writes_eq c arg9 hz2 _ _ _ _ hs0); iexact HS0
  isplitl [HS1]; · iapply (owns_of_writes_eq c arg10 hz2 _ _ _ _ hs1); iexact HS1
  iapply (owns_of_writes_eq c arg11 hz2 _ _ _ _ hs2); iexact HS2

end Cert.IBody

end
-- ==== Proof.TileMath.lean ====
/-
  The arithmetic of the running statistics, one tile at a time, and the identity between the two forms of the loss.
-/
import proofs.«401027_j10093173145844_3_alg».proof.Proof.Spec

noncomputable section

namespace Cert.Spec

open Idealize.ShloMosaic

/-! ### The entities of one tile -/

/-- The entities inside column tile `n`: those from `n·2048` up to (not including) `(n+1)·2048`. -/
def tileSet (n : ℕ) : Finset (Fin 50000) :=
  Finset.univ.filter fun j => n * 2048 ≤ j.val ∧ j.val < (n + 1) * 2048

theorem seen_zero : seen 0 = ∅ := by
  ext j
  simp only [seen, Finset.mem_filter, Finset.mem_univ, true_and]
  constructor
  · intro h; omega
  · intro h; exact absurd h (Finset.notMem_empty j)

/-- The first `n+1` tiles are the first `n` tiles together with tile `n`. -/
theorem seen_succ (n : ℕ) : seen (n + 1) = seen n ∪ tileSet n := by
  ext j
  simp only [seen, tileSet, Finset.mem_union, Finset.mem_filter, Finset.mem_univ, true_and]
  omega

theorem seen_disjoint (n : ℕ) : Disjoint (seen n) (tileSet n) := by
  rw [Finset.disjoint_left]
  intro j h1 h2
  simp only [seen, Finset.mem_filter, Finset.mem_univ, true_and] at h1
  simp only [tileSet, Finset.mem_filter, Finset.mem_univ, true_and] at h2
  omega

theorem mem_seen (n : ℕ) (j : Fin 50000) : j ∈ seen n ↔ j.val < n * 2048 := by
  simp only [seen, Finset.mem_filter, Finset.mem_univ, true_and]

/-- An existing column of a tile holds the score of its entity. -/
theorem tile_of_eq (y : Fin 50000 → ℝ) (n : ℕ) (q : Fin 2048) (j : Fin 50000)
    (h : n * 2048 + q.val = j.val) : tile y n q = ((y j : ℝ) : EReal) := by
  have hj : n * 2048 + q.val < 50000 := by have := j.isLt; omega
  have he : (⟨n * 2048 + q.val, hj⟩ : Fin 50000) = j := Fin.ext h
  unfold tile
  rw [dif_pos hj, he]

/-- A column past the last entity holds `⊥`. -/
theorem tile_of_not (y : Fin 50000 → ℝ) (n : ℕ) (q : Fin 2048)
    (h : ¬ n * 2048 + q.val < 50000) : tile y n q = ⊥ := by
  unfold tile
  rw [dif_neg h]

/-- The coercion of a finite real sum is the sum of the coercions. -/
theorem coe_finset_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A sum over the 2048 columns of a tile of a function vanishing at `⊥` is the sum over the tile's entities. -/
theorem sum_tile_eq (y : Fin 50000 → ℝ) (n : ℕ) (F : EReal → EReal) (hF : F ⊥ = 0) :
    ∑ q : Fin 2048, F (tile y n q) = ∑ j ∈ tileSet n, F ((y j : ℝ) : EReal) := by
  have h1 : ∑ q ∈ (Finset.univ.filter fun q : Fin 2048 => n * 2048 + q.val < 50000), F (tile y n q)
      = ∑ q : Fin 2048, F (tile y n q) := by
    apply Finset.sum_subset (Finset.filter_subset _ _)
    intro q _ hq
    have hq' : ¬ n * 2048 + q.val < 50000 :=
      fun h => hq (Finset.mem_filter.2 ⟨Finset.mem_univ _, h⟩)
    rw [tile_of_not y n q hq', hF]
  rw [← h1]
  refine Finset.sum_bij
    (fun q hq => (⟨n * 2048 + q.val, (Finset.mem_filter.1 hq).2⟩ : Fin 50000)) ?_ ?_ ?_ ?_
  · intro q hq
    simp only [tileSet, Finset.mem_filter, Finset.mem_univ, true_and]
    have := q.isLt
    omega
  · intro q1 h1 q2 h2 h
    have h' : n * 2048 + q1.val = n * 2048 + q2.val := congrArg Fin.val h
    exact Fin.ext (by omega)
  · intro j hj
    simp only [tileSet, Finset.mem_filter, Finset.mem_univ, true_and] at hj
    have hlt := j.isLt
    refine ⟨⟨j.val - n * 2048, by omega⟩, ?_, ?_⟩
    · refine Finset.mem_filter.2 ⟨Finset.mem_univ _, ?_⟩
      show n * 2048 + (j.val - n * 2048) < 50000
      omega
    · apply Fin.ext
      show n * 2048 + (j.val - n * 2048) = j.val
      omega
  · intro q hq
    exact congrArg F (tile_of_eq y n q ⟨n * 2048 + q.val, (Finset.mem_filter.1 hq).2⟩ rfl)

/-! ### The running statistics are real numbers once a tile has been seen -/

theorem seen_nonempty (n : ℕ) (hn : 0 < n) : (seen n).Nonempty := by
  refine ⟨⟨0, by norm_num⟩, ?_⟩
  rw [mem_seen]
  show 0 < n * 2048
  omega

/-- The running maximum over at least one tile is attained, hence a real number. -/
theorem runMax_real (y : Fin 50000 → ℝ) (n : ℕ) (hn : 0 < n) :
    ∃ m : ℝ, runMax y n = (m : EReal) := by
  obtain ⟨i, _, hi⟩ :=
    Finset.exists_mem_eq_sup (seen n) (seen_nonempty n hn) (fun j => ((y j : ℝ) : EReal))
  exact ⟨y i, hi⟩

/-- With a real running maximum the running sum is the coercion of a real sum of exponentials. -/
theorem runSum_eq (y : Fin 50000 → ℝ) (n : ℕ) (m : ℝ) (hm : runMax y n = (m : EReal)) :
    runSum y n = ((∑ j ∈ seen n, Real.exp (y j - m) : ℝ) : EReal) := by
  rw [runSum, hm, coe_finset_sum]
  refine Finset.sum_congr rfl (fun j _ => ?_)
  rw [← EReal.coe_sub, Ideal.exp_coe]

/-! ### The statements -/

theorem runMax_zero (y : Fin 50000 → ℝ) : runMax y 0 = ⊥ := by
  rw [runMax, seen_zero, Finset.sup_empty]

theorem runSum_zero (y : Fin 50000 → ℝ) : runSum y 0 = 0 := by
  rw [runSum, seen_zero, Finset.sum_empty]

theorem runLab_zero (y : Fin 50000 → ℝ) (l : Fin 50000) : runLab y l 0 = 0 := by
  rw [runLab, if_neg (by omega)]

/-- Taking in tile `n`: the running maximum. -/
theorem runMax_succ (y : Fin 50000 → ℝ) (n : ℕ) (hn : n < 25) :
    max (runMax y n) ((Finset.univ : Finset (Fin 2048)).fold max ⊥ (tile y n)) = runMax y (n + 1) := by
  -- a fold of max from ⊥ is the supremum
  have hfold : (Finset.univ : Finset (Fin 2048)).fold max ⊥ (tile y n)
      = (Finset.univ : Finset (Fin 2048)).sup (tile y n) := rfl
  rw [hfold]
  unfold runMax
  apply le_antisymm
  · apply max_le
    · apply Finset.sup_mono
      intro j hj
      rw [mem_seen] at hj ⊢
      omega
    · apply Finset.sup_le
      intro q _
      by_cases h : n * 2048 + q.val < 50000
      · rw [tile_of_eq y n q ⟨n * 2048 + q.val, h⟩ rfl]
        apply Finset.le_sup (f := fun j : Fin 50000 => ((y j : ℝ) : EReal))
        rw [mem_seen]
        show n * 2048 + q.val < (n + 1) * 2048
        have := q.isLt
        omega
      · rw [tile_of_not y n q h]
        exact bot_le
  · apply Finset.sup_le
    intro j hj
    rw [mem_seen] at hj
    by_cases h : j.val < n * 2048
    · apply le_max_of_le_left
      apply Finset.le_sup (f := fun j : Fin 50000 => ((y j : ℝ) : EReal))
      rw [mem_seen]
      exact h
    · apply le_max_of_le_right
      have ht : tile y n ⟨j.val - n * 2048, by omega⟩ = ((y j : ℝ) : EReal) := by
        apply tile_of_eq
        show n * 2048 + (j.val - n * 2048) = j.val
        omega
      rw [← ht]
      exact Finset.le_sup (Finset.mem_univ _)

/-- Taking in tile `n`: the running sum, rescaled to the new maximum. -/
theorem runSum_succ (y : Fin 50000 → ℝ) (n : ℕ) (hn : n < 25) :
    Ideal.exp (runMax y n - runMax y (n + 1)) * runSum y n
      + ∑ q : Fin 2048, Ideal.exp (tile y n q - runMax y (n + 1)) = runSum y (n + 1) := by
  obtain ⟨m', hm'⟩ := runMax_real y (n + 1) (Nat.succ_pos n)
  -- the tile's columns: a padded column contributes exp ⊥ = 0
  have hF : ∑ q : Fin 2048, Ideal.exp (tile y n q - runMax y (n + 1))
      = ∑ j ∈ tileSet n, Ideal.exp (((y j : ℝ) : EReal) - runMax y (n + 1)) :=
    sum_tile_eq y n (fun x => Ideal.exp (x - runMax y (n + 1)))
      (by show Ideal.exp (⊥ - runMax y (n + 1)) = 0; rw [EReal.bot_sub, Ideal.exp_bot])
  -- the new sum splits into the old entities and the tile's entities
  have hR : runSum y (n + 1)
      = (∑ j ∈ seen n, Ideal.exp (((y j : ℝ) : EReal) - runMax y (n + 1)))
        + ∑ j ∈ tileSet n, Ideal.exp (((y j : ℝ) : EReal) - runMax y (n + 1)) := by
    rw [runSum, seen_succ, Finset.sum_union (seen_disjoint n)]
  -- rescaling the old sum: exp (M - M') * exp (y j - M) = exp (y j - M')
  have key : Ideal.exp (runMax y n - runMax y (n + 1)) * runSum y n
      = ∑ j ∈ seen n, Ideal.exp (((y j : ℝ) : EReal) - runMax y (n + 1)) := by
    rcases Nat.eq_zero_or_pos n with h0 | hpos
    · subst h0
      rw [runSum_zero, mul_zero, seen_zero, Finset.sum_empty]
    · obtain ⟨m, hm⟩ := runMax_real y n hpos
      rw [runSum_eq y n m hm, hm, hm', ← EReal.coe_sub, Ideal.exp_coe, ← EReal.coe_mul,
        Finset.mul_sum, coe_finset_sum]
      refine Finset.sum_congr rfl (fun j _ => ?_)
      rw [← EReal.coe_sub, Ideal.exp_coe, ← Real.exp_add]
      have hr : m - m' + (y j - m) = y j - m' := by ring
      rw [hr]
  rw [hF, hR, key]

/-- Taking in tile `n`: the label's score, picked up in the tile that holds the label's column. -/
theorem runLab_succ (y : Fin 50000 → ℝ) (l : Fin 50000) (n : ℕ) (hn : n < 25) :
    runLab y l n + ∑ q : Fin 2048, (if n * 2048 + q.val = l.val then tile y n q else 0) = runLab y l (n + 1) := by
  have hl := l.isLt
  by_cases h1 : l.val < n * 2048
  · -- the label was seen before: no column of this tile is the label's
    have hs : ∑ q : Fin 2048, (if n * 2048 + q.val = l.val then tile y n q else 0) = 0 := by
      apply Finset.sum_eq_zero
      intro q _
      rw [if_neg (by omega)]
    rw [hs, add_zero, runLab, runLab, if_pos h1, if_pos (by omega)]
  · by_cases h2 : l.val < (n + 1) * 2048
    · -- the label's column is in this tile: exactly one column matches
      have hq0 : l.val - n * 2048 < 2048 := by omega
      have hs : ∑ q : Fin 2048, (if n * 2048 + q.val = l.val then tile y n q else 0)
          = ((y l : ℝ) : EReal) := by
        rw [Finset.sum_eq_single (⟨l.val - n * 2048, hq0⟩ : Fin 2048)]
        · have he : n * 2048 + (l.val - n * 2048) = l.val := by omega
          rw [if_pos (by show n * 2048 + (l.val - n * 2048) = l.val; exact he)]
          exact tile_of_eq y n _ l (by show n * 2048 + (l.val - n * 2048) = l.val; exact he)
        · intro q _ hq
          rw [if_neg]
          intro he
          apply hq
          apply Fin.ext
          show q.val = l.val - n * 2048
          omega
        · intro hq
          exact absurd (Finset.mem_univ _) hq
      rw [hs, runLab, runLab, if_neg h1, if_pos h2, zero_add]
    · -- the label's tile comes later
      have hs : ∑ q : Fin 2048, (if n * 2048 + q.val = l.val then tile y n q else 0) = 0 := by
        apply Finset.sum_eq_zero
        intro q _
        have := q.isLt
        rw [if_neg (by omega)]
      rw [hs, add_zero, runLab, runLab, if_neg h1, if_neg h2]

/-- The three-pass product of a row with a row whose low parts vanish: the plain inner product. -/
theorem hilo_sum (a b : Fin 256 → ℝ) :
    ((∑ k : Fin 256, ((a k : ℝ) : EReal) * ((b k : ℝ) : EReal))
        + ∑ k : Fin 256, ((a k : ℝ) : EReal) * (((b k : ℝ) : EReal) - ((b k : ℝ) : EReal)))
      + ∑ k : Fin 256, (((a k : ℝ) : EReal) - ((a k : ℝ) : EReal)) * ((b k : ℝ) : EReal)
      = ((∑ k : Fin 256, a k * b k : ℝ) : EReal) := by
  have h1 : ∀ k, ((a k : ℝ) : EReal) * (((b k : ℝ) : EReal) - ((b k : ℝ) : EReal)) = 0 := by
    intro k
    rw [← EReal.coe_sub, sub_self, EReal.coe_zero, mul_zero]
  have h2 : ∀ k, (((a k : ℝ) : EReal) - ((a k : ℝ) : EReal)) * ((b k : ℝ) : EReal) = 0 := by
    intro k
    rw [← EReal.coe_sub, sub_self, EReal.coe_zero, zero_mul]
  simp only [h1, h2, Finset.sum_const_zero, add_zero]
  rw [coe_finset_sum]
  refine Finset.sum_congr rfl (fun k _ => ?_)
  rw [EReal.coe_mul]

/-- Each row's two terms are real numbers, negatives of each other. -/
theorem row_terms (y : Fin 50000 → ℝ) (l : Fin 50000) :
    ∃ a : ℝ, rowLossK y l = (a : EReal) ∧ rowLogpR y l = ((-a : ℝ) : EReal) := by
  obtain ⟨m, hm⟩ := runMax_real y 25 (by norm_num)
  have hS := runSum_eq y 25 m hm
  -- the shifted sum of exponentials over a nonempty set is positive
  have hpos : 0 < ∑ j ∈ seen 25, Real.exp (y j - m) :=
    Finset.sum_pos (fun j _ => Real.exp_pos _) (seen_nonempty 25 (by norm_num))
  have hlog : Ideal.log (runSum y 25)
      = ((Real.log (∑ j ∈ seen 25, Real.exp (y j - m)) : ℝ) : EReal) := by
    rw [hS, Ideal.log_coe, if_neg (not_le.2 hpos)]
  have hlab : runLab y l 25 = ((y l : ℝ) : EReal) := by
    have := l.isLt
    rw [runLab, if_pos (by omega)]
  obtain ⟨s, hs⟩ : ∃ s : ℝ, Real.log (∑ j ∈ seen 25, Real.exp (y j - m)) = s := ⟨_, rfl⟩
  rw [hs] at hlog
  refine ⟨(m + s) - y l, ?_, ?_⟩
  · rw [rowLossK, hm, hlog, hlab, ← EReal.coe_add, ← EReal.coe_sub]
  · rw [rowLogpR, hm, hlog, ← EReal.coe_sub, ← EReal.coe_sub]
    have hr : y l - m - s = -(m + s - y l) := by ring
    rw [hr]

/-- The kernel's mean of (log-sum-exp minus label score) is the reference's negated mean log-probability. -/
theorem lossK_eq_lossR (Y : Fin 2048 → Fin 50000 → ℝ) (l : Fin 2048 → Fin 50000) : lossK Y l = lossR Y l := by
  have h : ∀ r : Fin 2048, ∃ a : ℝ, rowLossK (Y r) (l r) = (a : EReal)
      ∧ rowLogpR (Y r) (l r) = ((-a : ℝ) : EReal) := fun r => row_terms (Y r) (l r)
  choose a ha hb using h
  have h2048 : (2048 : ℝ) ≠ 0 := by norm_num
  unfold lossK lossR
  simp only [ha, hb]
  rw [Ideal.div_coe h2048, Ideal.div_coe h2048, ← coe_finset_sum, ← coe_finset_sum,
    ← EReal.coe_mul, ← EReal.coe_mul, ← EReal.coe_neg, Finset.sum_neg_distrib, neg_mul, neg_neg]

end Cert.Spec

end
-- ==== Proof.TileStep.lean ====
/-
  One grid point of the kernel read at the exact values: from the three scratch columns holding the running
  statistics of the first n tiles, the body's stored values are the statistics of the first n + 1 tiles, and the
  tile of scores it stores is the specification's scores on the columns that exist.
-/
import proofs.«401027_j10093173145844_3_alg».proof.Proof.Gen.KernelIdeal.Skeleton
import proofs.«401027_j10093173145844_3_alg».proof.Proof.Spec
import proofs.«401027_j10093173145844_3_alg».proof.Proof.TileMath
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.StableHlo.Predicate

noncomputable section

namespace Cert.TileStep

open Idealize.ShloMosaic Idealize.ShloMosaic.ValueIdx Cert.KernelIdeal Cert.KernelIdeal.Gen Cert.Spec

variable [Cert.KernelIdeal.Facts]

/-- The three scratch columns of row block `b` hold the running statistics of the first `n` tiles. -/
def ScratchAt (u : Fin 2048 → Fin 256 → ℝ) (e : Fin 50000 → Fin 256 → ℝ) (β : Fin 50000 → ℝ) (l : Fin 2048 → Fin 50000)
    (b : Fin 2) (n : ℕ) (M L Lab : Vec Ideal S1024x1 .f32) : Prop :=
  ∀ p : Fin 1024, M (ix2 p 0) = runMax (score u e β (row b p)) n
    ∧ L (ix2 p 0) = runSum (score u e β (row b p)) n
    ∧ Lab (ix2 p 0) = runLab (score u e β (row b p)) (l (row b p)) n

/-! ### Layout readings at a coordinate -/

/-- Inserting column `k` into row `p` of the reduced index gives the index `(p, k)`. -/
theorem lift_row (p : Fin 1024) (k : Fin 2048) :
    (Facts₀.reduces_S1024x2048_S1024).lift (a := (1 : Fin S1024x2048.rank)) (ix1 p) k = ix2 p k := by
  funext c
  apply Fin.ext
  match c with
  | ⟨0, _⟩ => simp [Shape.Reduces.lift, Shape.Reduces.liftVal]
  | ⟨1, _⟩ => simp [Shape.Reduces.lift, Shape.Reduces.liftVal]

/-- A vector of 1024 entries viewed as a column reads entry `p` at `(p, 0)`. -/
theorem col_cast_apply {α : Type} (v : S1024.Idx → α) (h : S1024.ShapeCasts S1024x1) (p : Fin 1024) :
    shapeCast S1024x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast along the 2048 columns reads, at `(p, q)`, the column's entry `p`. -/
theorem col_bcast_apply {α : Type} (v : S1024x1.Idx → α) (h : S1024x1.Broadcasts S1024x2048) (p : Fin 1024) (q : Fin 2048) :
    broadcastTo S1024x2048 v h (ix2 p q) = v (ix2 p (0 : Fin 1)) := by
  refine broadcastTo_apply v h (ix2 p q) (ix2 p (0 : Fin 1)) fun ax => ?_
  match ax with
  | ⟨0, _⟩ => show p.val = if (1024 : ℕ) = 1 then 0 else p.val; rw [if_neg (by decide)]
  | ⟨1, _⟩ => show (0 : ℕ) = if (1 : ℕ) = 1 then 0 else q.val; rw [if_pos rfl]

/-- The sum along the columns, read at row `p`. -/
theorem row_sum_apply (S : FVec Ideal S1024x2048 .f32) (hφ : FKind.Formats .f32)
    (hacc : (0x00000000#32 : BitVec 32) = FKind.add.neutral .f32 hφ) (p : Fin 1024) :
    multiReduction (F := Ideal) .add [1] S1024 S 0x00000000#32 Facts₀.reduces_S1024x2048_S1024 hφ hacc (ix1 p)
      = ∑ q : Fin 2048, S (ix2 p q) := by
  refine (Ideal.multiReduction_add_single S 0x00000000#32 Facts₀.reduces_S1024x2048_S1024 hφ hacc (ix1 p)).trans ?_
  refine Finset.sum_congr rfl fun q _ => ?_
  exact congrArg S (lift_row p q)

/-- The maximum along the columns, read at row `p`: the fold of `max` from `⊥`. -/
theorem row_max_apply (S : FVec Ideal S1024x2048 .f32) (hφ : FKind.Formats .f32)
    (hacc : (0xFF800000#32 : BitVec 32) = FKind.maximumf.neutral .f32 hφ) (p : Fin 1024) :
    multiReduction (F := Ideal) .maximumf [1] S1024 S 0xFF800000#32 Facts₀.reduces_S1024x2048_S1024 hφ hacc (ix1 p)
      = (Finset.univ : Finset (Fin 2048)).fold max ⊥ (fun q => S (ix2 p q)) := by
  refine (Ideal.multiReduction_maximumf_single S 0xFF800000#32 Facts₀.reduces_S1024x2048_S1024 hφ hacc (ix1 p)).trans ?_
  have hb : (FloatOps.ofBits .f32 (0xFF800000#32 : BitVec 32) : Ideal .f32) = ⊥ := by
    show Ideal.ofBits .f32 0xFF800000#32 = ⊥
    simp [Ideal.ofBits, Ideal.ieee]
  have hf : (S ∘ (Facts₀.reduces_S1024x2048_S1024).lift (a := (1 : Fin S1024x2048.rank)) (ix1 p)) = fun q : Fin 2048 => S (ix2 p q) := by
    funext q
    exact congrArg S (lift_row p q)
  rw [hb, hf]
  rfl

/-! ### The column numbers as words -/

/-- The column number of `(p, q)` at column tile `n`, as a 32-bit word. -/
theorem col_word (i : grid0.Coords) (n : ℕ) (hi1 : (i 1).val = n) (p : Fin 1024) (q : Fin 2048) :
    k0_pay8 i (ix2 p q) = BitVec.ofNat 32 (n * 2048 + q.val) := by
  unfold k0_pay8
  show IntOp.addi (Scalar.muli (BitVec.ofNat 32 (i 1).val) 2048#32) (iota .tc S1024x2048 32 [1] Facts₀.iota_S1024x2048_d1_w32 (ix2 p q)) = _
  rw [iota_single_apply, hi1]
  show BitVec.ofNat 32 n * BitVec.ofNat 32 2048 + BitVec.ofNat 32 q.val = _
  rw [BitVec.ofNat_add, BitVec.ofNat_mul]

/-- A small word compares below 50000 as its number does. -/
theorem slt_word (c : ℕ) (hc : c < 2 ^ 31) :
    IntOp.cmpi .slt (BitVec.ofNat 32 c) 50000#32 = if c < 50000 then 1#1 else 0#1 := by
  have hn : (BitVec.ofNat 32 c).toNat = c := by
    rw [BitVec.toNat_ofNat]; exact Nat.mod_eq_of_lt (by omega)
  have h1 : (BitVec.ofNat 32 c).toInt = (c : ℤ) := by
    rw [BitVec.toInt_eq_toNat_of_lt (by rw [hn]; omega), hn]
  have h2 : (50000#32 : BitVec 32).toInt = 50000 := by decide
  show BitVec.ofBool ((BitVec.ofNat 32 c).slt 50000#32) = _
  rw [BitVec.slt_eq_decide, h1, h2]
  by_cases h : c < 50000
  · rw [if_pos h, decide_eq_true (by omega)]; rfl
  · rw [if_neg h, decide_eq_false (by omega)]; rfl

/-- Two small numbers are equal as words exactly when they are equal. -/
theorem word_eq_iff (a c : ℕ) (ha : a < 2 ^ 32) (hc : c < 2 ^ 32) :
    BitVec.ofNat 32 a = BitVec.ofNat 32 c ↔ a = c := by
  constructor
  · intro h
    have := congrArg BitVec.toNat h
    simp only [BitVec.toNat_ofNat] at this
    rw [Nat.mod_eq_of_lt ha, Nat.mod_eq_of_lt hc] at this
    exact this
  · intro h; rw [h]

/-! ### The matrix products at a coordinate -/

theorem mm_lhs_0 (j : S1024x2048.Idx) (k : dot_S1024x256_S2048x256_S1024x2048_1_1_0_0_n_n.contr.Idx) :
    (dot_S1024x256_S2048x256_S1024x2048_1_1_0_0_n_n.lhsIdx j k 0).val = (j 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem mm_lhs_1 (j : S1024x2048.Idx) (k : dot_S1024x256_S2048x256_S1024x2048_1_1_0_0_n_n.contr.Idx) :
    (dot_S1024x256_S2048x256_S1024x2048_1_1_0_0_n_n.lhsIdx j k 1).val = (k ⟨0, by decide⟩).val :=
  dot_S1024x256_S2048x256_S1024x2048_1_1_0_0_n_n.lhsIdx_val_of_single rfl j k
theorem mm_rhs_0 (j : S1024x2048.Idx) (k : dot_S1024x256_S2048x256_S1024x2048_1_1_0_0_n_n.contr.Idx) :
    (dot_S1024x256_S2048x256_S1024x2048_1_1_0_0_n_n.rhsIdx j k 0).val = (j 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem mm_rhs_1 (j : S1024x2048.Idx) (k : dot_S1024x256_S2048x256_S1024x2048_1_1_0_0_n_n.contr.Idx) :
    (dot_S1024x256_S2048x256_S1024x2048_1_1_0_0_n_n.rhsIdx j k 1).val = (k ⟨0, by decide⟩).val :=
  dot_S1024x256_S2048x256_S1024x2048_1_1_0_0_n_n.rhsIdx_val_of_single rfl j k

/-- A product of a row block with the transposed column block into a zero accumulator, at `(p, q)`:
    the inner product of row `p` of the first with row `q` of the second. -/
theorem mm_apply {φ₁ φ₂ : FTy} (X : FVec Ideal S1024x256 φ₁) (Y : FVec Ideal S2048x256 φ₂) (p : Fin 1024) (q : Fin 2048) :
    matmul dot_S1024x256_S2048x256_S1024x2048_1_1_0_0_n_n none X Y (constant (F := Ideal) S1024x2048 .f32 0x00000000#32) (ix2 p q)
      = ∑ k : Fin 256, X (ix2 p k) * Y (ix2 q k) := by
  simp only [matmul]
  rw [Ideal.matmul_constant_zero_apply, ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 p q) ((contrEquiv1 dot_S1024x256_S2048x256_S1024x2048_1_1_0_0_n_n 256 rfl rfl).symm k) = ix2 p k := funext fun a => Fin.ext (by
    match a with
    | ⟨0, _⟩ => exact mm_lhs_0 _ _
    | ⟨1, _⟩ => exact (mm_lhs_1 _ _).trans hk)
  have er : dot_S1024x256_S2048x256_S1024x2048_1_1_0_0_n_n.rhsIdx (ix2 p q) ((contrEquiv1 dot_S1024x256_S2048x256_S1024x2048_1_1_0_0_n_n 256 rfl rfl).symm k) = ix2 q k := funext fun a => Fin.ext (by
    match a with
    | ⟨0, _⟩ => exact mm_rhs_0 _ _
    | ⟨1, _⟩ => exact (mm_rhs_1 _ _).trans hk)
  rw [el, er]

/-! ### The masked tile of scores at a coordinate -/

/-- The constant named for the padded columns is `⊥` at the exact values. -/
theorem neg_big_eq : Named.named (F := Ideal) κ "neg_big" (φ := .f32) 0xFF333332#32 = (⊥ : EReal) :=
  IdealRules.named_const.ideal_named_scalar _ _ _ _ rfl

/-- The stored tile at `(p, q)`: the three-pass product plus the bias on a column that exists, `⊥` past the last one. -/
theorem pay9_apply (i : grid0.Coords) (n : ℕ) (hn : n < 25) (hi1 : (i 1).val = n)
    (U : Vec Ideal S1024x256 .f32) (E : Vec Ideal S2048x256 .f32) (B : Vec Ideal S1x2048 .f32) (p : Fin 1024) (q : Fin 2048) :
    k0_pay9 (F := Ideal) i U E B (ix2 p q)
      = if n * 2048 + q.val < 50000 then
          (((∑ k : Fin 256, U (ix2 p k) * E (ix2 q k)) + ∑ k : Fin 256, U (ix2 p k) * (E (ix2 q k) - E (ix2 q k)))
            + ∑ k : Fin 256, (U (ix2 p k) - U (ix2 p k)) * E (ix2 q k)) + B (ix2 (0 : Fin 1) q)
        else ⊥ := by
  unfold k0_pay9
  simp only [shapeCast_self]
  rw [select_apply, broadcast_apply, neg_big_eq]
  have hc : cmpi .slt (k0_pay8 i) (broadcast S1024x2048 (50000#32 : BitVec 32)) (ix2 p q)
      = if n * 2048 + q.val < 50000 then 1#1 else 0#1 := by
    show IntOp.cmpi .slt (k0_pay8 i (ix2 p q)) 50000#32 = _
    rw [col_word i n hi1 p q]
    exact slt_word _ (by have := q.isLt; omega)
  rw [hc]
  by_cases h : n * 2048 + q.val < 50000
  · rw [if_pos h, if_pos h, select_one, addf_apply, addf_apply, addf_apply, mm_apply, mm_apply, mm_apply,
      broadcastTo_1b_ab_apply]
    simp only [truncf_apply, subf_apply]
  · rw [if_neg h, if_neg h, select_zero]

/-! ### The stored statistics at a row -/

theorem vexp_apply {s : Shape} (a : FVec Ideal s .f32) (j : s.Idx) : exp a j = Ideal.exp (a j) := rfl
theorem vlog_apply {s : Shape} (a : FVec Ideal s .f32) (j : s.Idx) : log a j = Ideal.log (a j) := rfl
theorem ofBits_neg_inf : Ideal.ofBits .f32 0xFF800000#32 = (⊥ : EReal) := by
  simp [Ideal.ofBits, Ideal.ieee]

/-- A column against the row maxima of a tile, at row `p`. -/
theorem colmax_apply (S : FVec Ideal S1024x2048 .f32) (M : FVec Ideal S1024x1 .f32) (p : Fin 1024) :
    maximumf M (shapeCast S1024x1 (multiReduction (F := Ideal) .maximumf [1] S1024 S 0xFF800000#32 Facts₀.reduces_S1024x2048_S1024 (.inl rfl) rfl)
        Facts₀.shapeCasts_S1024_S1024x1) (ix2 p 0)
      = max (M (ix2 p 0)) ((Finset.univ : Finset (Fin 2048)).fold max ⊥ (fun q => S (ix2 p q))) :=
  (maximumf_apply M _ (ix2 p 0)).trans
    (congrArg (max (M (ix2 p 0))) ((col_cast_apply _ _ p).trans (row_max_apply S _ _ p)))

/-- The new running maximum of row `p`: the old one against the maximum of the row of the tile. -/
theorem pay10_apply (i : grid0.Coords) (U : Vec Ideal S1024x256 .f32) (E : Vec Ideal S2048x256 .f32) (B : Vec Ideal S1x2048 .f32)
    (M : Vec Ideal S1024x1 .f32) (p : Fin 1024) :
    k0_pay10 (F := Ideal) i U E B M (ix2 p 0)
      = max (M (ix2 p 0)) ((Finset.univ : Finset (Fin 2048)).fold max ⊥ (fun q => k0_pay9 (F := Ideal) i U E B (ix2 p q))) := by
  unfold k0_pay10
  generalize k0_pay9 (F := Ideal) i U E B = S
  exact colmax_apply S M p

/-- A rescaled column plus the row sums of the shifted exponentials of a tile, at row `p`. -/
theorem colsum_exp_apply (S : FVec Ideal S1024x2048 .f32) (M' Mold Lold : FVec Ideal S1024x1 .f32) (p : Fin 1024) :
    shapeCast S1024x1 (addf (mulf (exp (subf Mold M')) Lold)
        (shapeCast S1024x1 (multiReduction (F := Ideal) .add [1] S1024
            (exp (subf S (broadcastTo S1024x2048 M' Facts₀.broadcasts_S1024x1_S1024x2048))) 0x00000000#32
            Facts₀.reduces_S1024x2048_S1024 (.inl rfl) rfl) Facts₀.shapeCasts_S1024_S1024x1))
      Facts₀.shapeCasts_S1024x1_S1024x1 (ix2 p 0)
      = Ideal.exp (Mold (ix2 p 0) - M' (ix2 p 0)) * Lold (ix2 p 0) + ∑ q : Fin 2048, Ideal.exp (S (ix2 p q) - M' (ix2 p 0)) := by
  rw [shapeCast_self]
  refine (addf_apply _ _ (ix2 p 0)).trans ?_
  refine congrArg (Ideal.exp (Mold (ix2 p 0) - M' (ix2 p 0)) * Lold (ix2 p 0) + ·) ?_
  refine (col_cast_apply _ _ p).trans ((row_sum_apply _ _ _ p).trans ?_)
  refine Finset.sum_congr rfl fun q _ => ?_
  show Ideal.exp (S (ix2 p q) - broadcastTo S1024x2048 M' Facts₀.broadcasts_S1024x1_S1024x2048 (ix2 p q)) = _
  rw [col_bcast_apply]

/-- The new running sum of row `p`: the old one rescaled, plus the tile's shifted exponentials. -/
theorem pay1_apply (S : FVec Ideal S1024x2048 .f32) (M' : FVec Ideal S1024x1 .f32) (Mold Lold : Vec Ideal S1024x1 .f32) (p : Fin 1024) :
    k0_pay1 (F := Ideal) S M' Mold Lold (ix2 p 0)
      = Ideal.exp (Mold (ix2 p 0) - M' (ix2 p 0)) * Lold (ix2 p 0) + ∑ q : Fin 2048, Ideal.exp (S (ix2 p q) - M' (ix2 p 0)) := by
  unfold k0_pay1
  exact colsum_exp_apply S M' Mold Lold p

/-- A column plus the row sums of a tile's entries picked where a column number meets the row's word, at row `p`. -/
theorem colsum_sel_apply (C : IVec S1024x2048 32) (S : FVec Ideal S1024x2048 .f32) (Lb : IVec S1024x1 32)
    (Labold : FVec Ideal S1024x1 .f32) (p : Fin 1024) :
    shapeCast S1024x1 (addf Labold
        (shapeCast S1024x1 (multiReduction (F := Ideal) .add [1] S1024
            (select (cmpi .eq C (broadcastTo S1024x2048 (shapeCast S1024x1 Lb Facts₀.shapeCasts_S1024x1_S1024x1)
                Facts₀.broadcasts_S1024x1_S1024x2048))
              S (broadcast S1024x2048 (Scalar.ofBits (F := Ideal) .f32 0x00000000#32))) 0x00000000#32
            Facts₀.reduces_S1024x2048_S1024 (.inl rfl) rfl) Facts₀.shapeCasts_S1024_S1024x1))
      Facts₀.shapeCasts_S1024x1_S1024x1 (ix2 p 0)
      = Labold (ix2 p 0) + ∑ q : Fin 2048, (if C (ix2 p q) = Lb (ix2 p 0) then S (ix2 p q) else 0) := by
  rw [shapeCast_self, shapeCast_self]
  refine (addf_apply _ _ (ix2 p 0)).trans ?_
  refine congrArg (Labold (ix2 p 0) + ·) ?_
  refine (col_cast_apply _ _ p).trans ((row_sum_apply _ _ _ p).trans ?_)
  refine Finset.sum_congr rfl fun q _ => ?_
  show Scalar.select (IntOp.cmpi .eq (C (ix2 p q)) (broadcastTo S1024x2048 Lb Facts₀.broadcasts_S1024x1_S1024x2048 (ix2 p q)))
      (S (ix2 p q)) (Ideal.ofBits .f32 0x00000000#32) = _
  rw [col_bcast_apply, Ideal.ofBits_zero_f32]
  by_cases h : C (ix2 p q) = Lb (ix2 p 0)
  · rw [if_pos h, StableHlo.Predicate.cmpi_eq_iff.mpr h, select_one]
  · have hz : IntOp.cmpi .eq (C (ix2 p q)) (Lb (ix2 p 0)) = 0#1 :=
      eq_zero_of_ne_one (fun hc => h (StableHlo.Predicate.cmpi_eq_iff.mp hc))
    rw [if_neg h, hz, select_zero]

/-- The new label score of row `p`: the old one plus the tile's entry in the label's column, if it is in this tile. -/
theorem pay3_apply (C : IVec S1024x2048 32) (S : FVec Ideal S1024x2048 .f32) (Lb : Vec Ideal S1024x1 .i32)
    (Labold : Vec Ideal S1024x1 .f32) (p : Fin 1024) :
    k0_pay3 (F := Ideal) C S Lb Labold (ix2 p 0)
      = Labold (ix2 p 0) + ∑ q : Fin 2048, (if C (ix2 p q) = Lb (ix2 p 0) then S (ix2 p q) else 0) := by
  unfold k0_pay3
  exact colsum_sel_apply C S Lb Labold p

/-- The finalizing value of row `p`. -/
theorem pay4_apply (M L : Vec Ideal S1024x1 .f32) (p : Fin 1024) :
    k0_pay4 (F := Ideal) M L (ix2 p 0) = M (ix2 p 0) + Ideal.log (L (ix2 p 0)) := by
  unfold k0_pay4
  exact (addf_apply M (log L) (ix2 p 0)).trans (congrArg (M (ix2 p 0) + ·) (vlog_apply L (ix2 p 0)))

/-- Storing a column back unchanged. -/
theorem pay2_eq (X : FVec Ideal S1024x1 .f32) : k0_pay2 (F := Ideal) X = X := shapeCast_self X _

theorem pay5_apply (p : Fin 1024) : k0_pay5 (F := Ideal) (ix2 p 0) = (⊥ : EReal) := by
  unfold k0_pay5
  simp only [shapeCast_self, broadcast_apply]
  exact ofBits_neg_inf

theorem pay6_apply (p : Fin 1024) : k0_pay6 (F := Ideal) (ix2 p 0) = (0 : EReal) := by
  unfold k0_pay6
  simp only [shapeCast_self, broadcast_apply]
  exact Ideal.ofBits_zero_f32

theorem pay7_apply (p : Fin 1024) : k0_pay7 (F := Ideal) (ix2 p 0) = (0 : EReal) := by
  unfold k0_pay7
  simp only [shapeCast_self, broadcast_apply]
  exact Ideal.ofBits_zero_f32

/-! ### The statements -/

/-- What the first column tile's reset stores is the statistics of no tile. -/
theorem scratch_reset (u : Fin 2048 → Fin 256 → ℝ) (e : Fin 50000 → Fin 256 → ℝ) (β : Fin 50000 → ℝ) (l : Fin 2048 → Fin 50000) (b : Fin 2) :
    ScratchAt u e β l b 0 (k0_pay5 (F := Ideal)) (k0_pay6 (F := Ideal)) (k0_pay7 (F := Ideal)) := by
  intro p
  refine ⟨?_, ?_, ?_⟩
  · rw [runMax_zero]; exact pay5_apply p
  · rw [runSum_zero]; exact pay6_apply p
  · rw [runLab_zero]; exact pay7_apply p

/-- The stored tile of scores, on the columns that exist. -/
theorem tile_scores (u : Fin 2048 → Fin 256 → ℝ) (e : Fin 50000 → Fin 256 → ℝ) (β : Fin 50000 → ℝ)
    (b : Fin 2) (n : ℕ) (hn : n < 25) (i : grid0.Coords) (hi1 : (i 1).val = n)
    (U : Vec Ideal S1024x256 .f32) (hU : ∀ (p : Fin 1024) (k : Fin 256), U (ix2 p k) = ((u (row b p) k : ℝ) : EReal))
    (E : Vec Ideal S2048x256 .f32) (hE : ∀ (q : Fin 2048) (k : Fin 256) (h : n * 2048 + q.val < 50000), E (ix2 q k) = ((e ⟨n * 2048 + q.val, h⟩ k : ℝ) : EReal))
    (B : Vec Ideal S1x2048 .f32) (hB : ∀ (q : Fin 2048) (h : n * 2048 + q.val < 50000), B (ix2 0 q) = ((β ⟨n * 2048 + q.val, h⟩ : ℝ) : EReal))
    (p : Fin 1024) (q : Fin 2048) :
    k0_pay9 (F := Ideal) i U E B (ix2 p q) = tile (score u e β (row b p)) n q := by
  rw [pay9_apply i n hn hi1 U E B p q]
  by_cases h : n * 2048 + q.val < 50000
  · rw [if_pos h, tile_of_eq _ n q ⟨n * 2048 + q.val, h⟩ rfl]
    have hUU : ∀ k : Fin 256, U (ix2 p k) = ((u (row b p) k : ℝ) : EReal) := fun k => hU p k
    have hEE : ∀ k : Fin 256, E (ix2 q k) = ((e ⟨n * 2048 + q.val, h⟩ k : ℝ) : EReal) := fun k => hE q k h
    simp only [hUU, hEE]
    rw [hilo_sum (u (row b p)) (e ⟨n * 2048 + q.val, h⟩), hB q h, ← EReal.coe_add]
    rfl
  · rw [if_neg h, tile_of_not _ n q h]

/-- One grid point: the statistics of `n` tiles become those of `n + 1`. -/
theorem tile_step (u : Fin 2048 → Fin 256 → ℝ) (e : Fin 50000 → Fin 256 → ℝ) (β : Fin 50000 → ℝ) (l : Fin 2048 → Fin 50000)
    (b : Fin 2) (n : ℕ) (hn : n < 25) (i : grid0.Coords) (hi1 : (i 1).val = n)
    (U : Vec Ideal S1024x256 .f32) (hU : ∀ (p : Fin 1024) (k : Fin 256), U (ix2 p k) = ((u (row b p) k : ℝ) : EReal))
    (E : Vec Ideal S2048x256 .f32) (hE : ∀ (q : Fin 2048) (k : Fin 256) (h : n * 2048 + q.val < 50000), E (ix2 q k) = ((e ⟨n * 2048 + q.val, h⟩ k : ℝ) : EReal))
    (B : Vec Ideal S1x2048 .f32) (hB : ∀ (q : Fin 2048) (h : n * 2048 + q.val < 50000), B (ix2 0 q) = ((β ⟨n * 2048 + q.val, h⟩ : ℝ) : EReal))
    (Lb : Vec Ideal S1024x1 .i32) (hL : ∀ p : Fin 1024, Lb (ix2 p 0) = BitVec.ofNat 32 (l (row b p)).val)
    (M L Lab : Vec Ideal S1024x1 .f32) (h : ScratchAt u e β l b n M L Lab) :
    ScratchAt u e β l b (n + 1) (k0_pay2 (F := Ideal) (k0_pay10 i U E B M))
      (k0_pay1 (F := Ideal) (k0_pay9 i U E B) (k0_pay10 i U E B M) M L)
      (k0_pay3 (F := Ideal) (k0_pay8 i) (k0_pay9 i U E B) Lb Lab) := by
  intro p
  obtain ⟨hMp, hLp, hLabp⟩ := h p
  -- the row of the stored tile is the specification's tile
  have hS : ∀ q : Fin 2048, k0_pay9 (F := Ideal) i U E B (ix2 p q) = tile (score u e β (row b p)) n q :=
    fun q => tile_scores u e β b n hn i hi1 U hU E hE B hB p q
  -- the new maximum
  have hM' : k0_pay10 (F := Ideal) i U E B M (ix2 p 0) = runMax (score u e β (row b p)) (n + 1) := by
    refine (pay10_apply i U E B M p).trans ?_
    rw [hMp, show (fun q => k0_pay9 (F := Ideal) i U E B (ix2 p q)) = tile (score u e β (row b p)) n from funext hS]
    exact runMax_succ _ n hn
  generalize score u e β (row b p) = y at hS hM' hMp hLp hLabp ⊢
  refine ⟨?_, ?_, ?_⟩
  · rw [pay2_eq]
    exact hM'
  · -- the new sum: the tile's row read as the specification's tile under the sum
    refine (pay1_apply _ _ M L p).trans ?_
    rw [hM', hMp, hLp]
    have hsum : ∑ q : Fin 2048, Ideal.exp (k0_pay9 (F := Ideal) i U E B (ix2 p q) - runMax y (n + 1))
        = ∑ q : Fin 2048, Ideal.exp (tile y n q - runMax y (n + 1)) :=
      Finset.sum_congr rfl fun q _ => by rw [hS q]
    rw [hsum]
    exact runSum_succ y n hn
  · -- the label's score: a column word meets the label's word exactly when the numbers agree
    refine (pay3_apply _ _ Lb Lab p).trans ?_
    rw [hLabp]
    have hsum : ∑ q : Fin 2048, (if k0_pay8 i (ix2 p q) = Lb (ix2 p 0) then k0_pay9 (F := Ideal) i U E B (ix2 p q) else 0)
        = ∑ q : Fin 2048, (if n * 2048 + q.val = (l (row b p)).val then tile y n q else 0) :=
      Finset.sum_congr rfl fun q _ => by
        rw [col_word i n hi1 p q, hL p, hS q]
        have hq := q.isLt
        have hl := (l (row b p)).isLt
        exact if_congr (word_eq_iff _ _ (by omega) (by omega)) rfl rfl
    rw [hsum]
    exact runLab_succ y (l (row b p)) n hn

/-- After the last tile: what the finalizing branch stores as the row's log-sum-exp. -/
theorem tile_final (u : Fin 2048 → Fin 256 → ℝ) (e : Fin 50000 → Fin 256 → ℝ) (β : Fin 50000 → ℝ) (l : Fin 2048 → Fin 50000)
    (b : Fin 2) (M L Lab : Vec Ideal S1024x1 .f32) (h : ScratchAt u e β l b 25 M L Lab) (p : Fin 1024) :
    k0_pay4 (F := Ideal) M L (ix2 p 0)
      = runMax (score u e β (row b p)) 25 + Ideal.log (runSum (score u e β (row b p)) 25) := by
  obtain ⟨hMp, hLp, _⟩ := h p
  rw [pay4_apply, hMp, hLp]

end Cert.TileStep

end
-- ==== Proof.BlockRead.lean ====
/-
  Each window's staged block as entries of the array it windows: point t = 25·b + n of the 2 × 25 grid stages rows
  1024·b … of the user matrix and of the label column, and rows (columns) 2048·n … of the entity table (of the bias
  row); of the last column tile only the part inside the array is staged, the rest of the buffer holds whatever it held.
-/
import proofs.«401027_j10093173145844_3_alg».proof.Proof.Gen.KernelIdeal.Frame
import Idealize.ShloMosaic.Lib.ValueIdx
import Idealize.ShloMosaic.Lib.Pipeline.Value

noncomputable section

namespace Cert.BlockRead

open Idealize.ShloMosaic Idealize.ShloMosaic.ValueIdx Idealize.ShloMosaic.TcCoe Idealize.SL.Sem Cert.KernelIdeal Cert.KernelIdeal.Gen

variable {F : FTy → Type} [FloatOps F] [Named F] [Cert.KernelIdeal.Facts]

variable (m : (ℓ : Loc nD τ sig) → Buf (Elt F) ℓ)

/-- The grid point's coordinates: row block t / 25, column tile t % 25. -/
theorem coords_eq (t : Fin cfg0.N) : ((grid0.coords t) 0).val = t.val / 25 ∧ ((grid0.coords t) 1).val = t.val % 25 :=
  (by decide +kernel : ∀ t : Fin grid0.N, ((grid0.coords t) 0).val = t.val / 25 ∧ ((grid0.coords t) 1).val = t.val % 25) t

/-- The user window's block index at point t: (t / 25, 0). -/
theorem index0 : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)

/-- The label window's block index at point t: (t / 25, 0). -/
theorem index3 : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)

/-- The entity window at point t: block index (t % 25, 0); the transfer moves all 2048 rows of the block before the
    last column tile and the 848 rows inside the table at the last; all 256 columns. -/
theorem index1 : ∀ t : Fin cfg0.N, win0_1.index t (0 : Fin 2) = t.val % 25 ∧ win0_1.index t (1 : Fin 2) = 0
    ∧ (t.val % 25 < 24 → win0_1.xsize (grid0.coords t) (0 : Fin 2) = 2048)
    ∧ (t.val % 25 = 24 → win0_1.xsize (grid0.coords t) (0 : Fin 2) = 848)
    ∧ win0_1.xsize (grid0.coords t) (1 : Fin 2) = 256 :=
  (by decide +kernel : ∀ t : Fin grid0.N, win0_1.index t (0 : Fin 2) = t.val % 25 ∧ win0_1.index t (1 : Fin 2) = 0
    ∧ (t.val % 25 < 24 → win0_1.xsize (grid0.coords t) (0 : Fin 2) = 2048)
    ∧ (t.val % 25 = 24 → win0_1.xsize (grid0.coords t) (0 : Fin 2) = 848)
    ∧ win0_1.xsize (grid0.coords t) (1 : Fin 2) = 256)

/-- The bias window at point t: block index (0, t % 25); the transfer moves the one row, and 2048 columns before the
    last column tile, the 848 inside the row at the last. -/
theorem index2 : ∀ t : Fin cfg0.N, win0_2.index t (0 : Fin 2) = 0 ∧ win0_2.index t (1 : Fin 2) = t.val % 25
    ∧ win0_2.xsize (grid0.coords t) (0 : Fin 2) = 1
    ∧ (t.val % 25 < 24 → win0_2.xsize (grid0.coords t) (1 : Fin 2) = 2048)
    ∧ (t.val % 25 = 24 → win0_2.xsize (grid0.coords t) (1 : Fin 2) = 848) :=
  (by decide +kernel : ∀ t : Fin grid0.N, win0_2.index t (0 : Fin 2) = 0 ∧ win0_2.index t (1 : Fin 2) = t.val % 25
    ∧ win0_2.xsize (grid0.coords t) (0 : Fin 2) = 1
    ∧ (t.val % 25 < 24 → win0_2.xsize (grid0.coords t) (1 : Fin 2) = 2048)
    ∧ (t.val % 25 = 24 → win0_2.xsize (grid0.coords t) (1 : Fin 2) = 848))

/-- The user block at point t, row p: row 1024·(t/25) + p of the user matrix. -/
theorem iblk0_apply (c : Dev nD) (t : Fin cfg0.N) (p : Fin 1024) (k : Fin 256) (hr : t.val / 25 * 1024 + p.val < 2048) :
    (iblk m c 0 t : S1024x256.Idx → Elt F .f32) (ix2 p k)
      = (V m c main_v31 : S2048x256.Idx → Elt F .f32) (ix2 ⟨t.val / 25 * 1024 + p.val, hr⟩ k) := by
  obtain ⟨e0, e1⟩ := index0 t
  -- a block's coordinate is the block index times the block size plus the coordinate inside the block
  show V m c main_v31 (((cfg0.win 0).blk t).view.emb (ix2 p k)) = V m c main_v31 (ix2 ⟨t.val / 25 * 1024 + p.val, hr⟩ k)
  refine congrArg _ ?_
  funext a; apply Fin.ext
  match a with
  | ⟨0, _⟩ => show win0_0.index t (0 : Fin 2) * 1024 + 1 * p.val = t.val / 25 * 1024 + p.val; omega
  | ⟨1, _⟩ => show win0_0.index t (1 : Fin 2) * 256 + 1 * k.val = k.val; omega

/-- The label block at point t, row p. -/
theorem iblk3_apply (c : Dev nD) (t : Fin cfg0.N) (p : Fin 1024) (hr : t.val / 25 * 1024 + p.val < 2048) :
    (iblk m c 3 t : S1024x1.Idx → Elt F .i32) (ix2 p 0)
      = (V m c main_v33 : S2048x1.Idx → Elt F .i32) (ix2 ⟨t.val / 25 * 1024 + p.val, hr⟩ 0) := by
  obtain ⟨e0, e1⟩ := index3 t
  show V m c main_v33 (((cfg0.win 3).blk t).view.emb (ix2 p 0)) = V m c main_v33 (ix2 ⟨t.val / 25 * 1024 + p.val, hr⟩ 0)
  refine congrArg _ ?_
  funext a; apply Fin.ext
  match a with
  | ⟨0, _⟩ => show win0_3.index t (0 : Fin 2) * 1024 + 1 * p.val = t.val / 25 * 1024 + p.val; omega
  | ⟨1, _⟩ => show win0_3.index t (1 : Fin 2) * 1 + 1 * (0 : Fin 1).val = (0 : Fin 1).val; omega

/-- The entity block's buffer at point t, whatever filled its tail: row q, while entity 2048·(t%25) + q exists, is that entity's row. -/
theorem fill1_apply (c : Dev nD) (t : Fin cfg0.N) (d : S2048x256.Idx → Elt F .f32) (q : Fin 2048) (k : Fin 256)
    (h : t.val % 25 * 2048 + q.val < 50000) :
    ((cfg0.win 1).fill (cfg0.grid.coords t) d (iblk m c 1 t) : S2048x256.Idx → Elt F .f32) (ix2 q k)
      = (V m c main_arg0 : S50000x256.Idx → Elt F .f32) (ix2 ⟨t.val % 25 * 2048 + q.val, h⟩ k) := by
  obtain ⟨e0, e1, x0, x0', x1⟩ := index1 t
  have hq := q.isLt
  have hk := k.isLt
  have ht : t.val % 25 < 25 := Nat.mod_lt _ (by norm_num)
  -- the index lies in the part of the block the transfer moves
  have hlt : ∀ a : Fin 2, ((ix2 q k : S2048x256.Idx) a).val < (cfg0.win 1).xsize (cfg0.grid.coords t) a := by
    intro a
    match a with
    | ⟨0, _⟩ =>
      show q.val < win0_1.xsize (grid0.coords t) (0 : Fin 2)
      rcases Nat.lt_or_ge (t.val % 25) 24 with h24 | h24
      · rw [x0 h24]; exact hq
      · rw [x0' (by omega)]; omega
    | ⟨1, _⟩ => show k.val < win0_1.xsize (grid0.coords t) (1 : Fin 2); rw [x1]; exact hk
  -- so the buffer holds there what the transfer read, whatever filled the rest
  have hfill : (cfg0.win 1).fill (cfg0.grid.coords t) d (iblk m c 1 t) (ix2 q k)
      = iblk m c 1 t (fun a => ⟨((ix2 q k : S2048x256.Idx) a).val, hlt a⟩) :=
    (cfg0.win 1).fill_xinj (cfg0.grid.coords t) d (iblk m c 1 t) (fun a => ⟨((ix2 q k : S2048x256.Idx) a).val, hlt a⟩)
  refine hfill.trans ?_
  show V m c main_arg0 (((cfg0.win 1).blk t).view.emb (fun a => ⟨((ix2 q k : S2048x256.Idx) a).val, hlt a⟩))
    = V m c main_arg0 (ix2 ⟨t.val % 25 * 2048 + q.val, h⟩ k)
  refine congrArg _ ?_
  funext a; apply Fin.ext
  match a with
  | ⟨0, _⟩ => show win0_1.index t (0 : Fin 2) * 2048 + 1 * q.val = t.val % 25 * 2048 + q.val; omega
  | ⟨1, _⟩ => show win0_1.index t (1 : Fin 2) * 256 + 1 * k.val = k.val; omega

/-- The bias block's buffer at point t: column q, while it exists, is that entity's bias. -/
theorem fill2_apply (c : Dev nD) (t : Fin cfg0.N) (d : S1x2048.Idx → Elt F .f32) (q : Fin 2048)
    (h : t.val % 25 * 2048 + q.val < 50000) :
    ((cfg0.win 2).fill (cfg0.grid.coords t) d (iblk m c 2 t) : S1x2048.Idx → Elt F .f32) (ix2 0 q)
      = (V m c main_v32 : S1x50000.Idx → Elt F .f32) (ix2 0 ⟨t.val % 25 * 2048 + q.val, h⟩) := by
  obtain ⟨e0, e1, x0, x1, x1'⟩ := index2 t
  have hq := q.isLt
  have ht : t.val % 25 < 25 := Nat.mod_lt _ (by norm_num)
  have hlt : ∀ a : Fin 2, ((ix2 0 q : S1x2048.Idx) a).val < (cfg0.win 2).xsize (cfg0.grid.coords t) a := by
    intro a
    match a with
    | ⟨0, _⟩ => show (0 : Fin 1).val < win0_2.xsize (grid0.coords t) (0 : Fin 2); rw [x0]; exact Nat.zero_lt_one
    | ⟨1, _⟩ =>
      show q.val < win0_2.xsize (grid0.coords t) (1 : Fin 2)
      rcases Nat.lt_or_ge (t.val % 25) 24 with h24 | h24
      · rw [x1 h24]; exact hq
      · rw [x1' (by omega)]; omega
  have hfill : (cfg0.win 2).fill (cfg0.grid.coords t) d (iblk m c 2 t) (ix2 0 q)
      = iblk m c 2 t (fun a => ⟨((ix2 0 q : S1x2048.Idx) a).val, hlt a⟩) :=
    (cfg0.win 2).fill_xinj (cfg0.grid.coords t) d (iblk m c 2 t) (fun a => ⟨((ix2 0 q : S1x2048.Idx) a).val, hlt a⟩)
  refine hfill.trans ?_
  show V m c main_v32 (((cfg0.win 2).blk t).view.emb (fun a => ⟨((ix2 0 q : S1x2048.Idx) a).val, hlt a⟩))
    = V m c main_v32 (ix2 0 ⟨t.val % 25 * 2048 + q.val, h⟩)
  refine congrArg _ ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 2048 + 1 * q.val = t.val % 25 * 2048 + q.val; omega

end Cert.BlockRead

end
-- ==== Proof.IFrame.lean ====
/-
  The idealized program's run with every buffer named: at each point of the 2 × 25 grid the body, called with the
  proof data's buffers, leaves what the proof data say, and so @main runs to the arrays the proof data compute.

  Point t = 25·b + n works on row block b and column tile n. The user block and the label block are in their
  buffers whenever the body runs; the entity block and the bias block are fetched at every point, and of the last,
  overhanging tile only the part inside the arrays is stated. Before the first tile of a row block the three scratch
  columns hold anything and the body resets them; before any other tile they hold the running maximum, the running
  sum of shifted exponentials and the label's score over the row block's first n tiles, and the body's stores are
  those over its first n + 1 tiles (one step of the online softmax, read at the real views of the user matrix, the
  entity table, the bias and the labels). The scores tile the body stores is the closed-form tile: the scores of the
  entities that exist, and the bottom element past the last. At the last tile the two result columns receive the row
  block's log-sum-exp and label score; at every other tile their buffers are left as found and are not written back.
-/
import proofs.«401027_j10093173145844_3_alg».proof.Proof.IData
import proofs.«401027_j10093173145844_3_alg».proof.Proof.Body
import proofs.«401027_j10093173145844_3_alg».proof.Proof.TileStep
import proofs.«401027_j10093173145844_3_alg».proof.Proof.BlockRead
import Idealize.ShloMosaic.Lib.Pipeline.FrameBody
import Idealize.ShloMosaic.Lib.Pipeline.FrameSuffix
import Idealize.ShloMosaic.Lib.Tactic

set_option maxRecDepth 16384

noncomputable section

namespace Cert.IFrame

open Cert.KernelIdeal Cert.KernelIdeal.Gen Cert.Spec Cert.IData Cert.IBody Cert.TileStep Cert.BlockRead
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

section Dev

variable (m : (ℓ : Loc nD τ sig) → Buf (Elt Ideal) ℓ) (ρ : Dev nD → PrngReg)
variable (u : Dev nD → Fin 2048 → Fin 256 → ℝ) (e : Dev nD → Fin 50000 → Fin 256 → ℝ) (β : Dev nD → Fin 50000 → ℝ)
  (l : Dev nD → Fin 2048 → Fin 50000)

/-! ## What the body finds in the inputs' buffers -/

theorem before0 (c : Dev nD) (t : Fin cfg0.N) (d) : (dats m u e β l 0 c).before 0 t d = iblk m c 0 t :=
  before0_0_of m (dats m u e β l 0 c) (A_eq m u e β l c 0) (after0 m u e β l c) t d
theorem before3 (c : Dev nD) (t : Fin cfg0.N) (d) : (dats m u e β l 0 c).before 3 t d = iblk m c 3 t :=
  before0_3_of m (dats m u e β l 0 c) (A_eq m u e β l c 3) (after3 m u e β l c) t d
/-- The clipped inputs are fetched at every point: the block's part inside the array, and past it whatever was there. -/
theorem before1 (c : Dev nD) (t : Fin cfg0.N) (d) :
    (dats m u e β l 0 c).before 1 t d = (cfg0.win 1).fill (cfg0.grid.coords t) d (iblk m c 1 t) := by
  unfold Dat.before; rw [if_pos (fetch0_1 t)]; rfl
theorem before2 (c : Dev nD) (t : Fin cfg0.N) (d) :
    (dats m u e β l 0 c).before 2 t d = (cfg0.win 2).fill (cfg0.grid.coords t) d (iblk m c 2 t) := by
  unfold Dat.before; rw [if_pos (fetch0_2 t)]; rfl

/-- The inputs' buffers at point t as the body's operands. -/
abbrev X0 (c : Dev nD) (t : Fin cfg0.N) : Vec Ideal S1024x256 .f32 := iblk m c 0 t
abbrev X1 (c : Dev nD) (t : Fin cfg0.N) (d : S2048x256.Idx → Elt Ideal .f32) : Vec Ideal S2048x256 .f32 :=
  (cfg0.win 1).fill (cfg0.grid.coords t) d (iblk m c 1 t)
abbrev X2 (c : Dev nD) (t : Fin cfg0.N) (d : S1x2048.Idx → Elt Ideal .f32) : Vec Ideal S1x2048 .f32 :=
  (cfg0.win 2).fill (cfg0.grid.coords t) d (iblk m c 2 t)
abbrev X3 (c : Dev nD) (t : Fin cfg0.N) : Vec Ideal S1024x1 .i32 := iblk m c 3 t

/-! ## The invariant, position by position -/

/-- The region invariant of the class, opened: the three scratch columns at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

theorem PhiS_zero (c : Dev nD) (n : ℕ) (h : n ≤ cfg0.N) (hz : n = 0) : PhiS u e β l c n h = Pipeline.ΦA spec0 c := by
  subst hz; rfl

theorem PhiS_succ (c : Dev nD) (n : ℕ) (hn : n < cfg0.N) :
    PhiS u e β l c (n + 1) hn = iprop(owns (c : Thread nD τ) scM0 fullShare (Mcol u e β c (bOf n) (nOf n + 1))
      ∗ owns (c : Thread nD τ) scM1 fullShare (Lcol u e β c (bOf n) (nOf n + 1))
      ∗ owns (c : Thread nD τ) scM2 fullShare (Labcol u e β l c (bOf n) (nOf n + 1))
      ∗ (∃ r, prngReg c r)) := rfl

theorem PhiS_pos (c : Dev nD) (n : ℕ) (h : n ≤ cfg0.N) (hz : n ≠ 0) :
    PhiS u e β l c n h = iprop(owns (c : Thread nD τ) scM0 fullShare (Mcol u e β c (bOf (n - 1)) (nOf (n - 1) + 1))
      ∗ owns (c : Thread nD τ) scM1 fullShare (Lcol u e β c (bOf (n - 1)) (nOf (n - 1) + 1))
      ∗ owns (c : Thread nD τ) scM2 fullShare (Labcol u e β l c (bOf (n - 1)) (nOf (n - 1) + 1))
      ∗ (∃ r, prngReg c r)) := by
  cases n with
  | zero => exact absurd rfl hz
  | succ n => rfl

theorem PhiS_castSucc (c : Dev nD) (t : Fin cfg0.N) :
    (dats m u e β l 0 c).Φ t.castSucc = PhiS u e β l c t.val (Nat.le_of_lt t.isLt) := by
  dsimp only [dats]; simp only [Fin.coe_castSucc]

/-- Inside a row block the point before has the same row block and the column tile before. -/
theorem bOf_pred (t : ℕ) (h : ¬t % 25 = 0) : bOf (t - 1) = bOf t := by
  apply Fin.ext; show (t - 1) / 25 % 2 = t / 25 % 2; omega
theorem nOf_pred (t : ℕ) (h : ¬t % 25 = 0) : nOf (t - 1) + 1 = nOf t := by
  show (t - 1) % 25 + 1 = t % 25; omega

/-! ## The mathematics of one point -/

/-- A column's index is its row and the one column. -/
theorem col_ix (j : S1024x1.Idx) : j = ix2 (rowIx j) (0 : Fin 1) := by
  have h := eq_ix2 j
  have h1 : j 1 = (0 : Fin 1) := Fin.eq_zero _
  rw [h1] at h; exact h

/-- The closed-form columns are running statistics. -/
theorem scratchAt_cols (c : Dev nD) (b : Fin 2) (n : ℕ) :
    ScratchAt (u c) (e c) (β c) (l c) b n (Mcol u e β c b n) (Lcol u e β c b n) (Labcol u e β l c b n) := by
  intro p
  have hp : rowIx (ix2 p (0 : Fin 1) : S1024x1.Idx) = p := Fin.ext rfl
  refine ⟨?_, ?_, ?_⟩
  · show runMax (sc u e β c (row b (rowIx (ix2 p (0 : Fin 1))))) n = _; rw [hp]; rfl
  · show runSum (sc u e β c (row b (rowIx (ix2 p (0 : Fin 1))))) n = _; rw [hp]; rfl
  · show runLab (sc u e β c (row b (rowIx (ix2 p (0 : Fin 1))))) (l c (row b (rowIx (ix2 p (0 : Fin 1))))) n = _; rw [hp]; rfl

/-- Columns that are running statistics are the closed-form columns. -/
theorem cols_of_scratchAt (c : Dev nD) (b : Fin 2) (n : ℕ) (M L Lab : Vec Ideal S1024x1 .f32)
    (h : ScratchAt (u c) (e c) (β c) (l c) b n M L Lab) :
    Mcol u e β c b n = M ∧ Lcol u e β c b n = L ∧ Labcol u e β l c b n = Lab := by
  refine ⟨funext fun j => ?_, funext fun j => ?_, funext fun j => ?_⟩
  · have hj := col_ix j
    calc Mcol u e β c b n j = M (ix2 (rowIx j) 0) := (h (rowIx j)).1.symm
      _ = M j := by rw [← hj]
  · have hj := col_ix j
    calc Lcol u e β c b n j = L (ix2 (rowIx j) 0) := (h (rowIx j)).2.1.symm
      _ = L j := by rw [← hj]
  · have hj := col_ix j
    calc Labcol u e β l c b n j = Lab (ix2 (rowIx j) 0) := (h (rowIx j)).2.2.symm
      _ = Lab j := by rw [← hj]

/-- A row of point t's row block, as a row of the whole arrays. -/
theorem row_eq (t : ℕ) (ht : t < 50) (p : Fin 1024) (hr : t / 25 * 1024 + p.val < 2048) :
    (⟨t / 25 * 1024 + p.val, hr⟩ : Fin 2048) = row (bOf t) p := by
  apply Fin.ext; show t / 25 * 1024 + p.val = t / 25 % 2 * 1024 + p.val; omega

section Point

variable (hu : ∀ (c : Dev nD) (r : Fin 2048) (k : Fin 256), (V m c main_v31 : S2048x256.Idx → EReal) (ix2 r k) = ((u c r k : ℝ) : EReal))
  (he : ∀ (c : Dev nD) (j : Fin 50000) (k : Fin 256), (V m c main_arg0 : S50000x256.Idx → EReal) (ix2 j k) = ((e c j k : ℝ) : EReal))
  (hβ : ∀ (c : Dev nD) (j : Fin 50000), (V m c main_v32 : S1x50000.Idx → EReal) (ix2 0 j) = ((β c j : ℝ) : EReal))
  (hl : ∀ (c : Dev nD) (r : Fin 2048), (V m c main_v33 : S2048x1.Idx → BitVec 32) (ix2 r 0) = BitVec.ofNat 32 (l c r).val)

include hu in
/-- The user block at point t read at the real view. -/
theorem hU_at (c : Dev nD) (t : Fin cfg0.N) (p : Fin 1024) (k : Fin 256) :
    X0 m c t (ix2 p k) = ((u c (row (bOf t.val) p) k : ℝ) : EReal) := by
  have hN : t.val < 50 := lt_of_lt_of_eq t.isLt N50
  have hr : t.val / 25 * 1024 + p.val < 2048 := by have := p.isLt; omega
  refine (iblk0_apply m c t p k hr).trans ((hu c _ k).trans ?_)
  rw [row_eq t.val hN p hr]

include he in
/-- The entity block's buffer at point t, whatever fills its tail, read at the real view on the entities that exist. -/
theorem hE_at (c : Dev nD) (t : Fin cfg0.N) (d : S2048x256.Idx → Elt Ideal .f32) (q : Fin 2048) (k : Fin 256)
    (h : nOf t.val * 2048 + q.val < 50000) :
    X1 m c t d (ix2 q k) = ((e c ⟨nOf t.val * 2048 + q.val, h⟩ k : ℝ) : EReal) :=
  (fill1_apply m c t d q k h).trans (he c _ k)

include hβ in
/-- The bias block's buffer likewise. -/
theorem hB_at (c : Dev nD) (t : Fin cfg0.N) (d : S1x2048.Idx → Elt Ideal .f32) (q : Fin 2048)
    (h : nOf t.val * 2048 + q.val < 50000) :
    X2 m c t d (ix2 0 q) = ((β c ⟨nOf t.val * 2048 + q.val, h⟩ : ℝ) : EReal) :=
  (fill2_apply m c t d q h).trans (hβ c _)

include hl in
/-- The label block at point t read at the labels. -/
theorem hL_at (c : Dev nD) (t : Fin cfg0.N) (p : Fin 1024) :
    X3 m c t (ix2 p 0) = BitVec.ofNat 32 (l c (row (bOf t.val) p)).val := by
  have hN : t.val < 50 := lt_of_lt_of_eq t.isLt N50
  have hr : t.val / 25 * 1024 + p.val < 2048 := by have := p.isLt; omega
  refine (iblk3_apply m c t p hr).trans ((hl c _).trans ?_)
  rw [row_eq t.val hN p hr]

include hu he hβ hl

/-- One point: the scratch columns holding the statistics of the row block's first n tiles, the values the body stores
    into them are the statistics of its first n + 1 tiles. -/
theorem point_scratch (c : Dev nD) (t : Fin cfg0.N) (d1 : S2048x256.Idx → Elt Ideal .f32) (d2 : S1x2048.Idx → Elt Ideal .f32)
    (M L Lab : Vec Ideal S1024x1 .f32)
    (hS : ScratchAt (u c) (e c) (β c) (l c) (bOf t.val) (nOf t.val) M L Lab) :
    ScratchAt (u c) (e c) (β c) (l c) (bOf t.val) (nOf t.val + 1)
      (k0_pay2 (F := Ideal) (k0_pay10 (grid0.coords t) (X0 m c t) (X1 m c t d1) (X2 m c t d2) M))
      (k0_pay1 (F := Ideal) (k0_pay9 (grid0.coords t) (X0 m c t) (X1 m c t d1) (X2 m c t d2)) (k0_pay10 (grid0.coords t) (X0 m c t) (X1 m c t d1) (X2 m c t d2) M) M L)
      (k0_pay3 (F := Ideal) (k0_pay8 (grid0.coords t)) (k0_pay9 (grid0.coords t) (X0 m c t) (X1 m c t d1) (X2 m c t d2)) (X3 m c t) Lab) :=
  tile_step (u c) (e c) (β c) (l c) (bOf t.val) (nOf t.val) (Nat.mod_lt _ (by norm_num)) (grid0.coords t) (coords_eq t).2
    (X0 m c t) (hU_at m u hu c t) (X1 m c t d1) (hE_at m e he c t d1) (X2 m c t d2) (hB_at m β hβ c t d2)
    (X3 m c t) (hL_at m l hl c t) M L Lab hS

/-- The same, as the closed-form columns. -/
theorem point_step (c : Dev nD) (t : Fin cfg0.N) (d1 : S2048x256.Idx → Elt Ideal .f32) (d2 : S1x2048.Idx → Elt Ideal .f32)
    (M L Lab : Vec Ideal S1024x1 .f32)
    (hS : ScratchAt (u c) (e c) (β c) (l c) (bOf t.val) (nOf t.val) M L Lab) :
    Mcol u e β c (bOf t.val) (nOf t.val + 1) = k0_pay2 (F := Ideal) (k0_pay10 (grid0.coords t) (X0 m c t) (X1 m c t d1) (X2 m c t d2) M)
    ∧ Lcol u e β c (bOf t.val) (nOf t.val + 1) = k0_pay1 (F := Ideal) (k0_pay9 (grid0.coords t) (X0 m c t) (X1 m c t d1) (X2 m c t d2)) (k0_pay10 (grid0.coords t) (X0 m c t) (X1 m c t d1) (X2 m c t d2) M) M L
    ∧ Labcol u e β l c (bOf t.val) (nOf t.val + 1) = k0_pay3 (F := Ideal) (k0_pay8 (grid0.coords t)) (k0_pay9 (grid0.coords t) (X0 m c t) (X1 m c t d1) (X2 m c t d2)) (X3 m c t) Lab :=
  cols_of_scratchAt u e β l c _ _ _ _ _ (point_scratch m u e β l hu he hβ hl c t d1 d2 M L Lab hS)

/-- The tile of scores the body stores is the closed-form tile. -/
theorem point_tile (c : Dev nD) (t : Fin cfg0.N) (d1 : S2048x256.Idx → Elt Ideal .f32) (d2 : S1x2048.Idx → Elt Ideal .f32) :
    tileBlk u e β c (bOf t.val) (nOf t.val) = k0_pay9 (F := Ideal) (grid0.coords t) (X0 m c t) (X1 m c t d1) (X2 m c t d2) := by
  funext j
  have hs := tile_scores (u c) (e c) (β c) (bOf t.val) (nOf t.val) (Nat.mod_lt _ (by norm_num)) (grid0.coords t) (coords_eq t).2
    (X0 m c t) (hU_at m u hu c t) (X1 m c t d1) (hE_at m e he c t d1) (X2 m c t d2) (hB_at m β hβ c t d2)
    ⟨(j 0).val, idx2_lt0 j⟩ ⟨(j 1).val, idx2_lt1 j⟩
  exact hs.symm.trans (congrArg (k0_pay9 (grid0.coords t) (X0 m c t) (X1 m c t d1) (X2 m c t d2)) (eq_ix2 j).symm)

omit hu he hβ hl in
/-- After the last tile the finalizing branch stores the row block's log-sum-exp column. -/
theorem lse_of (c : Dev nD) (b : Fin 2) (M L Lab : Vec Ideal S1024x1 .f32)
    (h : ScratchAt (u c) (e c) (β c) (l c) b 25 M L Lab) : lseCol u e β c b = k0_pay4 (F := Ideal) M L := by
  funext j
  have hj := col_ix j
  calc lseCol u e β c b j = k0_pay4 (F := Ideal) M L (ix2 (rowIx j) 0) :=
        (tile_final (u c) (e c) (β c) (l c) b M L Lab h (rowIx j)).symm
    _ = k0_pay4 (F := Ideal) M L j := by rw [← hj]

end Point

/-! ## Where the two result columns' windows are idle -/

/-- Away from the last column tile the body stores nothing into the two result columns' buffers, and they are not
    written back. -/
theorem idle5 : ∀ t : Fin cfg0.N, ¬t.val % 25 = 24 → cfg0.idle 5 (grid0.coords t) = true := by decide +kernel
theorem idle6 : ∀ t : Fin cfg0.N, ¬t.val % 25 = 24 → cfg0.idle 6 (grid0.coords t) = true := by decide +kernel
theorem noFlush5 : ∀ t : Fin cfg0.N, ¬t.val % 25 = 24 → (cfg0.win 5).flush t = false := by decide +kernel
theorem noFlush6 : ∀ t : Fin cfg0.N, ¬t.val % 25 = 24 → (cfg0.win 6).flush t = false := by decide +kernel
/-- At the last column tile they are stored. -/
theorem live5 : ∀ t : Fin cfg0.N, t.val % 25 = 24 → cfg0.idle 5 (grid0.coords t) = false := by decide +kernel
theorem live6 : ∀ t : Fin cfg0.N, t.val % 25 = 24 → cfg0.idle 6 (grid0.coords t) = false := by decide +kernel

theorem leaves5_idle (c : Dev nD) (t : Fin cfg0.N) (h : ¬t.val % 25 = 24) :
    ((dats m u e β l 0 c).leaves 5 t : sProp 𝕄) = iprop(∃ d, owns (c : Thread nD τ) (st0_5 t) fullShare ((dats m u e β l 0 c).before 5 t d)) := by
  unfold Dat.leaves; rw [idle5 t h, noFlush5 t h]
theorem leaves6_idle (c : Dev nD) (t : Fin cfg0.N) (h : ¬t.val % 25 = 24) :
    ((dats m u e β l 0 c).leaves 6 t : sProp 𝕄) = iprop(∃ d, owns (c : Thread nD τ) (st0_6 t) fullShare ((dats m u e β l 0 c).before 6 t d)) := by
  unfold Dat.leaves; rw [idle6 t h, noFlush6 t h]
theorem leaves5_live (c : Dev nD) (t : Fin cfg0.N) (h : t.val % 25 = 24) :
    ((dats m u e β l 0 c).leaves 5 t : sProp 𝕄) = owns (c : Thread nD τ) (st0_5 t) fullShare (lseCol u e β c (bOf t.val)) := by
  unfold Dat.leaves; rw [live5 t h]; rfl
theorem leaves6_live (c : Dev nD) (t : Fin cfg0.N) (h : t.val % 25 = 24) :
    ((dats m u e β l 0 c).leaves 6 t : sProp 𝕄) = owns (c : Thread nD τ) (st0_6 t) fullShare (labCol u e β l c (bOf t.val)) := by
  unfold Dat.leaves; rw [live6 t h]; rfl

/-! ## The body obligation -/

/-- What the body is called with at point t, the windows one by one, -/
def bodyPre (c : Dev nD) (t : Fin cfg0.N) : sProp 𝕄 :=
  iprop((dats m u e β l 0 c).Φ t.castSucc ∗ (dats m u e β l 0 c).owesAt () t.castSucc
    ∗ (∃ d, owns (c : Thread nD τ) (st0_0 t) fullShare ((dats m u e β l 0 c).before 0 t d))
    ∗ (∃ d, owns (c : Thread nD τ) (st0_1 t) fullShare ((dats m u e β l 0 c).before 1 t d))
    ∗ (∃ d, owns (c : Thread nD τ) (st0_2 t) fullShare ((dats m u e β l 0 c).before 2 t d))
    ∗ (∃ d, owns (c : Thread nD τ) (st0_3 t) fullShare ((dats m u e β l 0 c).before 3 t d))
    ∗ (∃ d, owns (c : Thread nD τ) (st0_4 t) fullShare ((dats m u e β l 0 c).before 4 t d))
    ∗ (∃ d, owns (c : Thread nD τ) (st0_5 t) fullShare ((dats m u e β l 0 c).before 5 t d))
    ∗ (∃ d, owns (c : Thread nD τ) (st0_6 t) fullShare ((dats m u e β l 0 c).before 6 t d)))

/-- and what it returns: the unclipped inputs' buffers at their blocks; the clipped windows' buffers stated on the part
    inside their arrays; the two result columns' as the schedule has them. -/
def bodyPost (c : Dev nD) (t : Fin cfg0.N) : sProp 𝕄 :=
  iprop((dats m u e β l 0 c).Φ t.succ ∗ (dats m u e β l 0 c).owesAt () t.succ
    ∗ owns (c : Thread nD τ) (st0_0 t) fullShare ((dats m u e β l 0 c).after 0 t)
    ∗ (∃ d, owns (c : Thread nD τ) (st0_1 t) fullShare ((cfg0.win 1).fill (cfg0.grid.coords t) d ((cfg0.win 1).cut (cfg0.grid.coords t) ((dats m u e β l 0 c).after 1 t))))
    ∗ (∃ d, owns (c : Thread nD τ) (st0_2 t) fullShare ((cfg0.win 2).fill (cfg0.grid.coords t) d ((cfg0.win 2).cut (cfg0.grid.coords t) ((dats m u e β l 0 c).after 2 t))))
    ∗ owns (c : Thread nD τ) (st0_3 t) fullShare ((dats m u e β l 0 c).after 3 t)
    ∗ (∃ d, owns (c : Thread nD τ) (st0_4 t) fullShare ((cfg0.win 4).fill (cfg0.grid.coords t) d ((cfg0.win 4).cut (cfg0.grid.coords t) ((dats m u e β l 0 c).after 4 t))))
    ∗ (dats m u e β l 0 c).leaves 5 t
    ∗ (dats m u e β l 0 c).leaves 6 t)

section Run

variable (hu : ∀ (c : Dev nD) (r : Fin 2048) (k : Fin 256), (V m c main_v31 : S2048x256.Idx → EReal) (ix2 r k) = ((u c r k : ℝ) : EReal))
  (he : ∀ (c : Dev nD) (j : Fin 50000) (k : Fin 256), (V m c main_arg0 : S50000x256.Idx → EReal) (ix2 j k) = ((e c j k : ℝ) : EReal))
  (hβ : ∀ (c : Dev nD) (j : Fin 50000), (V m c main_v32 : S1x50000.Idx → EReal) (ix2 0 j) = ((β c j : ℝ) : EReal))
  (hl : ∀ (c : Dev nD) (r : Fin 2048), (V m c main_v33 : S2048x1.Idx → BitVec 32) (ix2 r 0) = BitVec.ofNat 32 (l c r).val)

include hu he hβ hl

set_option maxHeartbeats 4000000 in
/-- The body at any point, by the three control cases the grid meets. -/
theorem sound_body (c : Dev nD) (t : Fin cfg0.N) :
    bodyPre m u e β l c t ⊢ wp frame (wpE (defs₀ (F := Ideal)) Variants.none c none) Set.univ (bodyAt0 t) (fun _ => bodyPost m u e β l c t) := by
  unfold bodyPre bodyPost bodyAt0
  simp only [before0, before1, before2, before3, after0, after1, after2, after3, after4]
  rw [show (dats m u e β l 0 c).owesAt () t.succ = (dats m u e β l 0 c).owesAt () t.castSucc from rfl,
    show (dats m u e β l 0 c).Φ t.succ = PhiS u e β l c (t.val + 1) t.isLt from rfl, PhiS_succ, PhiS_castSucc]
  have hN : t.val < 50 := lt_of_lt_of_eq t.isLt N50
  by_cases h0 : t.val % 25 = 0
  · -- the first column tile of a row block: the scratch columns are reset, whatever they held
    have h1 : ¬t.val % 25 = 24 := by omega
    have hS0 : ScratchAt (u c) (e c) (β c) (l c) (bOf t.val) (nOf t.val) (k0_pay5 (F := Ideal)) (k0_pay6 (F := Ideal)) (k0_pay7 (F := Ideal)) := by
      rw [show nOf t.val = 0 from h0]; exact scratch_reset (u c) (e c) (β c) (l c) (bOf t.val)
    rw [leaves5_idle m u e β l c t h1, leaves6_idle m u e β l c t h1]
    by_cases hz : t.val = 0
    · rw [PhiS_zero u e β l c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, H5, H6⟩
      iapply (sound_A (F := Ideal) c (grid0.coords t) _ _ _ _ _ _ _ _ _ _ _ _ _ _ _ _ _ _ _ _ ((hcond0 t).mpr h0) (fun h => h1 ((hcond1 t).mp h))
        (X0 m c t) (X1 m c t d1) (X2 m c t d2) (X3 m c t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · obtain ⟨eM, eL, eLab⟩ := point_step m u e β l hu he hβ hl c t d1 d2 _ _ _ hS0
        rw [eM, eL, eLab]
        isplitl [HS0]; · iexact HS0
        isplitl [HS1]; · iexact HS1
        isplitl [HS2]; · iexact HS2
        iexact Hg
      isplitl [Ho]; · iexact Ho
      isplitl [H0]; · iexact H0
      isplitl [H1]
      · iexists d1; rw [(cfg0.win 1).cut_fill]; iexact H1
      isplitl [H2]
      · iexists d2; rw [(cfg0.win 2).cut_fill]; iexact H2
      isplitl [H3]; · iexact H3
      isplitl [H4]
      · iexists (k0_pay9 (F := Ideal) (grid0.coords t) (X0 m c t) (X1 m c t d1) (X2 m c t d2))
        rw [point_tile m u e β l hu he hβ hl c t d1 d2, (cfg0.win 4).fill_cut]; iexact H4
      isplitl [H5]; · iexact H5
      iexact H6
    · rw [PhiS_pos u e β l c _ _ hz]
      iintro ⟨⟨HS0, HS1, HS2, Hg⟩, Ho, ⟨%d0, H0⟩, ⟨%d1, H1⟩, ⟨%d2, H2⟩, ⟨%d3, H3⟩, ⟨%d4, H4⟩, H5, H6⟩
      iapply (sound_A (F := Ideal) c (grid0.coords t) _ _ _ _ _ _ _ _ _ _ _ _ _ _ _ _ _ _ _ _ ((hcond0 t).mpr h0) (fun h => h1 ((hcond1 t).mp h))
        (X0 m c t) (X1 m c t d1) (X2 m c t d2) (X3 m c t) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2 Hg]
      · obtain ⟨eM, eL, eLab⟩ := point_step m u e β l hu he hβ hl c t d1 d2 _ _ _ hS0
        rw [eM, eL, eLab]
        isplitl [HS0]; · iexact HS0
        isplitl [HS1]; · iexact HS1
        isplitl [HS2]; · iexact HS2
        iexact Hg
      isplitl [Ho]; · iexact Ho
      isplitl [H0]; · iexact H0
      isplitl [H1]
      · iexists d1; rw [(cfg0.win 1).cut_fill]; iexact H1
      isplitl [H2]
      · iexists d2; rw [(cfg0.win 2).cut_fill]; iexact H2
      isplitl [H3]; · iexact H3
      isplitl [H4]
      · iexists (k0_pay9 (F := Ideal) (grid0.coords t) (X0 m c t) (X1 m c t d1) (X2 m c t d2))
        rw [point_tile m u e β l hu he hβ hl c t d1 d2, (cfg0.win 4).fill_cut]; iexact H4
      isplitl [H5]; · iexact H5
      iexact H6
  · have hz : t.val ≠ 0 := fun h => h0 (by rw [h])
    have hS := scratchAt_cols u e β l c (bOf t.val) (nOf t.val)
    rw [PhiS_pos u e β l c _ _ hz, bOf_pred t.val h0, nOf_pred t.val h0]
    by_cases h1 : t.val % 25 = 24
    · -- the last column tile: the two result columns are stored
      have h25 : nOf t.val + 1 = 25 := by show t.val % 25 + 1 = 25; omega
      rw [leaves5_live m u e β l c t h1, leaves6_live m u e β l c t h1]
      iintro ⟨⟨HS0, HS1, HS2, Hg⟩, Ho, ⟨%d0, H0⟩, ⟨%d1, H1⟩, ⟨%d2, H2⟩, ⟨%d3, H3⟩, ⟨%d4, H4⟩, ⟨%d5, H5⟩, ⟨%d6, H6⟩⟩
      iapply (sound_C (F := Ideal) c (grid0.coords t) _ _ _ _ _ _ _ _ _ _ _ _ _ _ _ _ _ _ _ _ (fun h => h0 ((hcond0 t).mp h)) ((hcond1 t).mpr h1)
        (X0 m c t) (X1 m c t d1) (X2 m c t d2) (X3 m c t) (Mcol u e β c (bOf t.val) (nOf t.val)) (Lcol u e β c (bOf t.val) (nOf t.val))
        (Labcol u e β l c (bOf t.val) (nOf t.val)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · obtain ⟨eM, eL, eLab⟩ := point_step m u e β l hu he hβ hl c t d1 d2 _ _ _ hS
        rw [eM, eL, eLab]
        isplitl [HS0]; · iexact HS0
        isplitl [HS1]; · iexact HS1
        isplitl [HS2]; · iexact HS2
        iexact Hg
      isplitl [Ho]; · iexact Ho
      isplitl [H0]; · iexact H0
      isplitl [H1]
      · iexists d1; rw [(cfg0.win 1).cut_fill]; iexact H1
      isplitl [H2]
      · iexists d2; rw [(cfg0.win 2).cut_fill]; iexact H2
      isplitl [H3]; · iexact H3
      isplitl [H4]
      · iexists (k0_pay9 (F := Ideal) (grid0.coords t) (X0 m c t) (X1 m c t d1) (X2 m c t d2))
        rw [point_tile m u e β l hu he hβ hl c t d1 d2, (cfg0.win 4).fill_cut]; iexact H4
      isplitl [H5]
      · have hsc := point_scratch m u e β l hu he hβ hl c t d1 d2 _ _ _ hS
        rw [h25] at hsc
        rw [lse_of u e β l c (bOf t.val) _ _ _ hsc]; iexact H5
      · obtain ⟨eM, eL, eLab⟩ := point_step m u e β l hu he hβ hl c t d1 d2 _ _ _ hS
        rw [show labCol u e β l c (bOf t.val) = Labcol u e β l c (bOf t.val) (nOf t.val + 1) from by rw [h25]; rfl, eLab]
        iexact H6
    · -- a middle column tile
      rw [leaves5_idle m u e β l c t h1, leaves6_idle m u e β l c t h1]
      iintro ⟨⟨HS0, HS1, HS2, Hg⟩, Ho, ⟨%d0, H0⟩, ⟨%d1, H1⟩, ⟨%d2, H2⟩, ⟨%d3, H3⟩, ⟨%d4, H4⟩, H5, H6⟩
      iapply (sound_B (F := Ideal) c (grid0.coords t) _ _ _ _ _ _ _ _ _ _ _ _ _ _ _ _ _ _ _ _ (fun h => h0 ((hcond0 t).mp h)) (fun h => h1 ((hcond1 t).mp h))
        (X0 m c t) (X1 m c t d1) (X2 m c t d2) (X3 m c t) (Mcol u e β c (bOf t.val) (nOf t.val)) (Lcol u e β c (bOf t.val) (nOf t.val))
        (Labcol u e β l c (bOf t.val) (nOf t.val)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · obtain ⟨eM, eL, eLab⟩ := point_step m u e β l hu he hβ hl c t d1 d2 _ _ _ hS
        rw [eM, eL, eLab]
        isplitl [HS0]; · iexact HS0
        isplitl [HS1]; · iexact HS1
        isplitl [HS2]; · iexact HS2
        iexact Hg
      isplitl [Ho]; · iexact Ho
      isplitl [H0]; · iexact H0
      isplitl [H1]
      · iexists d1; rw [(cfg0.win 1).cut_fill]; iexact H1
      isplitl [H2]
      · iexists d2; rw [(cfg0.win 2).cut_fill]; iexact H2
      isplitl [H3]; · iexact H3
      isplitl [H4]
      · iexists (k0_pay9 (F := Ideal) (grid0.coords t) (X0 m c t) (X1 m c t d1) (X2 m c t d2))
        rw [point_tile m u e β l hu he hβ hl c t d1 d2, (cfg0.win 4).fill_cut]; iexact H4
      isplitl [H5]; · iexact H5
      iexact H6

/-- The library's body obligation at every point, nothing forgotten. -/
theorem body_obligation_at (c : Dev nD) :
    BodyObligationLoose (dats m u e β l 0 c) (defs₀ (F := Ideal)) Variants.none () Set.univ := fun t => by
  rw [bigSep_W0, bigSep_W0]
  exact sound_body m u e β l hu he hβ hl c t

omit hu he hβ hl in
/-- What the launch hands the region is the invariant before the first point. -/
theorem hin (c : Dev nD) : Pipeline.ΦA spec0 c ⊢ (dats m u e β l 0 c).Φ 0 := by
  rw [show (dats m u e β l 0 c).Φ 0 = PhiS u e β l c 0 (Nat.zero_le _) from rfl, PhiS_zero u e β l c 0 _ rfl]
  try exact Idealize.SL.BI.Entails.refl _

omit hu he hβ hl in
/-- After the last point the invariant gives the class's back: the columns' names are forgotten. -/
theorem hout (c : Dev nD) : (dats m u e β l 0 c).Φ (Fin.last cfg0.N) ⊢ Pipeline.ΦA spec0 c := by
  rw [show (dats m u e β l 0 c).Φ (Fin.last cfg0.N) = PhiS u e β l c (Fin.last cfg0.N).val (Nat.le_of_lt_succ (Fin.last cfg0.N).isLt) from rfl,
    PhiS_pos u e β l c _ _ (by rw [Fin.val_last]; have : cfg0.N = 50 := N50; omega), PhiA_eq]
  iintro ⟨HS0, HS1, HS2, Hg⟩
  isplitr [Hg]
  · isplitl [HS0]; · iexists _; iexact HS0
    isplitl [HS1]; · iexists _; iexact HS1
    iexists _; iexact HS2
  iexact Hg

set_option backward.isDefEq.respectTransparency.types false in
/-- From any memory with zero counters every weakly fair execution of @main on the TensorCores terminates, and every
    final state has every array of the pipeline at what the proof data compute and every other unscoped buffer as the
    host lines after the region leave it. -/
theorem run_main_at : θ_run defs (onTc (τ := τ) (main (F := Ideal))) (s₀ m ρ)
    (Pipeline.FramePost cfgs (dats m u e β l) 0 (Pipeline.afterTail₀ cfgs (dats m u e β l) 0 (V0 m) [hostOps1])) :=
  Pipeline.θ_run_frame_around_track cfgs (dats m u e β l) (0 : Fin 1) launch0 defs₀ Variants.none m ρ main
    (hbody := fun c => body_obligation_at m u e β l hu he hβ hl c) (hshare := fun c => (dats m u e β l 0 c).share_full fun _ => rfl)
    (howed := fun _ _ => rfl) (V₀ := V0 m) (opss := [hostOps1]) (hsub := sfx_sub) (hfresh := sfx_fresh) (hkeep := sfx_keeps)
    (hmain := hmain m Variants.none) (hA := A_eq m u e β l) (hin := hin m u e β l) (hout := hout m u e β l)

end Run

end Dev

section Final

variable [Cert.KernelIdeal.Facts] (m : (ℓ : Loc nD τ sig) → Buf (Elt Ideal) ℓ) (ρ : Dev nD → PrngReg)
  (u : Dev nD → Fin 2048 → Fin 256 → ℝ) (e : Dev nD → Fin 50000 → Fin 256 → ℝ) (β : Dev nD → Fin 50000 → ℝ)
  (l : Dev nD → Fin 2048 → Fin 50000)
variable (hu : ∀ (c : Dev nD) (r : Fin 2048) (k : Fin 256), (V m c main_v31 : S2048x256.Idx → EReal) (ix2 r k) = ((u c r k : ℝ) : EReal))
  (he : ∀ (c : Dev nD) (j : Fin 50000) (k : Fin 256), (V m c main_arg0 : S50000x256.Idx → EReal) (ix2 j k) = ((e c j k : ℝ) : EReal))
  (hβ : ∀ (c : Dev nD) (j : Fin 50000), (V m c main_v32 : S1x50000.Idx → EReal) (ix2 0 j) = ((β c j : ℝ) : EReal))
  (hl : ∀ (c : Dev nD) (r : Fin 2048), (V m c main_v33 : S2048x1.Idx → BitVec 32) (ix2 r 0) = BitVec.ofNat 32 (l c r).val)

include hu he hβ hl

/-- THE BODY OBLIGATION of the proof data, at any instance carrying the program's stated facts: given that the region
    finds the user matrix, the entity table, the bias and the labels at the real views. -/
theorem body_obligation (c : Dev nD) :
    BodyObligationLoose (Cert.IData.dats m u e β l 0 c) (defs₀ (F := Ideal)) Variants.none () Set.univ :=
  body_obligation_at m u e β l hu he hβ hl c

/-- THE RUN: every weakly fair execution of @main terminates, every array of the pipeline ends at what the proof data
    compute, and every other unscoped buffer as the host lines after the region leave it. -/
theorem run_main : θ_run defs (onTc (τ := τ) (main (F := Ideal))) (s₀ m ρ)
    (Pipeline.FramePost cfgs (Cert.IData.dats m u e β l) 0 (Pipeline.afterTail₀ cfgs (Cert.IData.dats m u e β l) 0 (V0 m) [hostOps1])) :=
  run_main_at m ρ u e β l hu he hβ hl

end Final

end Cert.IFrame

end
-- ==== Proof.IValue.lean ====
/-
  The three output arrays after the region: every entry of the scores array is written exactly once, by the point whose
  row block and column tile hold it, with the score; the log-sum-exp and label-score columns are written once per row
  block, at its last column tile.
-/
import proofs.«401027_j10093173145844_3_alg».proof.Proof.IData
import proofs.«401027_j10093173145844_3_alg».proof.Proof.TileMath
import Idealize.ShloMosaic.Lib.Pipeline.Value

set_option maxRecDepth 16384

noncomputable section

namespace Cert.IValue

open Idealize.ShloMosaic Idealize.ShloMosaic.ValueIdx Idealize.ShloMosaic.TcCoe Idealize.SL.Sem
open Cert.KernelIdeal Cert.KernelIdeal.Gen Cert.Spec Cert.IData
open Idealize.ShloMosaic.Pipeline (Dat Cfg Window)

variable [Cert.KernelIdeal.Facts]

variable (m : (ℓ : Loc nD τ sig) → Buf (Elt Ideal) ℓ)
variable (u : Dev nD → Fin 2048 → Fin 256 → ℝ) (e : Dev nD → Fin 50000 → Fin 256 → ℝ) (β : Dev nD → Fin 50000 → ℝ)
  (l : Dev nD → Fin 2048 → Fin 50000)

/-! ### The output windows' blocks at a point, decided over the grid -/

/-- The scores window at point t: block index (t / 25, t % 25); the write-back moves all 1024 rows, and all 2048
    columns of the block before the last column tile, the 848 inside the array at the last. -/
theorem index4 : ∀ t : Fin cfg0.N, win0_4.index t (0 : Fin 2) = t.val / 25 ∧ win0_4.index t (1 : Fin 2) = t.val % 25
    ∧ win0_4.xsize (grid0.coords t) (0 : Fin 2) = 1024
    ∧ (t.val % 25 < 24 → win0_4.xsize (grid0.coords t) (1 : Fin 2) = 2048)
    ∧ (t.val % 25 = 24 → win0_4.xsize (grid0.coords t) (1 : Fin 2) = 848) :=
  (by decide +kernel : ∀ t : Fin grid0.N, win0_4.index t (0 : Fin 2) = t.val / 25 ∧ win0_4.index t (1 : Fin 2) = t.val % 25
    ∧ win0_4.xsize (grid0.coords t) (0 : Fin 2) = 1024
    ∧ (t.val % 25 < 24 → win0_4.xsize (grid0.coords t) (1 : Fin 2) = 2048)
    ∧ (t.val % 25 = 24 → win0_4.xsize (grid0.coords t) (1 : Fin 2) = 848))

/-- The log-sum-exp window's block index at point t: (t / 25, 0). -/
theorem index5 : ∀ t : Fin cfg0.N, win0_5.index t (0 : Fin 2) = t.val / 25 ∧ win0_5.index t (1 : Fin 2) = 0 :=
  (by decide +kernel : ∀ t : Fin grid0.N, win0_5.index t (0 : Fin 2) = t.val / 25 ∧ win0_5.index t (1 : Fin 2) = 0)

/-- The label-score window's block index at point t: (t / 25, 0). -/
theorem index6 : ∀ t : Fin cfg0.N, win0_6.index t (0 : Fin 2) = t.val / 25 ∧ win0_6.index t (1 : Fin 2) = 0 :=
  (by decide +kernel : ∀ t : Fin grid0.N, win0_6.index t (0 : Fin 2) = t.val / 25 ∧ win0_6.index t (1 : Fin 2) = 0)

theorem lt50 (t : Fin cfg0.N) : t.val < 50 := t.isLt.trans_eq N50

/-! ### The three arrays as whole-array functions -/

/-- The scores array: entry (r, j) is the score of row r against entity j. -/
def G4 (c : Dev nD) : S2048x50000.Idx → EReal :=
  fun i => ((sc u e β c ⟨(i 0).val, idx2_lt0 i⟩ ⟨(i 1).val, idx2_lt1 i⟩ : ℝ) : EReal)

/-- The log-sum-exp column: entry r is the maximum plus the log of the shifted sum of row r's scores. -/
def G5 (c : Dev nD) : S2048x1.Idx → EReal :=
  fun i => runMax (sc u e β c ⟨(i 0).val, idx2_lt0 i⟩) 25 + Ideal.log (runSum (sc u e β c ⟨(i 0).val, idx2_lt0 i⟩) 25)

/-- The label-score column: entry r is row r's score at its label. -/
def G6 (c : Dev nD) : S2048x1.Idx → EReal :=
  fun i => runLab (sc u e β c ⟨(i 0).val, idx2_lt0 i⟩) (l c ⟨(i 0).val, idx2_lt0 i⟩) 25

/-- An entry of a tile of scores whose column exists is the score of its global row and entity. -/
theorem tileBlk_apply (c : Dev nD) (b : Fin 2) (n : ℕ) (J : S1024x2048.Idx) (r : Fin 2048) (jj : Fin 50000)
    (hr : b.val * 1024 + (J 0).val = r.val) (hj : n * 2048 + (J 1).val = jj.val) :
    tileBlk u e β c b n J = ((sc u e β c r jj : ℝ) : EReal) := by
  have hrow : row b ⟨(J 0).val, idx2_lt0 J⟩ = r := Fin.ext hr
  show tile (sc u e β c (row b ⟨(J 0).val, idx2_lt0 J⟩)) n ⟨(J 1).val, idx2_lt1 J⟩ = _
  rw [hrow]
  exact tile_of_eq _ n _ jj hj

/-- An entry of a row block's log-sum-exp column is the whole column's entry at the global row. -/
theorem lseCol_apply (c : Dev nD) (b : Fin 2) (J : S1024x1.Idx) (I : S2048x1.Idx) (hr : b.val * 1024 + (J 0).val = (I 0).val) :
    lseCol u e β c b J = G5 u e β c I := by
  have hrow : row b (rowIx J) = ⟨(I 0).val, idx2_lt0 I⟩ := Fin.ext hr
  simp only [lseCol, G5]
  rw [hrow]

/-- An entry of a row block's label-score column is the whole column's entry at the global row. -/
theorem labCol_apply (c : Dev nD) (b : Fin 2) (J : S1024x1.Idx) (I : S2048x1.Idx) (hr : b.val * 1024 + (J 0).val = (I 0).val) :
    labCol u e β l c b J = G6 u e β l c I := by
  have hrow : row b (rowIx J) = ⟨(I 0).val, idx2_lt0 I⟩ := Fin.ext hr
  simp only [labCol, G6]
  rw [hrow]

/-- The whole columns at row r. -/
theorem G5_ix2 (c : Dev nD) (r : Fin 2048) :
    G5 u e β c (ix2 r 0) = runMax (sc u e β c r) 25 + Ideal.log (runSum (sc u e β c r) 25) := by
  simp only [G5]

theorem G6_ix2 (c : Dev nD) (r : Fin 2048) :
    G6 u e β l c (ix2 r 0) = runLab (sc u e β c r) (l c r) 25 := by
  simp only [G6]

/-- Reading a whole-array function through a block of the two column windows: the function at the block's index in the array. -/
theorem read5 (t : Fin cfg0.N) (G : S2048x1.Idx → EReal) (j : ((cfg0.win 5).xblock (cfg0.grid.coords t)).Idx) :
    ((cfg0.win 5).blk t).view.read (Elt Ideal) G j = G (((cfg0.win 5).blk t).view.emb j) := rfl
theorem read6 (t : Fin cfg0.N) (G : S2048x1.Idx → EReal) (j : ((cfg0.win 6).xblock (cfg0.grid.coords t)).Idx) :
    ((cfg0.win 6).blk t).view.read (Elt Ideal) G j = G (((cfg0.win 6).blk t).view.emb j) := rfl

/-! ### What each point writes back is its block of the whole-array function -/

theorem flushed4_eq (c : Dev nD) (t : Fin cfg0.N) :
    (dats m u e β l 0 c).flushed 4 t = ((cfg0.win 4).blk t).view.read (Elt Ideal) (G4 u e β c) := by
  obtain ⟨e0, e1, x0, x1, x1'⟩ := index4 t
  have htN := lt50 t
  show (cfg0.win 4).cut (grid0.coords t) ((dats m u e β l 0 c).after 4 t) = _
  rw [after4]
  funext j
  -- a block's coordinate is the block index times the block size plus the coordinate inside the block
  let I : S2048x50000.Idx := ((cfg0.win 4).blk t).view.emb j
  let J : S1024x2048.Idx := (cfg0.win 4).xinj (grid0.coords t) j
  show tileBlk u e β c (bOf t.val) (nOf t.val) J
    = ((sc u e β c ⟨(I 0).val, idx2_lt0 I⟩ ⟨(I 1).val, idx2_lt1 I⟩ : ℝ) : EReal)
  have h0 : (bOf t.val).val * 1024 + (J 0).val = (I 0).val := by
    show t.val / 25 % 2 * 1024 + (j (0 : Fin 2)).val = win0_4.index t (0 : Fin 2) * 1024 + 1 * (j (0 : Fin 2)).val
    omega
  have h1 : nOf t.val * 2048 + (J 1).val = (I 1).val := by
    show t.val % 25 * 2048 + (j (1 : Fin 2)).val = win0_4.index t (1 : Fin 2) * 2048 + 1 * (j (1 : Fin 2)).val
    omega
  exact tileBlk_apply u e β c (bOf t.val) (nOf t.val) J ⟨(I 0).val, idx2_lt0 I⟩ ⟨(I 1).val, idx2_lt1 I⟩ h0 h1

theorem flushed5_eq (c : Dev nD) (t : Fin cfg0.N) :
    (dats m u e β l 0 c).flushed 5 t = ((cfg0.win 5).blk t).view.read (Elt Ideal) (G5 u e β c) := by
  obtain ⟨e0, e1⟩ := index5 t
  have htN := lt50 t
  show (cfg0.win 5).cut (grid0.coords t) ((dats m u e β l 0 c).after 5 t) = _
  rw [after5]
  funext j
  refine Eq.trans ?_ (read5 t (G5 u e β c) j).symm
  let I : S2048x1.Idx := ((cfg0.win 5).blk t).view.emb j
  let J : S1024x1.Idx := (cfg0.win 5).xinj (grid0.coords t) j
  have h0 : (bOf t.val).val * 1024 + (J 0).val = (I 0).val := by
    show t.val / 25 % 2 * 1024 + (j (0 : Fin 2)).val = win0_5.index t (0 : Fin 2) * 1024 + 1 * (j (0 : Fin 2)).val
    omega
  exact lseCol_apply u e β c (bOf t.val) J I h0

theorem flushed6_eq (c : Dev nD) (t : Fin cfg0.N) :
    (dats m u e β l 0 c).flushed 6 t = ((cfg0.win 6).blk t).view.read (Elt Ideal) (G6 u e β l c) := by
  obtain ⟨e0, e1⟩ := index6 t
  have htN := lt50 t
  show (cfg0.win 6).cut (grid0.coords t) ((dats m u e β l 0 c).after 6 t) = _
  rw [after6]
  funext j
  refine Eq.trans ?_ (read6 t (G6 u e β l c) j).symm
  let I : S2048x1.Idx := ((cfg0.win 6).blk t).view.emb j
  let J : S1024x1.Idx := (cfg0.win 6).xinj (grid0.coords t) j
  have h0 : (bOf t.val).val * 1024 + (J 0).val = (I 0).val := by
    show t.val / 25 % 2 * 1024 + (j (0 : Fin 2)).val = win0_6.index t (0 : Fin 2) * 1024 + 1 * (j (0 : Fin 2)).val
    omega
  exact labCol_apply u e β l c (bOf t.val) J I h0

/-! ### Every entry lies in the block of a point that writes back -/

/-- An index of the scores array is in point t's block iff each coordinate is in the block's range, cut at the array's end. -/
theorem mem_blk4 (t : Fin cfg0.N) (i : S2048x50000.Idx) :
    i ∈ ((cfg0.win 4).blk t).view.set ↔ ∀ a : Fin 2, win0_4.index t a * S1024x2048.size a ≤ (i a).val
      ∧ (i a).val < win0_4.index t a * S1024x2048.size a + win0_4.xsize (grid0.coords t) a := by
  show i ∈ ((View.whole main_v34_0).slice (win0_4.rect t)).set ↔ _
  rw [View.set_slice_whole, Rect.mem_set_unit]
  exact Iff.rfl

theorem mem_blk5 (t : Fin cfg0.N) (i : S2048x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v34_1).slice (win0_5.rect t)).set ↔ _
  rw [View.set_slice_whole, Rect.mem_set_unit]
  exact Iff.rfl

theorem mem_blk6 (t : Fin cfg0.N) (i : S2048x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v34_2).slice (win0_6.rect t)).set ↔ _
  rw [View.set_slice_whole, Rect.mem_set_unit]
  exact Iff.rfl

/-- Entry (r, j) is in the block of the point of row block r / 1024 and column tile j / 2048, which writes back. -/
theorem cover4 (i : S2048x50000.Idx) :
    ∃ t : Fin cfg0.N, (cfg0.win 4).flush t = true ∧ i ∈ ((cfg0.win 4).blk t).view.set := by
  have h0 := idx2_lt0 i
  have h1 := idx2_lt1 i
  obtain ⟨t, tv⟩ : ∃ t : Fin cfg0.N, t.val = (i 0).val / 1024 * 25 + (i 1).val / 2048 :=
    ⟨⟨_, (show (i 0).val / 1024 * 25 + (i 1).val / 2048 < 50 by omega).trans_eq N50.symm⟩, rfl⟩
  obtain ⟨e0, e1, x0, x1, x1'⟩ := index4 t
  refine ⟨t, flush0_4 t, ?_⟩
  rw [mem_blk4]
  intro a
  match a with
  | ⟨0, _⟩ =>
    show win0_4.index t (0 : Fin 2) * 1024 ≤ (i 0).val
      ∧ (i 0).val < win0_4.index t (0 : Fin 2) * 1024 + win0_4.xsize (grid0.coords t) (0 : Fin 2)
    rw [e0, x0]; omega
  | ⟨1, _⟩ =>
    show win0_4.index t (1 : Fin 2) * 2048 ≤ (i 1).val
      ∧ (i 1).val < win0_4.index t (1 : Fin 2) * 2048 + win0_4.xsize (grid0.coords t) (1 : Fin 2)
    rcases Nat.lt_or_ge (t.val % 25) 24 with h24 | h24
    · rw [e1, x1 h24]; omega
    · rw [e1, x1' (by omega)]; omega

/-- Row r is in the block of the last column tile's point of row block r / 1024, which writes back. -/
theorem cover5 (i : S2048x1.Idx) :
    ∃ t : Fin cfg0.N, (cfg0.win 5).flush t = true ∧ i ∈ ((cfg0.win 5).blk t).view.set := by
  have h0 := idx2_lt0 i
  have h1 := idx2_lt1 i
  obtain ⟨t, tv⟩ : ∃ t : Fin cfg0.N, t.val = (i 0).val / 1024 * 25 + 24 :=
    ⟨⟨_, (show (i 0).val / 1024 * 25 + 24 < 50 by omega).trans_eq N50.symm⟩, rfl⟩
  obtain ⟨e0, e1⟩ := index5 t
  refine ⟨t, (flush0_5 t).mpr (by omega), ?_⟩
  rw [mem_blk5]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1 ≤ (i 1).val ∧ (i 1).val < win0_5.index t (1 : Fin 2) * 1 + 1
    omega

theorem cover6 (i : S2048x1.Idx) :
    ∃ t : Fin cfg0.N, (cfg0.win 6).flush t = true ∧ i ∈ ((cfg0.win 6).blk t).view.set := by
  have h0 := idx2_lt0 i
  have h1 := idx2_lt1 i
  obtain ⟨t, tv⟩ : ∃ t : Fin cfg0.N, t.val = (i 0).val / 1024 * 25 + 24 :=
    ⟨⟨_, (show (i 0).val / 1024 * 25 + 24 < 50 by omega).trans_eq N50.symm⟩, rfl⟩
  obtain ⟨e0, e1⟩ := index6 t
  refine ⟨t, (flush0_6 t).mpr (by omega), ?_⟩
  rw [mem_blk6]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1 ≤ (i 1).val ∧ (i 1).val < win0_6.index t (1 : Fin 2) * 1 + 1
    omega

/-! ### The arrays after the last write-back -/

/-- The scores array after the last write-back. -/
theorem scores_final (c : Dev nD) (r : Fin 2048) (j : Fin 50000) :
    ((dats m u e β l 0 c).arrAt 4 cfg0.N : S2048x50000.Idx → EReal) (ix2 r j) = ((sc u e β c r j : ℝ) : EReal) :=
  congrFun ((dats m u e β l 0 c).arrAt_eq_of_cover 4 (G4 u e β c) (fun t _ => flushed4_eq m u e β l c t) cover4) (ix2 r j)

/-- The log-sum-exp column after the last write-back. -/
theorem lse_final (c : Dev nD) (r : Fin 2048) :
    ((dats m u e β l 0 c).arrAt 5 cfg0.N : S2048x1.Idx → EReal) (ix2 r 0)
      = runMax (sc u e β c r) 25 + Ideal.log (runSum (sc u e β c r) 25) :=
  (congrFun ((dats m u e β l 0 c).arrAt_eq_of_cover 5 (G5 u e β c) (fun t _ => flushed5_eq m u e β l c t) cover5) (ix2 r 0)).trans
    (G5_ix2 u e β c r)

/-- The label-score column after the last write-back. -/
theorem lab_final (c : Dev nD) (r : Fin 2048) :
    ((dats m u e β l 0 c).arrAt 6 cfg0.N : S2048x1.Idx → EReal) (ix2 r 0) = runLab (sc u e β c r) (l c r) 25 :=
  (congrFun ((dats m u e β l 0 c).arrAt_eq_of_cover 6 (G6 u e β l c) (fun t _ => flushed6_eq m u e β l c t) cover6) (ix2 r 0)).trans
    (G6_ix2 u e β l c r)

end Cert.IValue

end
-- ==== Proof.ITail.lean ====
/-
  The host lines after the region: the two columns are re-laid as vectors, subtracted, summed and divided by the row
  count: the mean over the rows of (log-sum-exp minus label score).
-/
import proofs.«401027_j10093173145844_3_alg».proof.Proof.Gen.KernelIdeal.Frame
import proofs.«401027_j10093173145844_3_alg».proof.Proof.Spec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.ITail

open Idealize.ShloMosaic Idealize.ShloMosaic.ValueIdx Idealize.ShloMosaic.TcCoe Idealize.SL.Sem
open Cert.KernelIdeal Cert.KernelIdeal.Gen Cert.Spec
open Idealize.ShloMosaic.Pipeline (Dat Cfg Window)

variable [Cert.KernelIdeal.Facts]

/-- The f32 pattern 0x45000000 (exponent field 138, significand 0) denotes 2¹¹ = 2048. -/
theorem ofBits_rows : Ideal.ofBits .f32 0x45000000#32 = ((2048 : ℝ) : EReal) := by
  simp [Ideal.ofBits, Ideal.ieee, -EReal.coe_mul]; norm_num

/-- A vector's index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A [2048 × 1] column re-laid as a vector reads, at r, the column at (r, 0). -/
theorem column_as_vector (a : FVec Ideal S2048x1 .f32) (hc : S2048x1.ShapeCasts S2048) (r : Fin 2048) :
    shapeCast S2048 a hc (ix1 r) = a (ix2 r 0) := by
  refine shapeCast_apply a hc (ix1 r) (ix2 r 0) ?_
  rw [Shape.rowMajor_val_two, Shape.rowMajor_val_one]
  show r.val * 1 + 0 = r.val
  omega

/-- The host lines on two columns a and b: the vectors' difference summed from zero over the 2048 rows and divided by
    2048 is the mean over the rows of a(r, 0) − b(r, 0). -/
theorem mean_of_columns (a b : FVec Ideal S2048x1 .f32) (hc : S2048x1.ShapeCasts S2048) (hr : S2048.ReducesTo [0] S_)
    (h0 : 0 < S_.numel) (i : S_.Idx) :
    Host.divf (F := Ideal)
        (Host.reduceAdd (F := Ideal) (subf (F := Ideal) (shapeCast S2048 a hc) (shapeCast S2048 b hc))
          (constant (F := Ideal) S_ .f32 0x00000000#32) hr h0)
        (constant (F := Ideal) S_ .f32 0x45000000#32) i
      = Ideal.div (∑ r : Fin 2048, (a (ix2 r 0) - b (ix2 r 0))) (((2048 : ℝ)) : EReal) := by
  show Ideal.div (Ideal.hostReduceAdd hr (subf (F := Ideal) (shapeCast S2048 a hc) (shapeCast S2048 b hc))
      (Ideal.ofBits .f32 0x00000000#32) i) (Ideal.ofBits .f32 0x45000000#32) = _
  rw [Ideal.hostReduceAdd_total hr (fun d => d.elim0), Ideal.ofBits_zero_f32, ofBits_rows, zero_add, sum_idx1]
  refine congrArg (fun t => Ideal.div t (((2048 : ℝ)) : EReal)) (Finset.sum_congr rfl fun r _ => ?_)
  rw [subf_apply, column_as_vector a hc r, column_as_vector b hc r]

variable (m : (ℓ : Loc nD τ sig) → Buf (Elt Ideal) ℓ)

/-- The loss buffer after the host lines, from the two columns the region wrote. -/
theorem tail_loss (dats : (p : Fin 1) → (c : Dev nD) → Dat τ (Elt Ideal) Unit ℕ (UR sig nD τ) ℕ (cfgs p) c) (c : Dev nD)
    (Y : Fin 2048 → Fin 50000 → ℝ) (lb : Fin 2048 → Fin 50000)
    (h5 : ∀ r : Fin 2048, ((dats 0 c).arrAt 5 cfg0.N : S2048x1.Idx → EReal) (ix2 r 0)
        = runMax (Y r) 25 + Ideal.log (runSum (Y r) 25))
    (h6 : ∀ r : Fin 2048, ((dats 0 c).arrAt 6 cfg0.N : S2048x1.Idx → EReal) (ix2 r 0) = runLab (Y r) (lb r) 25) :
    (Pipeline.afterTail₀ cfgs dats 0 (V0 m) [hostOps1] c main_v39 : S_.Idx → EReal) = fun _ => lossK Y lb := by
  funext i
  unfold Pipeline.afterTail₀
  show StableHlo.after (hostOps1 (F := Ideal)) _ (Proc.devRef .tc main_v39) i = _
  after_results
  have e5 : Pipeline.withArrays (cfgs 0).spec c (V0 m c) (fun w => (dats 0 c).arrAt w (cfgs 0).N) (Proc.devRef .tc main_v34_1)
      = (dats 0 c).arrAt 5 cfg0.N := Pipeline.withArrays_arr spec0 launch0.win.arr_inj c _ _ 5
  have e6 : Pipeline.withArrays (cfgs 0).spec c (V0 m c) (fun w => (dats 0 c).arrAt w (cfgs 0).N) (Proc.devRef .tc main_v34_2)
      = (dats 0 c).arrAt 6 cfg0.N := Pipeline.withArrays_arr spec0 launch0.win.arr_inj c _ _ 6
  rw [e5, e6]
  refine (mean_of_columns ((dats 0 c).arrAt 5 cfg0.N) ((dats 0 c).arrAt 6 cfg0.N) shapeCasts_S2048x1_S2048
    reducesTo_S2048_S_d0 h_S_ i).trans ?_
  unfold lossK rowLossK
  refine congrArg (fun t => Ideal.div t (((2048 : ℝ)) : EReal)) (Finset.sum_congr rfl fun r _ => ?_)
  rw [h5 r, h6 r]

end Cert.ITail

end
-- ==== Proof.PreDecode.lean ====
/-
  The precondition read back: every float input is a real number at every index, and every index input lies in the
  range of the table it indexes.

  The predicate is a conjunction of ten "for all indices" statements, one per input. For a float array the statement
  is |x| < +∞ at every entry: the constant it compares against is the f32 pattern of +∞, which denotes ⊤, and of the three
  kinds of extended real only a real number has max x (−x) below ⊤. For an index array the statement is 0 ≤ x and x < n,
  both read signed: a word that is non-negative signed has its unsigned value below 2³¹, where signed and unsigned order
  agree, so its unsigned value is below n.
-/
import proofs.«401027_j10093173145844_3_alg».proof.Pre_finite_inputs
import proofs.«401027_j10093173145844_3_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate

noncomputable section

namespace Cert.PreDecode

open Idealize.ShloMosaic Cert.Pre_finite_inputs

/-- The f32 pattern with an all-ones exponent and a zero significand denotes +∞. -/
theorem inf_f32 : Ideal.ofBits .f32 0x7F800000#32 = (⊤ : EReal) := by
  simp [Ideal.ofBits, Ideal.ieee]

/-- An extended real whose absolute value lies strictly below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = ((r : ℝ) : EReal) := by
  rw [Ideal.hostAbsf_def, Ideal.cmpf_def, Ideal.absf_def, Ideal.ofBits_def, inf_f32] at h
  induction x using EReal.rec with
  | bot => simp [Ideal.cmp] at h
  | coe r => exact ⟨r, rfl⟩
  | top => simp [Ideal.cmp] at h

/-- A 32-bit word that is non-negative as a signed number and, signed, below n (n < 2³¹) has unsigned value below n. -/
theorem toNat_lt_of_range (w : BitVec 32) (n : Nat) (hn : n < 2 ^ 31)
    (h0 : IntOp.cmpi .sge w 0#32 = 1#1) (h1 : IntOp.cmpi .slt w (BitVec.ofNat 32 n) = 1#1) : w.toNat < n := by
  have hw : w.toNat < 2 ^ 31 := by
    unfold IntOp.cmpi at h0
    rw [StableHlo.Predicate.ofBool_eq_one_iff] at h0
    simp only [BitVec.sle, decide_eq_true_eq] at h0
    have hz : (0#32 : BitVec 32).toInt = 0 := by decide
    rw [hz, BitVec.toInt_eq_toNat_cond] at h0
    split at h0 <;> omega
  have hn' : (BitVec.ofNat 32 n).toNat = n := by
    rw [BitVec.toNat_ofNat]; exact Nat.mod_eq_of_lt (by omega)
  have h2 := (StableHlo.Predicate.slt_iff_toNat hw (by omega)).1 h1
  omega

/-- The shape of a scalar has one index. -/
instance subsingleton_S_ : Subsingleton S_.Idx := ⟨fun a b => funext fun d => d.elim0⟩

/-- The elementwise "and" of two one-bit arrays is one at an index exactly when both are. -/
theorem andi_apply_eq_one {s : Shape} (x y : IVec s 1) (j : s.Idx) : andi x y j = 1#1 ↔ x j = 1#1 ∧ y j = 1#1 :=
  IntOp.andi_eq_one

/-- One float array's conjunct: if "|a| < +∞ everywhere" reduces to one, every entry of a is a real number. -/
theorem real_of_all_finite {s : Shape} {axes : List (Fin s.rank)}
    (hb : S_.BroadcastsInDim s (![] : Fin 0 → Fin s.rank)) (hr : s.ReducesTo axes S_) (h0 : 0 < S_.numel)
    (a : FVec Ideal s .f32) (init : IVec S_ 1) (j : S_.Idx)
    (e : Host.reduce IntOp.andi (cmpf .olt (Host.absf a) (broadcastInDim s ![] hb (constant S_ .f32 0x7F800000#32))) init hr h0 j = 1#1) :
    ∀ i, ∃ r : ℝ, a i = ((r : ℝ) : EReal) := fun i =>
  real_of_abs_lt_inf (a i) (Host.reduce_andi_all _ init hr h0 j e i)

/-- One index array's conjunct: if "0 ≤ a and a < n everywhere (signed)" reduces to one, every entry of a is below n. -/
theorem lt_of_all_in_range {s : Shape} {axes : List (Fin s.rank)}
    (hb : S_.BroadcastsInDim s (![] : Fin 0 → Fin s.rank)) (hr : s.ReducesTo axes S_) (h0 : 0 < S_.numel)
    (a : IVec s 32) (n : Nat) (hn : n < 2 ^ 31) (init : IVec S_ 1) (j : S_.Idx)
    (e : Host.reduce IntOp.andi (andi (cmpi .sge a (broadcastInDim s ![] hb (constantI S_ 32 0#32)))
      (cmpi .slt a (broadcastInDim s ![] hb (constantI S_ 32 (BitVec.ofNat 32 n))))) init hr h0 j = 1#1) :
    ∀ i, (a i).toNat < n := fun i => by
  obtain ⟨h1, h2⟩ := (andi_apply_eq_one _ _ i).1 (Host.reduce_andi_all _ init hr h0 j e i)
  exact toNat_lt_of_range (a i) n hn h1 h2

variable [Cert.Pre_finite_inputs.Facts]

/-- The printed predicate all ones says: the seven float arrays hold reals, the three index arrays hold in-range words. -/
theorem decode (a0 : FVec Ideal S50000x256 .f32) (a1 : FVec Ideal S30000x256 .f32) (a2 : FVec Ideal S256x512 .f32)
    (a3 : FVec Ideal S256 .f32) (a4 : FVec Ideal S1x256 .f32) (a5 : FVec Ideal S1 .f32) (a6 : FVec Ideal S50000 .f32)
    (a7 : IVec S2048x100 32) (a8 : IVec S2048x256 32) (a9 : IVec S2048 32)
    (h : Cert.Pre_finite_inputs.fn (F := Ideal) a0 a1 a2 a3 a4 a5 a6 a7 a8 a9 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal))
    ∧ (∀ i, ∃ r : ℝ, a3 i = ((r : ℝ) : EReal)) ∧ (∀ i, ∃ r : ℝ, a4 i = ((r : ℝ) : EReal)) ∧ (∀ i, ∃ r : ℝ, a5 i = ((r : ℝ) : EReal))
    ∧ (∀ i, ∃ r : ℝ, a6 i = ((r : ℝ) : EReal))
    ∧ (∀ i, (a7 i).toNat < 50000) ∧ (∀ i, (a8 i).toNat < 30000) ∧ (∀ i, (a9 i).toNat < 50000) := by
  -- the predicate at its one index, with the chain of operations in view
  have e := congrFun h (fun d => d.elim0)
  dsimp only [fn, fn_part1, fn_part2, fn_part3] at e
  -- the ten conjuncts, the last first
  obtain ⟨e, e9⟩ := (andi_apply_eq_one _ _ _).1 e
  obtain ⟨e, e8⟩ := (andi_apply_eq_one _ _ _).1 e
  obtain ⟨e, e7⟩ := (andi_apply_eq_one _ _ _).1 e
  obtain ⟨e, e6⟩ := (andi_apply_eq_one _ _ _).1 e
  obtain ⟨e, e5⟩ := (andi_apply_eq_one _ _ _).1 e
  obtain ⟨e, e4⟩ := (andi_apply_eq_one _ _ _).1 e
  obtain ⟨e, e3⟩ := (andi_apply_eq_one _ _ _).1 e
  obtain ⟨e, e2⟩ := (andi_apply_eq_one _ _ _).1 e
  obtain ⟨e0, e1⟩ := (andi_apply_eq_one _ _ _).1 e
  exact ⟨real_of_all_finite _ _ _ a0 _ _ e0, real_of_all_finite _ _ _ a1 _ _ e1, real_of_all_finite _ _ _ a2 _ _ e2,
    real_of_all_finite _ _ _ a3 _ _ e3, real_of_all_finite _ _ _ a4 _ _ e4, real_of_all_finite _ _ _ a5 _ _ e5,
    real_of_all_finite _ _ _ a6 _ _ e6,
    lt_of_all_in_range _ _ _ a7 50000 (by norm_num) _ _ e7, lt_of_all_in_range _ _ _ a8 30000 (by norm_num) _ _ e8,
    lt_of_all_in_range _ _ _ a9 50000 (by norm_num) _ _ e9⟩

end Cert.PreDecode

end
-- ==== Proof.HostPre.lean ====
/-
  The host operations before the kernel's region: the user matrix the region is handed is the reference's user stage of
  the same arguments, its entries are real numbers, and the bias row and the label column are the arguments re-laid.
-/
import proofs.«401027_j10093173145844_3_alg».proof.Proof.Gen.KernelIdeal.Frame
import proofs.«401027_j10093173145844_3_alg».proof.Proof.RefRead
import proofs.«401027_j10093173145844_3_alg».proof.Proof.Spec
import Idealize.ShloMosaic.Lib.ValueIdx
import Idealize.ShloMosaic.Lib.IdealHost
import Idealize.ShloMosaic.Lib.Pipeline.Value
import Idealize.ShloMosaic.Lib.StableHlo.Run
import Idealize.ShloMosaic.Lib.StableHlo.Predicate
import Idealize.ShloMosaic.PureOps.Reduce

noncomputable section

namespace Cert.HostPre

open Idealize.ShloMosaic Idealize.ShloMosaic.ValueIdx Idealize.ShloMosaic.TcCoe Idealize.SL.Sem Cert.KernelIdeal

variable [Cert.KernelIdeal.Facts] [Cert.ReferenceIdeal.Facts]

/-! ## Index words in range -/

/-- A word below 2³¹ is not below zero as a signed integer, so jnp's wrap of a negative index leaves it as it is. -/
theorem wrap_id (w N : BitVec 32) (hw : w.toNat < 2 ^ 31) :
    Scalar.select (IntOp.cmpi .slt w 0#32) (IntOp.addi w N) w = w := by
  have h0 : IntOp.cmpi .slt w 0#32 = 0#1 := eq_zero_of_ne_one fun h =>
    absurd ((StableHlo.Predicate.slt_iff_toNat (a := w) (b := 0#32) hw (by decide)).mp h) (by simp)
  rw [h0, select_zero]

/-- A word at most `n` (itself below 2³¹) passes the test "at least 0 and at most `n`". -/
theorem inrange_one (w : BitVec 32) (n : ℕ) (hn : n < 2 ^ 31) (hw : w.toNat ≤ n) :
    IntOp.andi (IntOp.cmpi .sge w 0#32) (IntOp.cmpi .sle w (BitVec.ofNat 32 n)) = 1#1 := by
  have hn' : (BitVec.ofNat 32 n).toNat = n := by rw [BitVec.toNat_ofNat]; exact Nat.mod_eq_of_lt (by omega)
  rw [(StableHlo.Predicate.sge_iff_toNat (a := w) (b := 0#32) (by omega) (by decide)).mpr (by simp),
    (StableHlo.Predicate.sle_iff_toNat (a := w) (b := BitVec.ofNat 32 n) (by omega) (by omega)).mpr (by omega)]
  decide

/-- A left fold by `and` from 1 over bits that are all 1 is 1. -/
theorem foldl_andi_one {ι : Type} (f : ι → BitVec 1) (l : List ι) (hl : ∀ n ∈ l, f n = 1#1) :
    l.foldl (fun r n => IntOp.andi r (f n)) 1#1 = 1#1 := by
  induction l with
  | nil => rfl
  | cons a l ih =>
    rw [List.foldl_cons, hl a List.mem_cons_self, show IntOp.andi 1#1 1#1 = 1#1 from by decide]
    exact ih fun n hn => hl n (List.mem_cons_of_mem _ hn)

/-- A reduction by `and` from 1 of an array of bits that are all 1 is 1 everywhere. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x _ fun n _ => hx n

/-- A broadcast of an array that holds one value everywhere holds that value everywhere. -/
theorem bcast_const {α : Type} {s t : Shape} (dims : Fin s.rank → Fin t.rank) (h : s.BroadcastsInDim t dims) (x : s.Idx → α) (v : α)
    (hx : ∀ k, x k = v) (j : t.Idx) : broadcastInDim t dims h x j = v := hx _

/-! ## The two guarded gathers -/

section Take

variable {F : FTy → Type} [FloatOps F]

/-- The entity indices as the column of start indices the gather reads: each index, wrapped by the table's length if
    it is negative. -/
def widx0 (x7 : (⟨S2048x100, .i32⟩ : BufTy).Contents (Elt F)) : (⟨S2048x100x1, .i32⟩ : BufTy).Contents (Elt F) :=
  broadcastInDim S2048x100x1 ![0, 1] Gen.bcast_S2048x100_S2048x100x1_0_1
    (select (cmpi .slt x7 (broadcastInDim S2048x100 ![] Gen.bcast_S_S2048x100 (constantI S_ 32 0#32)))
      (addi x7 (broadcastInDim S2048x100 ![] Gen.bcast_S_S2048x100 (constantI S_ 32 50000#32))) x7)

/-- Where the wrapped entity index lies in the table: at least 0 and at most 49999. -/
def mask0 (x7 : (⟨S2048x100, .i32⟩ : BufTy).Contents (Elt F)) : (⟨S2048x100x256, .i1⟩ : BufTy).Contents (Elt F) :=
  broadcastInDim S2048x100x256 ![0, 1] Gen.bcast_S2048x100_S2048x100x256_0_1
    (Host.reduce IntOp.andi
      (andi (cmpi .sge (widx0 (F := F) x7) (broadcastInDim S2048x100x1 ![] Gen.bcast_S_S2048x100x1 (constantI S_ 32 0#32)))
        (cmpi .sle (widx0 (F := F) x7) (broadcastInDim S2048x100x1 ![0, 1, 2] Gen.bcast_S1x1x1_S2048x100x1_0_1_2
          (broadcastInDim S1x1x1 ![2] Gen.bcast_S1_S1x1x1_2 (constantI S1 32 49999#32)))))
      (constantI S_ 1 1#1) Gen.reducesTo_S2048x100x1_S2048x100_d2 Gen.h_S_)

/-- The kernel's gather of entity rows: the gathered row where the index lies in the table, a filler elsewhere. -/
def take0 (x0 : (⟨S50000x256, .f32⟩ : BufTy).Contents (Elt F)) (x7 : (⟨S2048x100, .i32⟩ : BufTy).Contents (Elt F)) :
    (⟨S2048x100x256, .f32⟩ : BufTy).Contents (Elt F) :=
  select (mask0 (F := F) x7)
    (Host.gather gather_S50000x256_S2048x100x1_S2048x100x256_2_0_n_n_0_2_1256 x0 (widx0 (F := F) x7))
    (broadcastInDim S2048x100x256 ![] Gen.bcast_S_S2048x100x256 (constant (F := F) S_ .f32 0x7FC00000#32))

/-- Entity indices below the table's length: the mask is all ones, and the guarded gather is the gather. -/
theorem take0_eq (x0 : (⟨S50000x256, .f32⟩ : BufTy).Contents (Elt F)) (x7 : S2048x100.Idx → BitVec 32)
    (h7 : ∀ i, (x7 i).toNat < 50000) :
    take0 (F := F) x0 x7
      = Host.gather gather_S50000x256_S2048x100x1_S2048x100x256_2_0_n_n_0_2_1256 x0 (widx0 (F := F) x7) := by
  have hw : ∀ i, (widx0 (F := F) x7 i : BitVec 32).toNat < 50000 := fun i => by
    show (Scalar.select (IntOp.cmpi .slt (x7 _) 0#32) (IntOp.addi (x7 _) 50000#32) (x7 _)).toNat < 50000
    rw [wrap_id _ _ (lt_trans (h7 _) (by norm_num))]
    exact h7 _
  have hm : ∀ i, (mask0 (F := F) x7 i : BitVec 1) = 1#1 := fun i => by
    refine bcast_const _ _ _ _ (fun j => reduce_andi_one _ _ _ _ j (fun k => ?_) rfl) i
    show IntOp.andi (IntOp.cmpi .sge (widx0 (F := F) x7 k) 0#32) (IntOp.cmpi .sle (widx0 (F := F) x7 k) (BitVec.ofNat 32 49999)) = 1#1
    exact inrange_one _ _ (by norm_num) (Nat.le_of_lt_succ (hw k))
  funext i
  unfold take0
  rw [select_apply, hm i, select_one]

/-- The word indices as the column of start indices the gather reads. -/
def widx1 (x8 : (⟨S2048x256, .i32⟩ : BufTy).Contents (Elt F)) : (⟨S2048x256x1, .i32⟩ : BufTy).Contents (Elt F) :=
  broadcastInDim S2048x256x1 ![0, 1] Gen.bcast_S2048x256_S2048x256x1_0_1
    (select (cmpi .slt x8 (broadcastInDim S2048x256 ![] Gen.bcast_S_S2048x256 (constantI S_ 32 0#32)))
      (addi x8 (broadcastInDim S2048x256 ![] Gen.bcast_S_S2048x256 (constantI S_ 32 30000#32))) x8)

/-- Where the wrapped word index lies in the table: at least 0 and at most 29999. -/
def mask1 (x8 : (⟨S2048x256, .i32⟩ : BufTy).Contents (Elt F)) : (⟨S2048x256x256, .i1⟩ : BufTy).Contents (Elt F) :=
  broadcastInDim S2048x256x256 ![0, 1] Gen.bcast_S2048x256_S2048x256x256_0_1
    (Host.reduce IntOp.andi
      (andi (cmpi .sge (widx1 (F := F) x8) (broadcastInDim S2048x256x1 ![] Gen.bcast_S_S2048x256x1 (constantI S_ 32 0#32)))
        (cmpi .sle (widx1 (F := F) x8) (broadcastInDim S2048x256x1 ![0, 1, 2] Gen.bcast_S1x1x1_S2048x256x1_0_1_2
          (broadcastInDim S1x1x1 ![2] Gen.bcast_S1_S1x1x1_2 (constantI S1 32 29999#32)))))
      (constantI S_ 1 1#1) Gen.reducesTo_S2048x256x1_S2048x256_d2 Gen.h_S_)

/-- The kernel's gather of word rows: the gathered row where the index lies in the table, a filler elsewhere. -/
def take1 (x1 : (⟨S30000x256, .f32⟩ : BufTy).Contents (Elt F)) (x8 : (⟨S2048x256, .i32⟩ : BufTy).Contents (Elt F)) :
    (⟨S2048x256x256, .f32⟩ : BufTy).Contents (Elt F) :=
  select (mask1 (F := F) x8)
    (Host.gather gather_S30000x256_S2048x256x1_S2048x256x256_2_0_n_n_0_2_1256 x1 (widx1 (F := F) x8))
    (broadcastInDim S2048x256x256 ![] Gen.bcast_S_S2048x256x256 (constant (F := F) S_ .f32 0x7FC00000#32))

/-- Word indices below the table's length: the mask is all ones, and the guarded gather is the gather. -/
theorem take1_eq (x1 : (⟨S30000x256, .f32⟩ : BufTy).Contents (Elt F)) (x8 : S2048x256.Idx → BitVec 32)
    (h8 : ∀ i, (x8 i).toNat < 30000) :
    take1 (F := F) x1 x8
      = Host.gather gather_S30000x256_S2048x256x1_S2048x256x256_2_0_n_n_0_2_1256 x1 (widx1 (F := F) x8) := by
  have hw : ∀ i, (widx1 (F := F) x8 i : BitVec 32).toNat < 30000 := fun i => by
    show (Scalar.select (IntOp.cmpi .slt (x8 _) 0#32) (IntOp.addi (x8 _) 30000#32) (x8 _)).toNat < 30000
    rw [wrap_id _ _ (lt_trans (h8 _) (by norm_num))]
    exact h8 _
  have hm : ∀ i, (mask1 (F := F) x8 i : BitVec 1) = 1#1 := fun i => by
    refine bcast_const _ _ _ _ (fun j => reduce_andi_one _ _ _ _ j (fun k => ?_) rfl) i
    show IntOp.andi (IntOp.cmpi .sge (widx1 (F := F) x8 k) 0#32) (IntOp.cmpi .sle (widx1 (F := F) x8 k) (BitVec.ofNat 32 29999)) = 1#1
    exact inrange_one _ _ (by norm_num) (Nat.le_of_lt_succ (hw k))
  funext i
  unfold take1
  rw [select_apply, hm i, select_one]

end Take

/-! ## The pooled means, the gate and the combination, as functions of what they read -/

section Mix

variable {F : FTy → Type} [FloatOps F]

/-- The mean over the 100 gathered entity rows. -/
def pool0 (g : (⟨S2048x100x256, .f32⟩ : BufTy).Contents (Elt F)) : (⟨S2048x256, .f32⟩ : BufTy).Contents (Elt F) :=
  Host.divf (Host.reduceAdd g (constant (F := F) S_ .f32 0x00000000#32) Gen.reducesTo_S2048x100x256_S2048x256_d1 Gen.h_S_)
    (broadcastInDim S2048x256 ![] Gen.bcast_S_S2048x256 (constant (F := F) S_ .f32 0x42C80000#32))

/-- The mean over the 256 gathered word rows. -/
def pool1 (g : (⟨S2048x256x256, .f32⟩ : BufTy).Contents (Elt F)) : (⟨S2048x256, .f32⟩ : BufTy).Contents (Elt F) :=
  Host.divf (Host.reduceAdd g (constant (F := F) S_ .f32 0x00000000#32) Gen.reducesTo_S2048x256x256_S2048x256_d1 Gen.h_S_)
    (broadcastInDim S2048x256 ![] Gen.bcast_S_S2048x256 (constant (F := F) S_ .f32 0x43800000#32))

/-- The gate: the logistic function of a two-layer map of the two means side by side. -/
def gate (a b : (⟨S2048x256, .f32⟩ : BufTy).Contents (Elt F)) (x2 : (⟨S256x512, .f32⟩ : BufTy).Contents (Elt F))
    (x3 : (⟨S256, .f32⟩ : BufTy).Contents (Elt F)) (x4 : (⟨S1x256, .f32⟩ : BufTy).Contents (Elt F))
    (x5 : (⟨S1, .f32⟩ : BufTy).Contents (Elt F)) : (⟨S2048x1, .f32⟩ : BufTy).Contents (Elt F) :=
  Host.divf (broadcastInDim S2048x1 ![] Gen.bcast_S_S2048x1 (constant (F := F) S_ .f32 0x3F800000#32))
    (addf (broadcastInDim S2048x1 ![] Gen.bcast_S_S2048x1 (constant (F := F) S_ .f32 0x3F800000#32))
      (Host.exp
        (Host.negf
          (addf
            (Host.dotGeneral dot_S2048x256_S256x1_S2048x1_1_0_0_1_n_n none
              (addf
                (Host.dotGeneral dot_S2048x512_S512x256_S2048x256_1_0_0_1_n_n none
                  (concatenate S2048x512 1 [⟨S2048x256, a⟩, ⟨S2048x256, b⟩] Gen.concatenates_S2048x256_S2048x256_S2048x512_d1)
                  (transpose S512x256 [1, 0] x2 Gen.transposes_S256x512_S512x256_1_0))
                (broadcastInDim S2048x256 ![0, 1] Gen.bcast_S1x256_S2048x256_0_1
                  (broadcastInDim S1x256 ![1] Gen.bcast_S256_S1x256_1 x3)))
              (transpose S256x1 [1, 0] x4 Gen.transposes_S1x256_S256x1_1_0))
            (broadcastInDim S2048x1 ![0, 1] Gen.bcast_S1x1_S2048x1_0_1
              (broadcastInDim S1x1 ![1] Gen.bcast_S1_S1x1_1 x5))))))

/-- The user matrix: gate · (entity mean) + (1 − gate) · (word mean). -/
def mix (a b : (⟨S2048x256, .f32⟩ : BufTy).Contents (Elt F)) (x2 : (⟨S256x512, .f32⟩ : BufTy).Contents (Elt F))
    (x3 : (⟨S256, .f32⟩ : BufTy).Contents (Elt F)) (x4 : (⟨S1x256, .f32⟩ : BufTy).Contents (Elt F))
    (x5 : (⟨S1, .f32⟩ : BufTy).Contents (Elt F)) : (⟨S2048x256, .f32⟩ : BufTy).Contents (Elt F) :=
  addf
    (mulf (broadcastInDim S2048x256 ![0, 1] Gen.bcast_S2048x1_S2048x256_0_1 (gate (F := F) a b x2 x3 x4 x5)) a)
    (mulf
      (broadcastInDim S2048x256 ![0, 1] Gen.bcast_S2048x1_S2048x256_0_1
        (subf (broadcastInDim S2048x1 ![] Gen.bcast_S_S2048x1 (constant (F := F) S_ .f32 0x3F800000#32)) (gate (F := F) a b x2 x3 x4 x5)))
      b)

theorem mix_congr {a a' b b' : (⟨S2048x256, .f32⟩ : BufTy).Contents (Elt F)} {x2 x2' : (⟨S256x512, .f32⟩ : BufTy).Contents (Elt F)}
    {x3 x3' : (⟨S256, .f32⟩ : BufTy).Contents (Elt F)} {x4 x4' : (⟨S1x256, .f32⟩ : BufTy).Contents (Elt F)}
    {x5 x5' : (⟨S1, .f32⟩ : BufTy).Contents (Elt F)} (ha : a = a') (hb : b = b') (h2 : x2 = x2') (h3 : x3 = x3') (h4 : x4 = x4')
    (h5 : x5 = x5') : mix (F := F) a b x2 x3 x4 x5 = mix (F := F) a' b' x2' x3' x4' x5' := by
  rw [ha, hb, h2, h3, h4, h5]

/-- The reference's entity mean is the mean of its bare gather. -/
theorem ref_pool0 (x0 : (⟨Cert.ReferenceIdeal.S50000x256, .f32⟩ : BufTy).Contents (Elt F))
    (x7 : (⟨Cert.ReferenceIdeal.S2048x100, .i32⟩ : BufTy).Contents (Elt F)) :
    pool0 (F := F) (Host.gather gather_S50000x256_S2048x100x1_S2048x100x256_2_0_n_n_0_2_1256 x0 (widx0 (F := F) x7))
      = Cert.ReferenceIdeal.ReadP.val_main_v9 (F := F) x0 x7 := rfl

/-- The reference's word mean is the mean of its bare gather. -/
theorem ref_pool1 (x1 : (⟨Cert.ReferenceIdeal.S30000x256, .f32⟩ : BufTy).Contents (Elt F))
    (x8 : (⟨Cert.ReferenceIdeal.S2048x256, .i32⟩ : BufTy).Contents (Elt F)) :
    pool1 (F := F) (Host.gather gather_S30000x256_S2048x256x1_S2048x256x256_2_0_n_n_0_2_1256 x1 (widx1 (F := F) x8))
      = Cert.ReferenceIdeal.ReadP.val_main_v19 (F := F) x1 x8 := rfl

/-- The reference's user stage is the same combination of its two means. -/
theorem ref_mix (x0 : (⟨Cert.ReferenceIdeal.S50000x256, .f32⟩ : BufTy).Contents (Elt F)) (x1 : (⟨Cert.ReferenceIdeal.S30000x256, .f32⟩ : BufTy).Contents (Elt F))
    (x2 : (⟨Cert.ReferenceIdeal.S256x512, .f32⟩ : BufTy).Contents (Elt F)) (x3 : (⟨Cert.ReferenceIdeal.S256, .f32⟩ : BufTy).Contents (Elt F))
    (x4 : (⟨Cert.ReferenceIdeal.S1x256, .f32⟩ : BufTy).Contents (Elt F)) (x5 : (⟨Cert.ReferenceIdeal.S1, .f32⟩ : BufTy).Contents (Elt F))
    (x7 : (⟨Cert.ReferenceIdeal.S2048x100, .i32⟩ : BufTy).Contents (Elt F)) (x8 : (⟨Cert.ReferenceIdeal.S2048x256, .i32⟩ : BufTy).Contents (Elt F)) :
    mix (F := F) (Cert.ReferenceIdeal.ReadP.val_main_v9 (F := F) x0 x7) (Cert.ReferenceIdeal.ReadP.val_main_v19 (F := F) x1 x8) x2 x3 x4 x5
      = Cert.ReferenceIdeal.ReadP.val_main_v43 (F := F) x0 x1 x2 x3 x4 x5 x7 x8 := rfl

end Mix

/-! ## What the region is handed -/

variable (m : (ℓ : Loc nD τ sig) → Buf (Elt Ideal) ℓ)

/-- The host operations before the region in two stretches, cut before the concatenation of the two means. -/
theorem V0_split (c : Dev nD) : Gen.V0 m c = StableHlo.after (Gen.hostOps0_3.drop 5)
    (StableHlo.after (Gen.hostOps0 ++ (Gen.hostOps0_1 ++ (Gen.hostOps0_2 ++ Gen.hostOps0_3.take 5))) (fun b => m (c, b))) := by
  show StableHlo.after (List.flatten [Gen.hostOps0, Gen.hostOps0_1, Gen.hostOps0_2, Gen.hostOps0_3]) (fun b => m (c, b)) = _
  rw [← StableHlo.after_append]
  refine congrArg (fun l => StableHlo.after l (fun b => m (c, b))) ?_
  simp only [List.flatten_cons, List.flatten_nil, List.append_nil, List.append_assoc, List.take_append_drop]

/-- The second stretch: from the two means to the user matrix. -/
theorem tail_eq (W : Valuation τ sig (Elt Ideal)) :
    (StableHlo.after (Gen.hostOps0_3.drop 5) W (Proc.devRef .tc main_v31) : S2048x256.Idx → EReal)
      = mix (F := Ideal) (W (Proc.devRef .tc main_v3)) (W (Proc.devRef .tc main_v7)) (W (Proc.devRef .tc main_arg2))
          (W (Proc.devRef .tc main_arg3)) (W (Proc.devRef .tc main_arg4)) (W (Proc.devRef .tc main_arg5)) := by
  simp only [Gen.hostOps0_3, List.drop_succ_cons, List.drop_zero]
  after_results_simp <;> rfl

set_option maxHeartbeats 1000000 in
/-- The first stretch leaves the mean of the guarded entity gather … -/
theorem head_v3 (c : Dev nD) :
    (StableHlo.after (Gen.hostOps0 ++ (Gen.hostOps0_1 ++ (Gen.hostOps0_2 ++ Gen.hostOps0_3.take 5))) (fun b => m (c, b))
        (Proc.devRef .tc main_v3) : S2048x256.Idx → EReal)
      = pool0 (F := Ideal) (take0 (F := Ideal) (m ((c.tc : Thread nD τ).loc main_arg0)) (m ((c.tc : Thread nD τ).loc main_arg7))) := by
  simp only [Gen.hostOps0, Gen.hostOps0_1, Gen.hostOps0_2, Gen.hostOps0_3, List.take_succ_cons, List.take_zero, List.append_nil,
    List.cons_append, List.nil_append]
  after_results_simp <;> (try simp only [StableHlo.TRef.ofBuf, StableHlo.TRef.toBuf, cast_eq]) <;> rfl

set_option maxHeartbeats 1000000 in
/-- … and the mean of the guarded word gather … -/
theorem head_v7 (c : Dev nD) :
    (StableHlo.after (Gen.hostOps0 ++ (Gen.hostOps0_1 ++ (Gen.hostOps0_2 ++ Gen.hostOps0_3.take 5))) (fun b => m (c, b))
        (Proc.devRef .tc main_v7) : S2048x256.Idx → EReal)
      = pool1 (F := Ideal) (take1 (F := Ideal) (m ((c.tc : Thread nD τ).loc main_arg1)) (m ((c.tc : Thread nD τ).loc main_arg8))) := by
  simp only [Gen.hostOps0, Gen.hostOps0_1, Gen.hostOps0_2, Gen.hostOps0_3, List.take_succ_cons, List.take_zero, List.append_nil,
    List.cons_append, List.nil_append]
  after_results_simp <;> (try simp only [StableHlo.TRef.ofBuf, StableHlo.TRef.toBuf, cast_eq]) <;> rfl

set_option maxHeartbeats 1000000 in
/-- … and the gate layer's parameters as launched. -/
theorem head_args (c : Dev nD) :
    StableHlo.after (Gen.hostOps0 ++ (Gen.hostOps0_1 ++ (Gen.hostOps0_2 ++ Gen.hostOps0_3.take 5))) (fun b => m (c, b))
        (Proc.devRef .tc main_arg2) = m ((c.tc : Thread nD τ).loc main_arg2)
    ∧ StableHlo.after (Gen.hostOps0 ++ (Gen.hostOps0_1 ++ (Gen.hostOps0_2 ++ Gen.hostOps0_3.take 5))) (fun b => m (c, b))
        (Proc.devRef .tc main_arg3) = m ((c.tc : Thread nD τ).loc main_arg3)
    ∧ StableHlo.after (Gen.hostOps0 ++ (Gen.hostOps0_1 ++ (Gen.hostOps0_2 ++ Gen.hostOps0_3.take 5))) (fun b => m (c, b))
        (Proc.devRef .tc main_arg4) = m ((c.tc : Thread nD τ).loc main_arg4)
    ∧ StableHlo.after (Gen.hostOps0 ++ (Gen.hostOps0_1 ++ (Gen.hostOps0_2 ++ Gen.hostOps0_3.take 5))) (fun b => m (c, b))
        (Proc.devRef .tc main_arg5) = m ((c.tc : Thread nD τ).loc main_arg5) := by
  simp only [Gen.hostOps0, Gen.hostOps0_1, Gen.hostOps0_2, Gen.hostOps0_3, List.take_succ_cons, List.take_zero, List.append_nil,
    List.cons_append, List.nil_append]
  refine ⟨?_, ?_, ?_, ?_⟩ <;> after_results_simp <;> rfl

/-- Under in-range gather indices the kernel's host prefix computes the reference's user stage. -/
theorem V_user (c : Dev nD)
    (h7 : ∀ i, ((m ((c.tc : Thread nD τ).loc main_arg7) : S2048x100.Idx → BitVec 32) i).toNat < 50000)
    (h8 : ∀ i, ((m ((c.tc : Thread nD τ).loc main_arg8) : S2048x256.Idx → BitVec 32) i).toNat < 30000) :
    Gen.V m c main_v31 = Cert.ReferenceIdeal.ReadP.val_main_v43 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg7)) (m ((c.tc : Thread nD τ).loc main_arg8)) := by
  show Gen.V0 m c (Proc.devRef .tc main_v31) = _
  rw [V0_split m c]
  obtain ⟨a2, a3, a4, a5⟩ := head_args m c
  refine (tail_eq _).trans ((mix_congr ?_ ?_ a2 a3 a4 a5).trans (ref_mix (F := Ideal) _ _ _ _ _ _ _ _))
  · rw [head_v3 m c, take0_eq (F := Ideal) _ _ h7]
    exact ref_pool0 (F := Ideal) _ _
  · rw [head_v7 m c, take1_eq (F := Ideal) _ _ h8]
    exact ref_pool1 (F := Ideal) _ _

/-- The bias row the region is handed is the bias vector. -/
theorem V_bias (c : Dev nD) (j : Fin 50000) :
    (Gen.V m c main_v32 : S1x50000.Idx → EReal) (ix2 0 j) = (m ((c.tc : Thread nD τ).loc main_arg6) : S50000.Idx → EReal) (ix1 j) := by
  have e : (Gen.V m c main_v32 : S1x50000.Idx → EReal)
      = broadcastInDim S1x50000 ![1] Gen.bcast_S50000_S1x50000_1 (m ((c.tc : Thread nD τ).loc main_arg6) : S50000.Idx → EReal) := by
    show StableHlo.after (List.flatten [Gen.hostOps0, Gen.hostOps0_1, Gen.hostOps0_2, Gen.hostOps0_3]) (fun b => m (c, b)) (Proc.devRef .tc main_v32) = _
    simp only [Gen.hostOps0, Gen.hostOps0_1, Gen.hostOps0_2, Gen.hostOps0_3, List.flatten_cons, List.flatten_nil, List.append_nil,
      List.cons_append, List.nil_append]
    after_results_simp <;> rfl
  rw [e]
  exact broadcastInDim_apply _ Gen.bcast_S50000_S1x50000_1 _ (ix2 0 j) (ix1 j) (fun a => match a with
    | ⟨0, _⟩ => by show j.val = if (50000 : Nat) = 1 then 0 else j.val; rw [if_neg (by decide)])

/-- The label column the region is handed is the label vector. -/
theorem V_labels (c : Dev nD) (r : Fin 2048) :
    (Gen.V m c main_v33 : S2048x1.Idx → BitVec 32) (ix2 r 0) = (m ((c.tc : Thread nD τ).loc main_arg9) : S2048.Idx → BitVec 32) (ix1 r) := by
  have e : (Gen.V m c main_v33 : S2048x1.Idx → BitVec 32)
      = broadcastInDim S2048x1 ![0] Gen.bcast_S2048_S2048x1_0 (m ((c.tc : Thread nD τ).loc main_arg9) : S2048.Idx → BitVec 32) := by
    show StableHlo.after (List.flatten [Gen.hostOps0, Gen.hostOps0_1, Gen.hostOps0_2, Gen.hostOps0_3]) (fun b => m (c, b)) (Proc.devRef .tc main_v33) = _
    simp only [Gen.hostOps0, Gen.hostOps0_1, Gen.hostOps0_2, Gen.hostOps0_3, List.flatten_cons, List.flatten_nil, List.append_nil,
      List.cons_append, List.nil_append]
    after_results_simp <;> rfl
  rw [e]
  exact broadcastInDim_apply _ Gen.bcast_S2048_S2048x1_0 _ (ix2 r 0) (ix1 r) (fun a => match a with
    | ⟨0, _⟩ => by show r.val = if (2048 : Nat) = 1 then 0 else r.val; rw [if_neg (by decide)])

/-! ## Real entries -/

/-- An extended real that is a real number. -/
def IsR (x : EReal) : Prop := ∃ r : ℝ, x = ((r : ℝ) : EReal)

theorem IsR.add {a b : EReal} (ha : IsR a) (hb : IsR b) : IsR (a + b) := by
  obtain ⟨ra, rfl⟩ := ha; obtain ⟨rb, rfl⟩ := hb
  exact ⟨ra + rb, (EReal.coe_add ra rb).symm⟩

theorem IsR.mul {a b : EReal} (ha : IsR a) (hb : IsR b) : IsR (a * b) := by
  obtain ⟨ra, rfl⟩ := ha; obtain ⟨rb, rfl⟩ := hb
  exact ⟨ra * rb, (EReal.coe_mul ra rb).symm⟩

theorem IsR.sub {a b : EReal} (ha : IsR a) (hb : IsR b) : IsR (a - b) := by
  obtain ⟨ra, rfl⟩ := ha; obtain ⟨rb, rfl⟩ := hb
  exact ⟨ra - rb, (EReal.coe_sub ra rb).symm⟩

theorem IsR.zero : IsR 0 := ⟨0, EReal.coe_zero.symm⟩
theorem IsR.one : IsR 1 := ⟨1, EReal.coe_one.symm⟩

theorem IsR.sum {ι : Type} (s : Finset ι) (f : ι → EReal) (hf : ∀ k ∈ s, IsR (f k)) : IsR (∑ k ∈ s, f k) := by
  classical
  induction s using Finset.induction_on with
  | empty => rw [Finset.sum_empty]; exact IsR.zero
  | insert a s ha ih =>
    rw [Finset.sum_insert ha]
    exact (hf a (Finset.mem_insert_self a s)).add (ih fun k hk => hf k (Finset.mem_insert_of_mem hk))

/-- A real divided by a nonzero real constant is real. -/
theorem IsR.div_const {a : EReal} (ha : IsR a) {y : ℝ} (hy : y ≠ 0) : IsR (Ideal.div a ((y : ℝ) : EReal)) := by
  rw [Ideal.div_coe hy]
  exact ha.mul ⟨1 / y, rfl⟩

/-- The logistic function of any extended real is real: it is 0 at ⊥, 1 at ⊤, and 1 / (1 + e⁻ʳ) at a real r. -/
theorem isR_logistic (z : EReal) : IsR (Ideal.div 1 (1 + Ideal.exp (-z))) := by
  show IsR (Ideal.logistic z)
  induction z using EReal.rec with
  | bot => rw [Ideal.logistic_bot]; exact IsR.zero
  | coe r => rw [Ideal.logistic_coe]; exact ⟨_, rfl⟩
  | top => rw [Ideal.logistic_top]; exact IsR.one

theorem ofBits_100 : Ideal.ofBits .f32 0x42C80000#32 = ((100 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

open Cert.ReferenceIdeal Cert.ReferenceIdeal.ReadP in
/-- The reference's user stage of real tables is real: a convex combination, by a logistic gate, of two means of table rows. -/
theorem user_real (x0 : (⟨Cert.ReferenceIdeal.S50000x256, .f32⟩ : BufTy).Contents (Elt Ideal)) (x1 : (⟨Cert.ReferenceIdeal.S30000x256, .f32⟩ : BufTy).Contents (Elt Ideal))
    (x2 : (⟨Cert.ReferenceIdeal.S256x512, .f32⟩ : BufTy).Contents (Elt Ideal)) (x3 : (⟨Cert.ReferenceIdeal.S256, .f32⟩ : BufTy).Contents (Elt Ideal))
    (x4 : (⟨Cert.ReferenceIdeal.S1x256, .f32⟩ : BufTy).Contents (Elt Ideal)) (x5 : (⟨Cert.ReferenceIdeal.S1, .f32⟩ : BufTy).Contents (Elt Ideal))
    (x7 : (⟨Cert.ReferenceIdeal.S2048x100, .i32⟩ : BufTy).Contents (Elt Ideal)) (x8 : (⟨Cert.ReferenceIdeal.S2048x256, .i32⟩ : BufTy).Contents (Elt Ideal))
    (hf0 : ∀ i, ∃ r : ℝ, x0 i = ((r : ℝ) : EReal)) (hf1 : ∀ i, ∃ r : ℝ, x1 i = ((r : ℝ) : EReal)) (i : Cert.ReferenceIdeal.S2048x256.Idx) :
    ∃ r : ℝ, Cert.ReferenceIdeal.ReadP.val_main_v43 (F := Ideal) x0 x1 x2 x3 x4 x5 x7 x8 i = ((r : ℝ) : EReal) := by
  -- the mean of the gathered entity rows is real
  have h9 : ∀ j, IsR (val_main_v9 (F := Ideal) x0 x7 j) := by
    intro j
    rw [val_main_v9_apply, val_main_v7_apply, val_main_v8_apply, val_main_cst_1_apply, val_main_cst_apply]
    simp only [Ideal.hostDivf_def, Ideal.ofBits_def, Ideal.ofBits_zero_f32, ofBits_100]
    refine IsR.div_const (IsR.zero.add (IsR.sum _ _ fun k _ => ?_)) (by norm_num)
    unfold val_main_v6 Host.gather
    exact hf0 _
  -- the mean of the gathered word rows is real
  have h19 : ∀ j, IsR (val_main_v19 (F := Ideal) x1 x8 j) := by
    intro j
    rw [val_main_v19_apply, val_main_v17_apply, val_main_v18_apply, val_main_cst_5_apply, val_main_cst_4_apply]
    simp only [Ideal.hostDivf_def, Ideal.ofBits_def, Ideal.ofBits_zero_f32, ofBits_256]
    refine IsR.div_const (IsR.zero.add (IsR.sum _ _ fun k _ => ?_)) (by norm_num)
    unfold val_main_v16 Host.gather
    exact hf1 _
  -- the gate is the logistic function of the gate layer's output, whatever that is
  have h36 : ∀ j, IsR (val_main_v36 (F := Ideal) x0 x1 x2 x3 x4 x5 x7 x8 j) := by
    intro j
    rw [val_main_v36_apply, val_main_v35_apply, val_main_cst_7_apply, val_main_v34_apply, val_main_v33_apply, val_main_cst_6_apply,
      val_main_v32_apply, val_main_v31_apply]
    generalize val_main_v30 (F := Ideal) x0 x1 x2 x3 x4 x5 x7 x8 j = z
    simp only [Ideal.hostDivf_def, Ideal.ofBits_def, Ideal.ofBits_one_f32, Ideal.addf_def, Ideal.hostUnary_exp_def, Ideal.hostNegf_def, Ideal.negf_def]
    exact isR_logistic z
  show IsR _
  rw [val_main_v43_apply, val_main_v38_apply, val_main_v42_apply, val_main_v37_apply, val_main_v41_apply, val_main_v40_apply,
    val_main_v39_apply, val_main_cst_8_apply]
  simp only [Ideal.addf_def, Ideal.mulf_def, Ideal.subf_def, Ideal.ofBits_def, Ideal.ofBits_one_f32]
  exact ((h36 _).mul (h9 i)).add ((IsR.one.sub (h36 _)).mul (h19 i))

/-- The real views of what the region reads, from the decoded precondition. -/
theorem pre_reals (c : Dev nD)
    (hf0 : ∀ i, ∃ r : ℝ, (m ((c.tc : Thread nD τ).loc main_arg0) : S50000x256.Idx → EReal) i = ((r : ℝ) : EReal))
    (hf1 : ∀ i, ∃ r : ℝ, (m ((c.tc : Thread nD τ).loc main_arg1) : S30000x256.Idx → EReal) i = ((r : ℝ) : EReal))
    (hf6 : ∀ i, ∃ r : ℝ, (m ((c.tc : Thread nD τ).loc main_arg6) : S50000.Idx → EReal) i = ((r : ℝ) : EReal))
    (h7 : ∀ i, ((m ((c.tc : Thread nD τ).loc main_arg7) : S2048x100.Idx → BitVec 32) i).toNat < 50000)
    (h8 : ∀ i, ((m ((c.tc : Thread nD τ).loc main_arg8) : S2048x256.Idx → BitVec 32) i).toNat < 30000)
    (h9 : ∀ i, ((m ((c.tc : Thread nD τ).loc main_arg9) : S2048.Idx → BitVec 32) i).toNat < 50000) :
    ∃ (u : Fin 2048 → Fin 256 → ℝ) (e : Fin 50000 → Fin 256 → ℝ) (β : Fin 50000 → ℝ) (l : Fin 2048 → Fin 50000),
      (∀ (r : Fin 2048) (k : Fin 256), (Gen.V m c main_v31 : S2048x256.Idx → EReal) (ix2 r k) = ((u r k : ℝ) : EReal))
      ∧ (∀ (j : Fin 50000) (k : Fin 256), (m ((c.tc : Thread nD τ).loc main_arg0) : S50000x256.Idx → EReal) (ix2 j k) = ((e j k : ℝ) : EReal))
      ∧ (∀ j : Fin 50000, (m ((c.tc : Thread nD τ).loc main_arg6) : S50000.Idx → EReal) (ix1 j) = ((β j : ℝ) : EReal))
      ∧ (∀ r : Fin 2048, (m ((c.tc : Thread nD τ).loc main_arg9) : S2048.Idx → BitVec 32) (ix1 r) = BitVec.ofNat 32 (l r).val) := by
  have hu : ∀ i : S2048x256.Idx, ∃ r : ℝ, (Gen.V m c main_v31 : S2048x256.Idx → EReal) i = ((r : ℝ) : EReal) := fun i => by
    obtain ⟨r, hr⟩ := user_real _ _ (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg7))
      (m ((c.tc : Thread nD τ).loc main_arg8)) hf0 hf1 i
    exact ⟨r, (congrFun (V_user m c h7 h8) i).trans hr⟩
  choose u hu using hu
  choose e he using hf0
  choose β hβ using hf6
  refine ⟨fun r k => u (ix2 r k), fun j k => e (ix2 j k), fun j => β (ix1 j),
    fun r => ⟨((m ((c.tc : Thread nD τ).loc main_arg9) : S2048.Idx → BitVec 32) (ix1 r)).toNat, h9 _⟩,
    fun r k => hu _, fun j k => he _, fun j => hβ _, fun r => ?_⟩
  exact BitVec.eq_of_toNat_eq (by rw [BitVec.toNat_ofNat]; exact (Nat.mod_eq_of_lt (BitVec.isLt _)).symm)

end Cert.HostPre

end
-- ==== Proof.Reals.lean ====
/-
  From the precondition to the real views: under it the user matrix the region is handed, the entity table, the bias and
  the labels are real-valued (in-range) arrays, the same for the kernel's region and for the reference's stages.
-/
import proofs.«401027_j10093173145844_3_alg».proof.Defs
import proofs.«401027_j10093173145844_3_alg».proof.Proof.PreDecode
import proofs.«401027_j10093173145844_3_alg».proof.Proof.HostPre

set_option maxRecDepth 16384

noncomputable section

namespace Cert.Reals

open Idealize.ShloMosaic Idealize.ShloMosaic.ValueIdx Idealize.ShloMosaic.TcCoe Idealize.SL.Sem
open Cert.KernelIdeal Cert.KernelIdeal.Gen

variable [Cert.KernelIdeal.Facts] [Cert.ReferenceIdeal.Facts] [Cert.Pre_finite_inputs.Facts]

/-- The real views of one memory satisfying the precondition, per core, with every fact the frame, the value and the
    reference modules ask of them. -/
theorem views (m : (ℓ : Loc nD τ sig) → Buf (Elt Ideal) ℓ) (hpre : Cert.Pre_KernelIdeal m) :
    ∃ (u : Dev nD → Fin 2048 → Fin 256 → ℝ) (e : Dev nD → Fin 50000 → Fin 256 → ℝ) (β : Dev nD → Fin 50000 → ℝ)
      (l : Dev nD → Fin 2048 → Fin 50000),
      (∀ (c : Dev nD) (r : Fin 2048) (k : Fin 256), (V m c main_v31 : S2048x256.Idx → EReal) (ix2 r k) = ((u c r k : ℝ) : EReal))
      ∧ (∀ (c : Dev nD) (j : Fin 50000) (k : Fin 256), (V m c main_arg0 : S50000x256.Idx → EReal) (ix2 j k) = ((e c j k : ℝ) : EReal))
      ∧ (∀ (c : Dev nD) (j : Fin 50000), (V m c main_v32 : S1x50000.Idx → EReal) (ix2 0 j) = ((β c j : ℝ) : EReal))
      ∧ (∀ (c : Dev nD) (r : Fin 2048), (V m c main_v33 : S2048x1.Idx → BitVec 32) (ix2 r 0) = BitVec.ofNat 32 (l c r).val)
      ∧ (∀ c : Dev nD, V m c main_v31 = Cert.ReferenceIdeal.ReadP.val_main_v43 (F := Ideal)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg7)) (m ((c.tc : Thread nD τ).loc main_arg8)))
      ∧ (∀ (c : Dev nD) (j : Fin 50000) (k : Fin 256), (m ((c.tc : Thread nD τ).loc main_arg0) : S50000x256.Idx → EReal) (ix2 j k) = ((e c j k : ℝ) : EReal))
      ∧ (∀ (c : Dev nD) (j : Fin 50000), (m ((c.tc : Thread nD τ).loc main_arg6) : S50000.Idx → EReal) (ix1 j) = ((β c j : ℝ) : EReal))
      ∧ (∀ (c : Dev nD) (r : Fin 2048), (m ((c.tc : Thread nD τ).loc main_arg9) : S2048.Idx → BitVec 32) (ix1 r) = BitVec.ofNat 32 (l c r).val) := by
  -- the precondition read back, per core
  have hd := fun c : Dev nD => Cert.PreDecode.decode _ _ _ _ _ _ _ _ _ _ (hpre c)
  -- the real views of what the region reads, per core
  choose u e β l hu he hβ hl using fun c : Dev nD =>
    Cert.HostPre.pre_reals m c (hd c).1 (hd c).2.1 (hd c).2.2.2.2.2.2.1 (hd c).2.2.2.2.2.2.2.1
      (hd c).2.2.2.2.2.2.2.2.1 (hd c).2.2.2.2.2.2.2.2.2
  refine ⟨u, e, β, l, hu, ?_, ?_, ?_, ?_, he, hβ, hl⟩
  · -- the entity table reaches the region as launched
    intro c j k
    rw [Gen.V_main_arg0]
    exact he c j k
  · -- the bias row is the bias vector
    intro c j
    rw [Cert.HostPre.V_bias]
    exact hβ c j
  · -- the label column is the label vector
    intro c r
    rw [Cert.HostPre.V_labels]
    exact hl c r
  · -- the user matrix is the reference's user stage
    intro c
    exact Cert.HostPre.V_user m c (hd c).2.2.2.2.2.2.2.1 (hd c).2.2.2.2.2.2.2.2.1

end Cert.Reals

end
-- ==== Proof.RefValue.lean ====
/-
  The reference's two results as the closed forms of the specification.
-/
import proofs.«401027_j10093173145844_3_alg».proof.Proof.RefRun
import proofs.«401027_j10093173145844_3_alg».proof.Proof.RefRead
import proofs.«401027_j10093173145844_3_alg».proof.Proof.Spec
import Idealize.ShloMosaic.PureOps.Ideal.Laws
import Idealize.ShloMosaic.PureOps.Reduce
import Idealize.ShloMosaic.Lib.ValueIdx
import Idealize.ShloMosaic.Lib.StableHlo.Predicate

noncomputable section

namespace Cert.RefValue

open Cert.ReferenceIdeal Cert.ReferenceIdeal.Gen Cert.ReferenceIdeal.ReadP Idealize.ShloMosaic Idealize.ShloMosaic.ValueIdx

variable [Cert.ReferenceIdeal.Facts]

/-! ## Coercions, constants and folds on the extended reals -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- A fold of the maximum from the bottom element is the supremum. -/
theorem fold_max_eq_sup {ι : Type} (s : Finset ι) (f : ι → EReal) : s.fold max ⊥ f = s.sup f := by
  classical
  refine Finset.induction_on s ?_ ?_
  · simp
  · intro a s ha ih
    rw [Finset.fold_insert ha, Finset.sup_insert, ih]

/-- The f32 pattern of minus infinity is the bottom element. -/
theorem ofBits_negInf : Ideal.ofBits .f32 0xFF800000#32 = (⊥ : EReal) := by simp [Ideal.ofBits, Ideal.ieee]

/-- The f32 pattern 0x45000000 is the real number 2048. -/
theorem ofBits_2048 : Ideal.ofBits .f32 0x45000000#32 = ((2048 : ℝ) : EReal) := by
  simp [Ideal.ofBits, Ideal.ieee, -EReal.coe_mul]; norm_num

/-- A fold over a one-element index type is one application of the operation. -/
theorem fold_fin1 {α : Type} (f : α → α → α) [Std.Commutative f] [Std.Associative f] (b : α) (g : Fin 1 → α) :
    (Finset.univ : Finset (Fin 1)).fold f b g = f (g 0) b := by
  rw [show (Finset.univ : Finset (Fin 1)) = {0} from rfl, Finset.fold_singleton]

/-! ## A maximum over the columns of a matrix, from minus infinity -/

/-- Row r with column k put back is (r, k). -/
theorem lift_row {R N : Nat} (h : (⟨2, ![R, N]⟩ : Shape).Reduces [1] (⟨1, ![R]⟩ : Shape)) (r : Fin R)
    (k : Fin ((⟨2, ![R, N]⟩ : Shape).size 1)) : h.lift (ix1 r) k = ix2 r (⟨k.val, k.isLt⟩ : Fin N) := by
  funext c; apply Fin.ext
  fin_cases c <;> rfl

/-- The reduce with a maximum body over the columns, from minus infinity, is at row r the supremum of the row. -/
theorem rowmax {R N : Nat} (x : (⟨2, ![R, N]⟩ : Shape).Idx → EReal)
    (h' : (⟨2, ![R, N]⟩ : Shape).ReducesTo [1] (⟨1, ![R]⟩ : Shape))
    (h : (⟨2, ![R, N]⟩ : Shape).Reduces [1] (⟨1, ![R]⟩ : Shape)) (hu : 0 < (⟨0, ![]⟩ : Shape).numel) (r : Fin R) :
    Host.reduce (FloatOps.maximumf (F := Ideal) (φ := .f32)) x (constant (F := Ideal) (⟨0, ![]⟩ : Shape) .f32 0xFF800000#32) h' hu (ix1 r)
      = (Finset.univ : Finset (Fin N)).sup (fun k => x (ix2 r k)) := by
  rw [Host.reduce_eq_fold_single (FloatOps.maximumf (F := Ideal) (φ := .f32)) x _ h' h hu]
  have hf : (x ∘ h.lift (ix1 r)) = fun k : Fin N => x (ix2 r k) := funext fun k => congrArg x (lift_row h r k)
  rw [← fold_max_eq_sup]
  have hi : (constant (F := Ideal) (⟨0, ![]⟩ : Shape) .f32 0xFF800000#32) (Shape.Idx.first hu) = (⊥ : EReal) := ofBits_negInf
  rw [hi]
  exact congrArg (fun f => Finset.fold max (⊥ : EReal) f (Finset.univ : Finset (Fin N))) hf

/-! ## A conjunction over a trailing axis of extent one -/

/-- Over an axis of extent one the only coordinate to put back is 0. -/
theorem lift_unit {R : Nat} (h : (⟨3, ![R, 1, 1]⟩ : Shape).Reduces [2] (⟨2, ![R, 1]⟩ : Shape)) (r : Fin R)
    (k : Fin ((⟨3, ![R, 1, 1]⟩ : Shape).size 2)) : h.lift (ix2 r (0 : Fin 1)) k = ix3 r (0 : Fin 1) (0 : Fin 1) := by
  funext c; apply Fin.ext
  have hk : k.val = 0 := by have := k.isLt; change k.val < 1 at this; omega
  fin_cases c
  · rfl
  · rfl
  · show k.val = 0
    exact hk

/-- The reduce with an and body over an axis of extent one is the one element and the initial bit. -/
theorem and_reduce_unit {R : Nat} (x : IVec ⟨3, ![R, 1, 1]⟩ 1) {u : Shape} (init : u.Idx → BitVec 1)
    (h' : (⟨3, ![R, 1, 1]⟩ : Shape).ReducesTo [2] (⟨2, ![R, 1]⟩ : Shape))
    (h : (⟨3, ![R, 1, 1]⟩ : Shape).Reduces [2] (⟨2, ![R, 1]⟩ : Shape)) (hu : 0 < u.numel) (r : Fin R) :
    Host.reduce IntOp.andi x init h' hu (ix2 r (0 : Fin 1))
      = IntOp.andi (x (ix3 r (0 : Fin 1) (0 : Fin 1))) (init (Shape.Idx.first hu)) := by
  rw [Host.reduce_eq_fold_single IntOp.andi x init h' h hu]
  refine (fold_fin1 IntOp.andi (init (Shape.Idx.first hu)) (x ∘ h.lift (ix2 r (0 : Fin 1)))).trans ?_
  exact congrArg (fun i => IntOp.andi (x i) (init (Shape.Idx.first hu))) (lift_unit h r _)

/-! ## The gather that takes one element per row

An [R, N] matrix gathered at an [R, 1, 1] array of column numbers, the row axis a batching axis of both and the
column axis collapsed: element (r, 0) of the result is the matrix at row r and at the column number of row r, read
signed and clamped into the row. -/

/-- Those dimension numbers. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

section Along
variable {R N w : Nat}
    (wf : GatherDims.WF ⟨2, ![R, N]⟩ ⟨3, ![R, 1, 1]⟩ ⟨2, ![R, 1]⟩ [] [1] [0] [1] [0] 2 ![1, 1])
    (idx : IVec ⟨3, ![R, 1, 1]⟩ w) (r : Fin R)

/-- On the row axis the operand index is the result's row. -/
theorem along_op0 : ((alongDims R N wf).operandIdx (ix2 r (0 : Fin 1)) idx 0).val = r.val := by
  show (alongDims R N wf).start (ix2 r (0 : Fin 1)) idx 0 + (alongDims R N wf).batchCoord (ix2 r (0 : Fin 1)) 0
      + (alongDims R N wf).offCoord (ix2 r (0 : Fin 1)) 0 = _
  have hb : (0 : Fin 2) ∈ (alongDims R N wf).operandBatchingDims := List.mem_singleton.mpr rfl
  rw [GatherDims.start_batching _ _ _ _ hb,
    GatherDims.offCoord_eq_zero _ _ _ (fun h => (((alongDims R N wf).mem_sKept _).1 h).2 hb)]
  simp only [Nat.zero_add, Nat.add_zero]
  unfold GatherDims.batchCoord
  rw [dif_pos hb]
  rfl

/-- On the column axis the operand index is the row's column number, read signed and clamped. -/
theorem along_op1 : ((alongDims R N wf).operandIdx (ix2 r (0 : Fin 1)) idx 1).val
    = min (idx (ix3 r (0 : Fin 1) (0 : Fin 1))).toInt.toNat (N - 1) := by
  show (alongDims R N wf).start (ix2 r (0 : Fin 1)) idx 1 + (alongDims R N wf).batchCoord (ix2 r (0 : Fin 1)) 1
      + (alongDims R N wf).offCoord (ix2 r (0 : Fin 1)) 1 = _
  have hnb : (1 : Fin 2) ∉ (alongDims R N wf).operandBatchingDims := by
    intro h; exact absurd (congrArg Fin.val (List.mem_singleton.mp h)) Nat.one_ne_zero
  have hc : (1 : Fin 2) ∈ (alongDims R N wf).collapsedSliceDims := List.mem_singleton.mpr rfl
  rw [GatherDims.batchCoord_eq_zero _ _ _ hnb,
    GatherDims.offCoord_eq_zero _ _ _ (fun h => (((alongDims R N wf).mem_sKept _).1 h).1 hc)]
  simp only [Nat.add_zero]
  unfold GatherDims.start
  rw [dif_pos (show (1 : Fin 2) ∈ (alongDims R N wf).startIndexMap from List.mem_singleton.mpr rfl)]
  have hsi : (alongDims R N wf).siIdx (ix2 r (0 : Fin 1)) ⟨List.idxOf (1 : Fin 2) (alongDims R N wf).startIndexMap,
      List.idxOf_lt_length_iff.2 (List.mem_singleton.mpr rfl)⟩ = ix3 r (0 : Fin 1) (0 : Fin 1) := by
    funext b; refine Fin.ext ?_
    match b with
    | ⟨0, _⟩ => rfl
    | ⟨1, _⟩ => rfl
    | ⟨2, _⟩ => rfl
  rw [hsi]
  rfl

/-- The gather at (r, 0), when row r's column number, read signed and clamped, is n. -/
theorem gather_along {α : Type} (x : (⟨2, ![R, N]⟩ : Shape).Idx → α) (n : Fin N)
    (hn : min (idx (ix3 r (0 : Fin 1) (0 : Fin 1))).toInt.toNat (N - 1) = n.val) :
    Host.gather (alongDims R N wf) x idx (ix2 r (0 : Fin 1)) = x (ix2 r n) := by
  unfold Host.gather
  congr 1
  funext a
  refine Fin.ext ?_
  match a with
  | ⟨0, _⟩ => exact along_op0 wf idx r
  | ⟨1, _⟩ => exact (along_op1 wf idx r).trans hn

end Along

/-! ## Small non-negative 32-bit words -/

theorem w_toNat (n : Nat) (hn : n < 50000) : (BitVec.ofNat 32 n).toNat = n := by
  rw [BitVec.toNat_ofNat]; exact Nat.mod_eq_of_lt (lt_trans hn (by norm_num))

/-- Such a word is not below zero … -/
theorem w_slt0 (n : Nat) (hn : n < 50000) : IntOp.cmpi .slt (BitVec.ofNat 32 n) 0#32 = 0#1 := by
  apply eq_zero_of_ne_one
  intro h
  have h2 := (StableHlo.Predicate.slt_iff_toNat (a := BitVec.ofNat 32 n) (b := 0#32)
    (by rw [w_toNat n hn]; exact lt_trans hn (by norm_num)) (by decide)).mp h
  exact absurd h2 (Nat.not_lt_zero _)

/-- … it is at least zero … -/
theorem w_sge0 (n : Nat) (hn : n < 50000) : IntOp.cmpi .sge (BitVec.ofNat 32 n) 0#32 = 1#1 :=
  (StableHlo.Predicate.sge_iff_toNat (a := BitVec.ofNat 32 n) (b := 0#32)
    (by rw [w_toNat n hn]; exact lt_trans hn (by norm_num)) (by decide)).mpr (Nat.zero_le _)

/-- … at most 49999 … -/
theorem w_sle (n : Nat) (hn : n < 50000) : IntOp.cmpi .sle (BitVec.ofNat 32 n) 49999#32 = 1#1 :=
  (StableHlo.Predicate.sle_iff_toNat (a := BitVec.ofNat 32 n) (b := 49999#32)
    (by rw [w_toNat n hn]; exact lt_trans hn (by norm_num)) (by decide)).mpr (by
      rw [w_toNat n hn]; show n ≤ 49999; omega)

/-- … and read signed and clamped into [0, 49999] it is its value. -/
theorem w_idx (n : Nat) (hn : n < 50000) : min (BitVec.ofNat 32 n).toInt.toNat (50000 - 1) = n := by
  rw [StableHlo.Predicate.toInt_ofNat_small n (lt_trans hn (by norm_num)), Int.toNat_natCast]; omega

/-- All 50000 entities lie inside the first 25 tiles of width 2048. -/
theorem seen_all : Cert.Spec.seen 25 = Finset.univ := by
  unfold Cert.Spec.seen
  refine Finset.filter_true_of_mem fun j _ => ?_
  have := j.isLt
  omega

/-! ## The scores -/

/-- The left operand's index of the contraction at result (r, j), term k, is (r, k). -/
theorem lidx45 (r : Fin 2048) (j : Fin 50000) (k : Fin 256) : lidx_main_v45 (ix2 r j) k = ix2 r k := by
  funext a; match a with | ⟨0, _⟩ => rfl | ⟨1, _⟩ => rfl

/-- The right operand's index of the contraction at result (r, j), term k, read back through the transpose, is (j, k). -/
theorem ridx45 (r : Fin 2048) (j : Fin 50000) (k : Fin 256) : idx_main_v44 (ridx_main_v45 (ix2 r j) k) = ix2 j k := by
  funext a; match a with | ⟨0, _⟩ => rfl | ⟨1, _⟩ => rfl

/-- The bias broadcast down the rows reads, at (r, j), the bias at j. -/
theorem idx4746 (r : Fin 2048) (j : Fin 50000) : idx_main_v46 (idx_main_v47 (ix2 r j)) = ix1 j := by
  funext a; match a with | ⟨0, _⟩ => rfl

/-- The reference's scores: the inner product of the user row with the entity's embedding, plus the entity's bias. -/
theorem ref_scores
    (x0 : (⟨S50000x256, .f32⟩ : BufTy).Contents (Elt Ideal))
    (x1 : (⟨S30000x256, .f32⟩ : BufTy).Contents (Elt Ideal))
    (x2 : (⟨S256x512, .f32⟩ : BufTy).Contents (Elt Ideal))
    (x3 : (⟨S256, .f32⟩ : BufTy).Contents (Elt Ideal))
    (x4 : (⟨S1x256, .f32⟩ : BufTy).Contents (Elt Ideal))
    (x5 : (⟨S1, .f32⟩ : BufTy).Contents (Elt Ideal))
    (x6 : (⟨S50000, .f32⟩ : BufTy).Contents (Elt Ideal))
    (x7 : (⟨S2048x100, .i32⟩ : BufTy).Contents (Elt Ideal))
    (x8 : (⟨S2048x256, .i32⟩ : BufTy).Contents (Elt Ideal))
    (u : Fin 2048 → Fin 256 → ℝ) (e : Fin 50000 → Fin 256 → ℝ) (β : Fin 50000 → ℝ)
    (hu : ∀ (r : Fin 2048) (k : Fin 256), val_main_v43 (F := Ideal) x0 x1 x2 x3 x4 x5 x7 x8 (ix2 r k) = ((u r k : ℝ) : EReal))
    (he : ∀ (j : Fin 50000) (k : Fin 256), x0 (ix2 j k) = ((e j k : ℝ) : EReal))
    (hβ : ∀ j : Fin 50000, x6 (ix1 j) = ((β j : ℝ) : EReal))
    (r : Fin 2048) (j : Fin 50000) :
    val_main_v48 (F := Ideal) x0 x1 x2 x3 x4 x5 x6 x7 x8 (ix2 r j) = ((Cert.Spec.score u e β r j : ℝ) : EReal) := by
  rw [val_main_v48_apply, val_main_v45_apply, val_main_v47_apply, val_main_v46_apply, idx4746, hβ, Ideal.addf_def]
  have hs : ∀ k : Fin 256,
      val_main_v43 (F := Ideal) x0 x1 x2 x3 x4 x5 x7 x8 (lidx_main_v45 (ix2 r j) k)
        * val_main_v44 (F := Ideal) x0 (ridx_main_v45 (ix2 r j) k) = ((u r k * e j k : ℝ) : EReal) := by
    intro k
    rw [val_main_v44_apply, lidx45, ridx45, hu, he, EReal.coe_mul]
  rw [Finset.sum_congr rfl (fun k _ => hs k)]
  unfold Cert.Spec.score
  rw [EReal.coe_add, coe_sum]

/-! ## The loss, from the scores

`Y` stands for the real scores; every lemma below takes the one fact that the scores stage holds them. -/

section Loss

variable (x0 : (⟨S50000x256, .f32⟩ : BufTy).Contents (Elt Ideal))
    (x1 : (⟨S30000x256, .f32⟩ : BufTy).Contents (Elt Ideal))
    (x2 : (⟨S256x512, .f32⟩ : BufTy).Contents (Elt Ideal))
    (x3 : (⟨S256, .f32⟩ : BufTy).Contents (Elt Ideal))
    (x4 : (⟨S1x256, .f32⟩ : BufTy).Contents (Elt Ideal))
    (x5 : (⟨S1, .f32⟩ : BufTy).Contents (Elt Ideal))
    (x6 : (⟨S50000, .f32⟩ : BufTy).Contents (Elt Ideal))
    (x7 : (⟨S2048x100, .i32⟩ : BufTy).Contents (Elt Ideal))
    (x8 : (⟨S2048x256, .i32⟩ : BufTy).Contents (Elt Ideal))
    (x9 : (⟨S2048, .i32⟩ : BufTy).Contents (Elt Ideal))
variable (Y : Fin 2048 → Fin 50000 → ℝ) (l : Fin 2048 → Fin 50000)

/-- log-softmax's row maximum, before the guard against an empty row. -/
theorem call0_v0_row (hy : ∀ (r : Fin 2048) (j : Fin 50000), val_main_v48 (F := Ideal) x0 x1 x2 x3 x4 x5 x6 x7 x8 (ix2 r j) = ((Y r j : ℝ) : EReal)) (r : Fin 2048) :
    val_main_call0_v0 (F := Ideal) x0 x1 x2 x3 x4 x5 x6 x7 x8 (ix1 r) = Cert.Spec.runMax (Y r) 25 := by
  unfold val_main_call0_v0
  generalize val_main_v48 (F := Ideal) x0 x1 x2 x3 x4 x5 x6 x7 x8 = y at hy ⊢
  refine (rowmax y _ (by decide) _ r).trans ?_
  unfold Cert.Spec.runMax
  rw [seen_all]
  exact congrArg (fun f => (Finset.univ : Finset (Fin 50000)).sup f) (funext fun k => hy r k)

/-- log-softmax's row maximum: the maximum with minus infinity changes nothing. -/
theorem call0_v2_row (hy : ∀ (r : Fin 2048) (j : Fin 50000), val_main_v48 (F := Ideal) x0 x1 x2 x3 x4 x5 x6 x7 x8 (ix2 r j) = ((Y r j : ℝ) : EReal)) (r : Fin 2048) :
    val_main_call0_v2 (F := Ideal) x0 x1 x2 x3 x4 x5 x6 x7 x8 (ix1 r) = Cert.Spec.runMax (Y r) 25 := by
  rw [val_main_call0_v2_apply, val_main_call0_v1_apply, val_main_call0_cst_0_apply, call0_v0_row x0 x1 x2 x3 x4 x5 x6 x7 x8 Y hy r,
    Ideal.maximumf_def, Ideal.ofBits_def, ofBits_negInf]
  exact max_bot_left _

/-- The shifted scores. -/
theorem call0_v5_at (hy : ∀ (r : Fin 2048) (j : Fin 50000), val_main_v48 (F := Ideal) x0 x1 x2 x3 x4 x5 x6 x7 x8 (ix2 r j) = ((Y r j : ℝ) : EReal)) (r : Fin 2048) (j : Fin 50000) :
    val_main_call0_v5 (F := Ideal) x0 x1 x2 x3 x4 x5 x6 x7 x8 (ix2 r j) = ((Y r j : ℝ) : EReal) - Cert.Spec.runMax (Y r) 25 := by
  rw [val_main_call0_v5_apply, val_main_call0_v4_apply, val_main_call0_v3_apply,
    show idx_main_call0_v3 (idx_main_call0_v4 (ix2 r j)) = ix1 r from (by funext a; match a with | ⟨0, _⟩ => rfl),
    call0_v2_row x0 x1 x2 x3 x4 x5 x6 x7 x8 Y hy r, hy r j, Ideal.subf_def]

/-- The row's sum of the exponentials of the shifted scores. -/
theorem call0_v7_row (hy : ∀ (r : Fin 2048) (j : Fin 50000), val_main_v48 (F := Ideal) x0 x1 x2 x3 x4 x5 x6 x7 x8 (ix2 r j) = ((Y r j : ℝ) : EReal)) (r : Fin 2048) :
    val_main_call0_v7 (F := Ideal) x0 x1 x2 x3 x4 x5 x6 x7 x8 (ix1 r) = Cert.Spec.runSum (Y r) 25 := by
  rw [val_main_call0_v7_apply, val_main_call0_cst_1_apply, Ideal.ofBits_def, Ideal.ofBits_zero_f32, zero_add]
  unfold Cert.Spec.runSum
  rw [seen_all]
  refine Finset.sum_congr rfl fun k _ => ?_
  rw [show idx_main_call0_v7 (ix1 r) k = ix2 r k from (by funext a; match a with | ⟨0, _⟩ => rfl | ⟨1, _⟩ => rfl),
    val_main_call0_v6_apply, call0_v5_at x0 x1 x2 x3 x4 x5 x6 x7 x8 Y hy r k, Ideal.hostUnary_exp_def]

/-- log-softmax at (r, j): the shifted score minus the logarithm of the row's sum. -/
theorem v49_at (hy : ∀ (r : Fin 2048) (j : Fin 50000), val_main_v48 (F := Ideal) x0 x1 x2 x3 x4 x5 x6 x7 x8 (ix2 r j) = ((Y r j : ℝ) : EReal)) (r : Fin 2048) (j : Fin 50000) :
    val_main_v49 (F := Ideal) x0 x1 x2 x3 x4 x5 x6 x7 x8 (ix2 r j)
      = (((Y r j : ℝ) : EReal) - Cert.Spec.runMax (Y r) 25) - Ideal.log (Cert.Spec.runSum (Y r) 25) := by
  rw [val_main_v49_apply, call0_v5_at x0 x1 x2 x3 x4 x5 x6 x7 x8 Y hy r j, val_main_call0_v10_apply, val_main_call0_v9_apply,
    val_main_call0_v8_apply,
    show idx_main_call0_v8 (idx_main_call0_v10 (ix2 r j)) = ix1 r from (by funext a; match a with | ⟨0, _⟩ => rfl),
    call0_v7_row x0 x1 x2 x3 x4 x5 x6 x7 x8 Y hy r, Ideal.hostUnary_log_def, Ideal.subf_def]

/-- The label column. -/
theorem v50_at (hl : ∀ r : Fin 2048, x9 (ix1 r) = BitVec.ofNat 32 (l r).val) (r : Fin 2048) :
    val_main_v50 (F := Ideal) x9 (ix2 r (0 : Fin 1)) = BitVec.ofNat 32 (l r).val := by
  rw [val_main_v50_apply,
    show idx_main_v50 (ix2 r (0 : Fin 1)) = ix1 r from (by funext a; match a with | ⟨0, _⟩ => rfl), hl r]

/-- A label in range is not negative, so take_along_axis leaves it as it is. -/
theorem call1_v4_at (hl : ∀ r : Fin 2048, x9 (ix1 r) = BitVec.ofNat 32 (l r).val) (r : Fin 2048) :
    val_main_call1_v4 (F := Ideal) x9 (ix2 r (0 : Fin 1)) = BitVec.ofNat 32 (l r).val := by
  rw [val_main_call1_v4_apply, val_main_call1_v1_apply, val_main_call1_v0_apply, val_main_call1_c_apply,
    v50_at x9 l hl r, w_slt0 _ (l r).isLt, select_zero]

/-- The label column with a trailing unit axis. -/
theorem call1_v5_at (hl : ∀ r : Fin 2048, x9 (ix1 r) = BitVec.ofNat 32 (l r).val) (r : Fin 2048) :
    val_main_call1_v5 (F := Ideal) x9 (ix3 r (0 : Fin 1) (0 : Fin 1)) = BitVec.ofNat 32 (l r).val := by
  rw [val_main_call1_v5_apply,
    show idx_main_call1_v5 (ix3 r (0 : Fin 1) (0 : Fin 1)) = ix2 r (0 : Fin 1) from (by
      funext a; refine Fin.ext ?_
      match a with
      | ⟨0, _⟩ => show ((r.val * 1 + 0) * 1 + 0) / 1 = r.val; omega
      | ⟨1, _⟩ => rfl),
    call1_v4_at x9 l hl r]

/-- The range test 0 ≤ label ≤ 49999 holds. -/
theorem call1_v11_at (hl : ∀ r : Fin 2048, x9 (ix1 r) = BitVec.ofNat 32 (l r).val) (r : Fin 2048) :
    val_main_call1_v11 (F := Ideal) x9 (ix3 r (0 : Fin 1) (0 : Fin 1)) = 1#1 := by
  rw [val_main_call1_v11_apply, val_main_call1_v7_apply, val_main_call1_v10_apply, call1_v5_at x9 l hl r,
    val_main_call1_v6_apply, val_main_call1_c_2_apply, val_main_call1_v9_apply, val_main_call1_v8_apply,
    val_main_call1_c_1_apply, w_sge0 _ (l r).isLt, w_sle _ (l r).isLt]
  all_goals decide

/-- Its conjunction over the unit axis holds. -/
theorem call1_v12_at (hl : ∀ r : Fin 2048, x9 (ix1 r) = BitVec.ofNat 32 (l r).val) (r : Fin 2048) :
    val_main_call1_v12 (F := Ideal) x9 (ix2 r (0 : Fin 1)) = 1#1 := by
  unfold val_main_call1_v12
  refine (and_reduce_unit _ _ _ (by decide) _ r).trans ?_
  rw [call1_v11_at x9 l hl r, val_main_call1_c_3_apply]
  all_goals decide

/-- The gather reads log-softmax at the row's label. -/
theorem call1_v13_at (hy : ∀ (r : Fin 2048) (j : Fin 50000), val_main_v48 (F := Ideal) x0 x1 x2 x3 x4 x5 x6 x7 x8 (ix2 r j) = ((Y r j : ℝ) : EReal)) (hl : ∀ r : Fin 2048, x9 (ix1 r) = BitVec.ofNat 32 (l r).val) (r : Fin 2048) :
    val_main_call1_v13 (F := Ideal) x0 x1 x2 x3 x4 x5 x6 x7 x8 x9 (ix2 r (0 : Fin 1)) = Cert.Spec.rowLogpR (Y r) (l r) := by
  unfold val_main_call1_v13
  refine (gather_along (R := 2048) (N := 50000) _ _ r _ (l r) ?_).trans ?_
  · rw [call1_v5_at x9 l hl r]; exact w_idx _ (l r).isLt
  · rw [v49_at x0 x1 x2 x3 x4 x5 x6 x7 x8 Y hy r (l r)]; rfl

/-- take_along_axis at row r: the row's log-probability of its label. -/
theorem v51_at (hy : ∀ (r : Fin 2048) (j : Fin 50000), val_main_v48 (F := Ideal) x0 x1 x2 x3 x4 x5 x6 x7 x8 (ix2 r j) = ((Y r j : ℝ) : EReal)) (hl : ∀ r : Fin 2048, x9 (ix1 r) = BitVec.ofNat 32 (l r).val) (r : Fin 2048) :
    val_main_v51 (F := Ideal) x0 x1 x2 x3 x4 x5 x6 x7 x8 x9 (ix2 r (0 : Fin 1)) = Cert.Spec.rowLogpR (Y r) (l r) := by
  rw [val_main_v51_apply, call1_v12_at x9 l hl r, select_one, call1_v13_at x0 x1 x2 x3 x4 x5 x6 x7 x8 x9 Y l hy hl r]

/-- The reference's loss, given that its scores stage holds the real scores `Y`. -/
theorem ref_loss_of_scores (hy : ∀ (r : Fin 2048) (j : Fin 50000), val_main_v48 (F := Ideal) x0 x1 x2 x3 x4 x5 x6 x7 x8 (ix2 r j) = ((Y r j : ℝ) : EReal)) (hl : ∀ r : Fin 2048, x9 (ix1 r) = BitVec.ofNat 32 (l r).val) :
    val_main_v54 (F := Ideal) x0 x1 x2 x3 x4 x5 x6 x7 x8 x9 = fun _ => Cert.Spec.lossR Y l := by
  funext i
  rw [val_main_v54_apply, val_main_v53_apply, val_main_v52_apply, val_main_cst_9_apply, val_main_cst_10_apply,
    Ideal.ofBits_def, Ideal.ofBits_def, Ideal.ofBits_zero_f32, ofBits_2048, zero_add, sum_idx2]
  have hrow : ∀ a : Fin 2048, ∑ b : Fin 1, val_main_v51 (F := Ideal) x0 x1 x2 x3 x4 x5 x6 x7 x8 x9 (ix2 a b) = Cert.Spec.rowLogpR (Y a) (l a) := by
    intro a
    rw [Fin.sum_univ_one]
    exact v51_at x0 x1 x2 x3 x4 x5 x6 x7 x8 x9 Y l hy hl a
  rw [Finset.sum_congr rfl (fun a _ => hrow a), Ideal.hostNegf_def, Ideal.negf_def, Ideal.hostDivf_def]
  rfl

end Loss

/-- The reference's loss: minus the mean over the rows of the log-probability of the row's label. -/
theorem ref_loss
    (x0 : (⟨S50000x256, .f32⟩ : BufTy).Contents (Elt Ideal))
    (x1 : (⟨S30000x256, .f32⟩ : BufTy).Contents (Elt Ideal))
    (x2 : (⟨S256x512, .f32⟩ : BufTy).Contents (Elt Ideal))
    (x3 : (⟨S256, .f32⟩ : BufTy).Contents (Elt Ideal))
    (x4 : (⟨S1x256, .f32⟩ : BufTy).Contents (Elt Ideal))
    (x5 : (⟨S1, .f32⟩ : BufTy).Contents (Elt Ideal))
    (x6 : (⟨S50000, .f32⟩ : BufTy).Contents (Elt Ideal))
    (x7 : (⟨S2048x100, .i32⟩ : BufTy).Contents (Elt Ideal))
    (x8 : (⟨S2048x256, .i32⟩ : BufTy).Contents (Elt Ideal))
    (x9 : (⟨S2048, .i32⟩ : BufTy).Contents (Elt Ideal))
    (u : Fin 2048 → Fin 256 → ℝ) (e : Fin 50000 → Fin 256 → ℝ) (β : Fin 50000 → ℝ) (l : Fin 2048 → Fin 50000)
    (hu : ∀ (r : Fin 2048) (k : Fin 256), val_main_v43 (F := Ideal) x0 x1 x2 x3 x4 x5 x7 x8 (ix2 r k) = ((u r k : ℝ) : EReal))
    (he : ∀ (j : Fin 50000) (k : Fin 256), x0 (ix2 j k) = ((e j k : ℝ) : EReal))
    (hβ : ∀ j : Fin 50000, x6 (ix1 j) = ((β j : ℝ) : EReal))
    (hl : ∀ r : Fin 2048, x9 (ix1 r) = BitVec.ofNat 32 (l r).val) :
    val_main_v54 (F := Ideal) x0 x1 x2 x3 x4 x5 x6 x7 x8 x9 = fun _ => Cert.Spec.lossR (Cert.Spec.score u e β) l :=
  ref_loss_of_scores x0 x1 x2 x3 x4 x5 x6 x7 x8 x9 (Cert.Spec.score u e β) l
    (fun r j => ref_scores x0 x1 x2 x3 x4 x5 x6 x7 x8 u e β hu he hβ r j) hl

end Cert.RefValue

end
-- ==== Proof.Assemble.lean ====
/-
  The five conjuncts. The idealized kernel's run names its two results - the scores array after the last write-back and
  the loss buffer after the host lines -; the reference's run ends at its two stages; under the precondition both are
  the specification's scores and its loss, which the arithmetic of the running statistics shows to be one number.
-/
import proofs.«401027_j10093173145844_3_alg».proof.Defs
import proofs.«401027_j10093173145844_3_alg».proof.Proof.Gen.Kernel
import proofs.«401027_j10093173145844_3_alg».proof.Proof.Gen.KernelIdeal
import proofs.«401027_j10093173145844_3_alg».proof.Proof.Gen.ReferenceIdeal
import proofs.«401027_j10093173145844_3_alg».proof.Proof.Gen.Pre_finite_inputs
import proofs.«401027_j10093173145844_3_alg».proof.Proof.KFrame
import proofs.«401027_j10093173145844_3_alg».proof.Proof.IFrame
import proofs.«401027_j10093173145844_3_alg».proof.Proof.IValue
import proofs.«401027_j10093173145844_3_alg».proof.Proof.ITail
import proofs.«401027_j10093173145844_3_alg».proof.Proof.Reals
import proofs.«401027_j10093173145844_3_alg».proof.Proof.RefRunThm
import proofs.«401027_j10093173145844_3_alg».proof.Proof.RefRead
import proofs.«401027_j10093173145844_3_alg».proof.Proof.RefValue
import proofs.«401027_j10093173145844_3_alg».proof.Proof.TileMath

set_option maxRecDepth 16384

noncomputable section

namespace Cert.Assemble

open Idealize.ShloMosaic Idealize.ShloMosaic.ValueIdx Idealize.ShloMosaic.TcCoe Idealize.SL.Sem
open Cert.KernelIdeal Cert.KernelIdeal.Gen Cert.Spec Cert.IData

variable (m : (ℓ : Loc nD τ sig) → Buf (Elt Ideal) ℓ) (ρ : Dev nD → PrngReg)
variable (u : Dev nD → Fin 2048 → Fin 256 → ℝ) (e : Dev nD → Fin 50000 → Fin 256 → ℝ) (β : Dev nD → Fin 50000 → ℝ)
  (l : Dev nD → Fin 2048 → Fin 50000)

/-- The idealized kernel's run with its results named: the scores array as the write-backs leave it, the loss buffer as
    the host lines after the region leave it, the arguments unchanged. -/
theorem kernel_run
    (hu : ∀ (c : Dev nD) (r : Fin 2048) (k : Fin 256), (V m c main_v31 : S2048x256.Idx → EReal) (ix2 r k) = ((u c r k : ℝ) : EReal))
    (he : ∀ (c : Dev nD) (j : Fin 50000) (k : Fin 256), (V m c main_arg0 : S50000x256.Idx → EReal) (ix2 j k) = ((e c j k : ℝ) : EReal))
    (hβ : ∀ (c : Dev nD) (j : Fin 50000), (V m c main_v32 : S1x50000.Idx → EReal) (ix2 0 j) = ((β c j : ℝ) : EReal))
    (hl : ∀ (c : Dev nD) (r : Fin 2048), (V m c main_v33 : S2048x1.Idx → BitVec 32) (ix2 r 0) = BitVec.ofNat 32 (l c r).val) :
    θ_run (defs (F := Ideal)) (onTc (τ := τ) (main (F := Ideal))) ⟨m, fun _ => 0, ρ⟩ (fun r => ∀ c : Dev nD,
      r.2.mem ((c.tc : Thread nD τ).loc main_v34_0) = (dats m u e β l 0 c).arrAt 4 cfg0.N
      ∧ r.2.mem ((c.tc : Thread nD τ).loc main_v39) = Pipeline.afterTail₀ cfgs (dats m u e β l) 0 (V0 m) [hostOps1] c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 4,
      (h c).2 main_v39 (Pipeline.mem_restRefs_of main_v39 (by decide) (by decide)),
      ((h c).1 1).trans (((dats m u e β l 0 c).arrAt_in 1 rfl _).trans ((A_eq m u e β l c 1).trans (V_main_arg0 m c))),
      (((h c).2 main_arg1 (Pipeline.mem_restRefs_of main_arg1 (by decide) (by decide))).trans (W_main_arg1 m (dats m u e β l) c)),
      (((h c).2 main_arg2 (Pipeline.mem_restRefs_of main_arg2 (by decide) (by decide))).trans (W_main_arg2 m (dats m u e β l) c)),
      (((h c).2 main_arg3 (Pipeline.mem_restRefs_of main_arg3 (by decide) (by decide))).trans (W_main_arg3 m (dats m u e β l) c)),
      (((h c).2 main_arg4 (Pipeline.mem_restRefs_of main_arg4 (by decide) (by decide))).trans (W_main_arg4 m (dats m u e β l) c)),
      (((h c).2 main_arg5 (Pipeline.mem_restRefs_of main_arg5 (by decide) (by decide))).trans (W_main_arg5 m (dats m u e β l) c)),
      (((h c).2 main_arg6 (Pipeline.mem_restRefs_of main_arg6 (by decide) (by decide))).trans (W_main_arg6 m (dats m u e β l) c)),
      (((h c).2 main_arg7 (Pipeline.mem_restRefs_of main_arg7 (by decide) (by decide))).trans (W_main_arg7 m (dats m u e β l) c)),
      (((h c).2 main_arg8 (Pipeline.mem_restRefs_of main_arg8 (by decide) (by decide))).trans (W_main_arg8 m (dats m u e β l) c)),
      (((h c).2 main_arg9 (Pipeline.mem_restRefs_of main_arg9 (by decide) (by decide))).trans (W_main_arg9 m (dats m u e β l) c))⟩)
    (Cert.IFrame.run_main m ρ u e β l hu he hβ hl)

/-- The idealized kernel's frame: the same run, read at the arguments. -/
theorem frame_ki : Cert.frame_KernelIdeal := by
  intro m ρ hpre
  obtain ⟨u, e, β, l, hu, he, hβ, hl, -, -, -, -⟩ := Cert.Reals.views m hpre
  exact frame_of m ρ (dats m u e β l) (A_eq m u e β l) (Cert.IFrame.run_main m ρ u e β l hu he hβ hl)

/-- The word-level kernel's frame. -/
theorem frame_k : Cert.frame_Kernel := fun m ρ _ => Cert.KFrame.frame m ρ

/-- The reference's frame: its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass's three rewrites: two round trips through bf16 are the identity on the exact values, and the named
    mask fill denotes -∞ by the certificate's table. -/
theorem preserves : Cert.preserves_Kernel_KernelIdeal :=
  ⟨IdealRules.truncf_extf.statement _ .f32 .bf16, IdealRules.truncf_extf.statement _ .f32 .bf16,
    IdealRules.named_const.statement Cert.KernelIdeal.κ "neg_big" .f32 0xFF333332#32 ⊥ rfl⟩

set_option maxHeartbeats 4000000 in
/-- The two programs' results agree: the scores entry by entry, and the loss because the kernel's mean of
    (log-sum-exp − label score) is the reference's negated mean log-probability. -/
theorem algebraic : Cert.algebraic_KernelIdeal_ReferenceIdeal := by
  intro m ρ m' ρ' hpre hagree
  obtain ⟨u, e, β, l, hu, he, hβ, hl, huser, he', hβ', hl'⟩ := Cert.Reals.views m hpre
  refine ⟨fun c => (dats m u e β l 0 c).arrAt 4 cfg0.N,
    fun c => Pipeline.afterTail₀ cfgs (dats m u e β l) 0 (V0 m) [hostOps1] c main_v39,
    kernel_run m ρ u e β l hu he hβ hl, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · -- the scores
    have hu' : ∀ (r : Fin 2048) (k : Fin 256), Cert.ReferenceIdeal.ReadP.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (ix2 r k) = ((u c r k : ℝ) : EReal) := by
      intro r k; rw [← huser c]; exact hu c r k
    rw [Cert.ReferenceIdeal.ReadP.val_main_v48_eq]
    obtain ⟨a0, a1, a2, a3, a4, a5, a6, a7, a8, a9⟩ := hagree c
    rw [a0, a1, a2, a3, a4, a5, a6, a7, a8]
    funext i
    obtain ⟨r, j, rfl⟩ : ∃ (r : Fin 2048) (j : Fin 50000), i = ix2 r j := ⟨i 0, i 1, eq_ix2 i⟩
    exact (Cert.RefValue.ref_scores _ _ _ _ _ _ _ _ _ (u c) (e c) (β c) hu' (he' c) (hβ' c) r j).trans
      (Cert.IValue.scores_final m u e β l c r j).symm
  · -- the loss
    have hu' : ∀ (r : Fin 2048) (k : Fin 256), Cert.ReferenceIdeal.ReadP.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (ix2 r k) = ((u c r k : ℝ) : EReal) := by
      intro r k; rw [← huser c]; exact hu c r k
    rw [Cert.ReferenceIdeal.ReadP.val_main_v54_eq]
    obtain ⟨a0, a1, a2, a3, a4, a5, a6, a7, a8, a9⟩ := hagree c
    rw [a0, a1, a2, a3, a4, a5, a6, a7, a8, a9]
    refine (Cert.RefValue.ref_loss _ _ _ _ _ _ _ _ _ _ (u c) (e c) (β c) (l c) hu' (he' c) (hβ' c) (hl' c)).trans ?_
    have ht := Cert.ITail.tail_loss m (dats m u e β l) c (sc u e β c) (l c)
      (Cert.IValue.lse_final m u e β l c) (Cert.IValue.lab_final m u e β l c)
    have hsc : sc u e β c = score (u c) (e c) (β c) := rfl
    rw [hsc] at ht
    beta_reduce
    refine Eq.trans ?_ ht.symm
    funext _
    exact (lossK_eq_lossR (score (u c) (e c) (β c)) (l c)).symm

end Cert.Assemble

end
-- ==== Proof.lean ====
/-
  The certificate: the kernel computes rec_scores = user · entity_embᵀ + bias tile by tile, with a running maximum, a
  running sum of shifted exponentials and the label's score carried across the column tiles, and the loss as the mean
  of (log-sum-exp − label score); the reference computes the scores by one product and the loss by log-softmax and a
  gather at the labels. Over the extended reals, for finite float inputs and in-range indices, the two agree: the scores
  entry by entry, the loss by the arithmetic of the running statistics (the padded columns of the last tile are filled
  with -∞ and contribute nothing to the maximum or to the sum).
-/
import proofs.«401027_j10093173145844_3_alg».proof.Defs
import proofs.«401027_j10093173145844_3_alg».proof.Proof.Gen.Kernel
import proofs.«401027_j10093173145844_3_alg».proof.Proof.Gen.KernelIdeal
import proofs.«401027_j10093173145844_3_alg».proof.Proof.Gen.ReferenceIdeal
import proofs.«401027_j10093173145844_3_alg».proof.Proof.Gen.Pre_finite_inputs
import proofs.«401027_j10093173145844_3_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Assemble.frame_k, Cert.Assemble.frame_ki, Cert.Assemble.frame_ri, Cert.Assemble.preserves, Cert.Assemble.algebraic⟩

end Cert.Proof

end
